-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S256x1 : Shape := ⟨2, ![256, 1]⟩
abbrev S128x64 : Shape := ⟨2, ![128, 64]⟩
abbrev S64x64 : Shape := ⟨2, ![64, 64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S128x64 .f32) (main_arg5 : FVec F S64x64 .f32) (main_arg6 : FVec F S64x64 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S8192x256 .f32) (main_arg1 : FVec F S8192x8192 .f32) (main_arg2 : FVec F S256x128 .f32) (main_arg3 : FVec F S256x1 .f32) (main_arg4 : FVec F S128x64 .f32) (main_arg5 : FVec F S64x64 .f32) (main_arg6 : FVec F S64x64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S256x1 : Shape := ⟨2, ![256, 1]⟩
abbrev S128x64 : Shape := ⟨2, ![128, 64]⟩
abbrev S64x64 : Shape := ⟨2, ![64, 64]⟩
abbrev S128x1 : Shape := ⟨2, ![128, 1]⟩
abbrev S8192x128 : Shape := ⟨2, ![8192, 128]⟩
abbrev S8192x1 : Shape := ⟨2, ![8192, 1]⟩
abbrev S1x8192 : Shape := ⟨2, ![1, 8192]⟩
abbrev S8192x64 : Shape := ⟨2, ![8192, 64]⟩
abbrev S256x8192 : Shape := ⟨2, ![256, 8192]⟩
abbrev S256x64 : Shape := ⟨2, ![256, 64]⟩
abbrev S256 : Shape := ⟨1, ![256]⟩
abbrev S64x128 : Shape := ⟨2, ![64, 128]⟩
abbrev S512x8192 : Shape := ⟨2, ![512, 8192]⟩
abbrev S512x128 : Shape := ⟨2, ![512, 128]⟩
abbrev S512x64 : Shape := ⟨2, ![512, 64]⟩
abbrev S1024x64 : Shape := ⟨2, ![1024, 64]⟩
abbrev S1024x1024 : Shape := ⟨2, ![1024, 1024]⟩

abbrev nBuf : Space → Nat
  | .hbm => 20
  | .vmem => 33
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S256x1, .f32⟩
  | .hbm, ⟨4, _⟩ => ⟨S128x64, .f32⟩
  | .hbm, ⟨5, _⟩ => ⟨S64x64, .f32⟩
  | .hbm, ⟨6, _⟩ => ⟨S64x64, .f32⟩
  | .hbm, ⟨7, _⟩ => ⟨S128x1, .f32⟩
  | .hbm, ⟨8, _⟩ => ⟨S128x1, .f32⟩
  | .hbm, ⟨9, _⟩ => ⟨S8192x128, .f32⟩
  | .hbm, ⟨10, _⟩ => ⟨S8192x1, .f32⟩
  | .hbm, ⟨11, _⟩ => ⟨S8192x1, .f32⟩
  | .hbm, ⟨12, _⟩ => ⟨S1x8192, .f32⟩
  | .hbm, ⟨13, _⟩ => ⟨S8192x64, .f32⟩
  | .hbm, ⟨14, _⟩ => ⟨S64x128, .f32⟩
  | .hbm, ⟨15, _⟩ => ⟨S8192x128, .f32⟩
  | .hbm, ⟨16, _⟩ => ⟨S8192x128, .f32⟩
  | .hbm, ⟨17, _⟩ => ⟨S8192x64, .f32⟩
  | .hbm, ⟨18, _⟩ => ⟨S8192x64, .f32⟩
  | .hbm, ⟨19, _⟩ => ⟨S8192x8192, .f32⟩
  | .local _ .vmem, ⟨0, _⟩ => ⟨S8192x256, .f32⟩
  | .local _ .vmem, ⟨1, _⟩ => ⟨S256x128, .f32⟩
  | .local _ .vmem, ⟨2, _⟩ => ⟨S128x1, .f32⟩
  | .local _ .vmem, ⟨3, _⟩ => ⟨S128x1, .f32⟩
  | .local _ .vmem, ⟨4, _⟩ => ⟨S8192x128, .f32⟩
  | .local _ .vmem, ⟨5, _⟩ => ⟨S8192x1, .f32⟩
  | .local _ .vmem, ⟨6, _⟩ => ⟨S8192x1, .f32⟩
  | .local _ .vmem, ⟨7, _⟩ => ⟨S256x8192, .f32⟩
  | .local _ .vmem, ⟨8, _⟩ => ⟨S256x8192, .f32⟩
  | .local _ .vmem, ⟨9, _⟩ => ⟨S8192x128, .f32⟩
  | .local _ .vmem, ⟨10, _⟩ => ⟨S256x1, .f32⟩
  | .local _ .vmem, ⟨11, _⟩ => ⟨S256x1, .f32⟩
  | .local _ .vmem, ⟨12, _⟩ => ⟨S1x8192, .f32⟩
  | .local _ .vmem, ⟨13, _⟩ => ⟨S128x64, .f32⟩
  | .local _ .vmem, ⟨14, _⟩ => ⟨S256x64, .f32⟩
  | .local _ .vmem, ⟨15, _⟩ => ⟨S256x64, .f32⟩
  | .local _ .vmem, ⟨16, _⟩ => ⟨S512x8192, .f32⟩
  | .local _ .vmem, ⟨17, _⟩ => ⟨S512x8192, .f32⟩
  | .local _ .vmem, ⟨18, _⟩ => ⟨S8192x64, .f32⟩
  | .local _ .vmem, ⟨19, _⟩ => ⟨S64x128, .f32⟩
  | .local _ .vmem, ⟨20, _⟩ => ⟨S512x128, .f32⟩
  | .local _ .vmem, ⟨21, _⟩ => ⟨S512x128, .f32⟩
  | .local _ .vmem, ⟨22, _⟩ => ⟨S512x8192, .f32⟩
  | .local _ .vmem, ⟨23, _⟩ => ⟨S512x8192, .f32⟩
  | .local _ .vmem, ⟨24, _⟩ => ⟨S8192x128, .f32⟩
  | .local _ .vmem, ⟨25, _⟩ => ⟨S512x128, .f32⟩
  | .local _ .vmem, ⟨26, _⟩ => ⟨S512x128, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x1024, .f32⟩
  | .local _ .vmem, ⟨32, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32

abbrev nD : Nat := 1
abbrev τ : Topo := Topo.v7x

variable {F : FTy → Type} [FloatOps F]

abbrev grid0 : Pipeline.Grid := .none

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  slices_S256x1_S128x1_0_0 : S256x1.Slices ![0, 0] S128x1
  slices_S256x1_S128x1_128_0 : S256x1.Slices ![128, 0] S128x1
  inb_S8192x256_S8192x256_0_0 : ∀ a, (![0, 0] : Fin 2 → Nat) a + S8192x256.size a ≤ S8192x256.size a
  h_S8192x256 : 0 < S8192x256.numel
  inb_S256x128_S256x128_0_0 : ∀ a, (![0, 0] : Fin 2 → Nat) a + S256x128.size a ≤ S256x128.size a
  h_S256x128 : 0 < S256x128.numel
  inb_S8192x128_S8192x128_0_0 : ∀ a, (![0, 0] : Fin 2 → Nat) a + S8192x128.size a ≤ S8192x128.size a
  h_S8192x128 : 0 < S8192x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S8192x1_S8192x1_0_0 : ∀ a, (![0, 0] : Fin 2 → Nat) a + S8192x1.size a ≤ S8192x1.size a
  h_S8192x1 : 0 < S8192x1.numel
  shapeCasts_S8192x1_S1x8192 : S8192x1.ShapeCasts S1x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  shapeCasts_S8192x128_S8192x128 : S8192x128.ShapeCasts S8192x128
  broadcasts_S256x1_S256x128 : S256x1.Broadcasts S256x128
  inb_S128x64_S128x64_0_0 : ∀ a, (![0, 0] : Fin 2 → Nat) a + S128x64.size a ≤ S128x64.size a
  h_S128x64 : 0 < S128x64.numel
  inb_S256x64_S256x64_0_0 : ∀ a, (![0, 0] : Fin 2 → Nat) a + S256x64.size a ≤ S256x64.size a
  h_S256x64 : 0 < S256x64.numel
  concatenates_S64x64_S64x64_S64x128_d1 : Shape.Concatenates [S64x64, S64x64] S64x128 1
  inb_S512x8192_S512x8192_0_0 : ∀ a, (![0, 0] : Fin 2 → Nat) a + S512x8192.size a ≤ S512x8192.size a
  h_S512x8192 : 0 < S512x8192.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S512x128_S512x128_0_0 : ∀ a, (![0, 0] : Fin 2 → Nat) a + S512x128.size a ≤ S512x128.size a
  h_S512x128 : 0 < S512x128.numel
  slices_S8192x128_S8192x64_0_0 : S8192x128.Slices ![0, 0] S8192x64
  slices_S8192x128_S8192x64_0_64 : S8192x128.Slices ![0, 64] S8192x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []
  dot_S256x8192_S8192x128_S256x128_1_0_0_1_n_n_wf : DotDims.WF S256x8192 S8192x128 S256x128 [1] [0] [0] [1] [] []
  dot_S256x128_S128x64_S256x64_1_0_0_1_n_n_wf : DotDims.WF S256x128 S128x64 S256x64 [1] [0] [0] [1] [] []
  dot_S512x8192_S8192x64_S512x64_1_0_0_1_n_n_wf : DotDims.WF S512x8192 S8192x64 S512x64 [1] [0] [0] [1] [] []
  dot_S512x64_S64x128_S512x128_1_0_0_1_n_n_wf : DotDims.WF S512x64 S64x128 S512x128 [1] [0] [0] [1] [] []
  dot_S512x8192_S8192x128_S512x128_1_0_0_1_n_n_wf : DotDims.WF S512x8192 S8192x128 S512x128 [1] [0] [0] [1] [] []
  dot_S1024x64_S1024x64_S1024x1024_1_1_0_0_n_n_wf : DotDims.WF S1024x64 S1024x64 S1024x1024 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .f32 = 32 ∨ (Rect.block (s := S8192x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S8192x64.size a
  hwx1_5 : ∀ i : grid1.Coords, EltTy.bits .f32 = 32 ∨ (Rect.block (s := S8192x64) S256x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S8192x8192.size a
  hwx2_0 : ∀ i : grid2.Coords, EltTy.bits .f32 = 32 ∨ (Rect.block (s := S8192x8192) S512x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S8192x128.size a
  hwx2_3 : ∀ i : grid2.Coords, EltTy.bits .f32 = 32 ∨ (Rect.block (s := S8192x128) S512x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x8192.size a ≤ S8192x8192.size a
  hwx3_0 : ∀ i : grid3.Coords, EltTy.bits .f32 = 32 ∨ (Rect.block (s := S8192x8192) S512x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S8192x128.size a
  hwx3_1 : ∀ i : grid3.Coords, EltTy.bits .f32 = 32 ∨ (Rect.block (s := S8192x128) S8192x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S8192x128.size a
  hwx3_2 : ∀ i : grid3.Coords, EltTy.bits .f32 = 32 ∨ (Rect.block (s := S8192x128) S512x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S8192x64.size a
  hwx4_0 : ∀ i : grid4.Coords, EltTy.bits .f32 = 32 ∨ (Rect.block (s := S8192x64) S1024x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S8192x64.size a
  hwx4_1 : ∀ i : grid4.Coords, EltTy.bits .f32 = 32 ∨ (Rect.block (s := S8192x64) S1024x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S8192x8192.size a
  hwx4_2 : ∀ i : grid4.Coords, EltTy.bits .f32 = 32 ∨ (Rect.block (s := S8192x8192) S1024x1024.size (cc4_transform_2 i) (hinb4_2 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v1) false false (stage0_3 0) (sem0_3 0) (Memref.isWhole_whole _) (hstage0_3 0)

abbrev win0_4 : Pipeline.Window sig grid0 :=
  Pipeline.Window.whole (Memref.whole main_v2_0) true false (stage0_4 0) (sem0_4 0) (Memref.isWhole_whole _) (hstage0_4 0)

abbrev win0_5 : Pipeline.Window sig grid0 :=
  Pipeline.Window.whole (Memref.whole main_v2_1) true false (stage0_5 0) (sem0_5 0) (Memref.isWhole_whole _) (hstage0_5 0)

abbrev win0_6 : Pipeline.Window sig grid0 :=
  Pipeline.Window.whole (Memref.whole main_v2_2) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S256x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S512x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S8192x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S512x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v8) S1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v10) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S256x1 : Shape := ⟨2, ![256, 1]⟩
abbrev S128x64 : Shape := ⟨2, ![128, 64]⟩
abbrev S64x64 : Shape := ⟨2, ![64, 64]⟩
abbrev S8192x128 : Shape := ⟨2, ![8192, 128]⟩
abbrev S128x1 : Shape := ⟨2, ![128, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩
abbrev S8192x64 : Shape := ⟨2, ![8192, 64]⟩
abbrev S64x8192 : Shape := ⟨2, ![64, 8192]⟩

abbrev nBuf : Space → Nat
  | .hbm => 86
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S256x1, .f32⟩
  | .hbm, ⟨4, _⟩ => ⟨S128x64, .f32⟩
  | .hbm, ⟨5, _⟩ => ⟨S64x64, .f32⟩
  | .hbm, ⟨6, _⟩ => ⟨S64x64, .f32⟩
  | .hbm, ⟨7, _⟩ => ⟨S8192x128, .f32⟩
  | .hbm, ⟨8, _⟩ => ⟨S128x1, .f32⟩
  | .hbm, ⟨9, _⟩ => ⟨S8192x1, .f32⟩
  | .hbm, ⟨10, _⟩ => ⟨S128x1, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .i1⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S8192x128, .f32⟩
  | .hbm, ⟨45, _⟩ => ⟨S_, .f32⟩
  | .hbm, ⟨46, _⟩ => ⟨S8192x128, .f32⟩
  | .hbm, ⟨47, _⟩ => ⟨S8192x128, .i1⟩
  | .hbm, ⟨48, _⟩ => ⟨S_, .f32⟩
  | .hbm, ⟨49, _⟩ => ⟨S8192x128, .f32⟩
  | .hbm, ⟨50, _⟩ => ⟨S8192x128, .i1⟩
  | .hbm, ⟨51, _⟩ => ⟨S_, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S_, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S_, .f32⟩
  | .hbm, ⟨61, _⟩ => ⟨S8192x128, .f32⟩
  | .hbm, ⟨62, _⟩ => ⟨S8192x128, .i1⟩
  | .hbm, ⟨63, _⟩ => ⟨S_, .f32⟩
  | .hbm, ⟨64, _⟩ => ⟨S8192x128, .f32⟩
  | .hbm, ⟨65, _⟩ => ⟨S8192x128, .i1⟩
  | .hbm, ⟨66, _⟩ => ⟨S_, .f32⟩
  | .hbm, ⟨67, _⟩ => ⟨S_, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S_, .f32⟩
  | .hbm, ⟨72, _⟩ => ⟨S8192x128, .f32⟩
  | .hbm, ⟨73, _⟩ => ⟨S8192x128, .f32⟩
  | .hbm, ⟨74, _⟩ => ⟨S8192x128, .f32⟩
  | .hbm, ⟨75, _⟩ => ⟨S8192x64, .f32⟩
  | .hbm, ⟨76, _⟩ => ⟨S8192x64, .f32⟩
  | .hbm, ⟨77, _⟩ => ⟨S_, .f32⟩
  | .hbm, ⟨78, _⟩ => ⟨S8192x64, .f32⟩
  | .hbm, ⟨79, _⟩ => ⟨S8192x64, .f32⟩
  | .hbm, ⟨80, _⟩ => ⟨S8192x64, .f32⟩
  | .hbm, ⟨81, _⟩ => ⟨S8192x64, .f32⟩
  | .hbm, ⟨82, _⟩ => ⟨S8192x64, .f32⟩
  | .hbm, ⟨83, _⟩ => ⟨S8192x64, .f32⟩
  | .hbm, ⟨84, _⟩ => ⟨S64x8192, .f32⟩
  | .hbm, ⟨85, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call2_cst : Ref sig .tc := ⟨.hbm, 45, rfl⟩
abbrev main_call2_v0 : Ref sig .tc := ⟨.hbm, 46, rfl⟩
abbrev main_call2_v1 : Ref sig .tc := ⟨.hbm, 47, rfl⟩
abbrev main_call2_cst_0 : Ref sig .tc := ⟨.hbm, 48, rfl⟩
abbrev main_call2_v2 : Ref sig .tc := ⟨.hbm, 49, rfl⟩
abbrev main_call2_v3 : Ref sig .tc := ⟨.hbm, 50, rfl⟩
abbrev main_call2_cst_1 : Ref sig .tc := ⟨.hbm, 51, rfl⟩
abbrev main_call2_call0_v0 : Ref sig .tc := ⟨.hbm, 52, rfl⟩
abbrev main_call2_call0_v1 : Ref sig .tc := ⟨.hbm, 53, rfl⟩
abbrev main_call2_v4 : Ref sig .tc := ⟨.hbm, 54, rfl⟩
abbrev main_call2_v5 : Ref sig .tc := ⟨.hbm, 55, rfl⟩
abbrev main_call2_cst_2 : Ref sig .tc := ⟨.hbm, 56, rfl⟩
abbrev main_call2_v6 : Ref sig .tc := ⟨.hbm, 57, rfl⟩
abbrev main_call2_v7 : Ref sig .tc := ⟨.hbm, 58, rfl⟩
abbrev main_v26 : Ref sig .tc := ⟨.hbm, 59, rfl⟩
abbrev main_call3_cst : Ref sig .tc := ⟨.hbm, 60, rfl⟩
abbrev main_call3_v0 : Ref sig .tc := ⟨.hbm, 61, rfl⟩
abbrev main_call3_v1 : Ref sig .tc := ⟨.hbm, 62, rfl⟩
abbrev main_call3_cst_0 : Ref sig .tc := ⟨.hbm, 63, rfl⟩
abbrev main_call3_v2 : Ref sig .tc := ⟨.hbm, 64, rfl⟩
abbrev main_call3_v3 : Ref sig .tc := ⟨.hbm, 65, rfl⟩
abbrev main_call3_cst_1 : Ref sig .tc := ⟨.hbm, 66, rfl⟩
abbrev main_call3_call0_v0 : Ref sig .tc := ⟨.hbm, 67, rfl⟩
abbrev main_call3_call0_v1 : Ref sig .tc := ⟨.hbm, 68, rfl⟩
abbrev main_call3_v4 : Ref sig .tc := ⟨.hbm, 69, rfl⟩
abbrev main_call3_v5 : Ref sig .tc := ⟨.hbm, 70, rfl⟩
abbrev main_call3_cst_2 : Ref sig .tc := ⟨.hbm, 71, rfl⟩
abbrev main_call3_v6 : Ref sig .tc := ⟨.hbm, 72, rfl⟩
abbrev main_call3_v7 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_call4_cst : Ref sig .tc := ⟨.hbm, 77, rfl⟩
abbrev main_call4_v0 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩

abbrev nD : Nat := 1
abbrev τ : Topo := Topo.v7x

variable {F : FTy → Type} [FloatOps F]

class Facts₀ : Prop where
  slices_S256x1_S128x1_0_0 : S256x1.Slices ![0, 0] S128x1
  slices_S256x1_S128x1_128_0 : S256x1.Slices ![128, 0] S128x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x128 : S_.BroadcastsInDim S8192x128 (![] : Fin 0 → Fin S8192x128.rank)
  bcast_S_S8192x64 : S_.BroadcastsInDim S8192x64 (![] : Fin 0 → Fin S8192x64.rank)
  transposes_S8192x64_S64x8192_1_0 : S8192x64.Transposes [1, 0] S64x8192
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.R0.lean ====
/-
  Region 0 of the kernel's program (the projection call) at a parameter `V`, the buffer contents the region is
  entered with. The call has no grid: its one point reads the whole 8192 × 256 feature array, the whole 256 × 128
  projection and the two 128 × 1 halves of the attention vector, and leaves three arrays: the projected features
  `x · W` (8192 × 128) and its products with each half of the attention vector (8192 × 1 each).  Stated here: what
  each window's staging buffer holds before and after the body, and that the body run on those buffers leaves
  exactly that.
-/
import proofs.«109506_g1580547973939_cont_week2b_922_2_alg».proof.Proof.Gen.Kernel.Launch
import proofs.«109506_g1580547973939_cont_week2b_922_2_alg».proof.Proof.Gen.Kernel.Skeleton
import proofs.«109506_g1580547973939_cont_week2b_922_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at the point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev r0_x : Rect S8192x256 := Rect.unit (s := S8192x256) ![0, 0] S8192x256.size inb_S8192x256_S8192x256_0_0
abbrev r0_w : Rect S256x128 := Rect.unit (s := S256x128) ![0, 0] S256x128.size inb_S256x128_S256x128_0_0
abbrev r0_a : Rect S128x1 := Rect.unit (s := S128x1) ![0, 0] S128x1.size inb_S128x1_S128x1_0_0
abbrev r0_wh : Rect S8192x128 := Rect.unit (s := S8192x128) ![0, 0] S8192x128.size inb_S8192x128_S8192x128_0_0
abbrev r0_s : Rect S8192x1 := Rect.unit (s := S8192x1) ![0, 0] S8192x1.size inb_S8192x1_S8192x1_0_0

/-- The three output buffers after the body, from the input blocks: one whole store each. -/
def out0_4 (x0 : Vec F S8192x256 .f32) (x1 : Vec F S256x128 .f32) : Vec F S8192x128 .f32 :=
  View.canon [⟨r0_wh, k0_pay1 (View.ld x0 r0_x) (View.ld x1 r0_w)⟩]
def out0_5 (x0 : Vec F S8192x256 .f32) (x1 : Vec F S256x128 .f32) (x2 : Vec F S128x1 .f32) : Vec F S8192x1 .f32 :=
  View.canon [⟨r0_s, k0_pay2 (View.ld x0 r0_x) (View.ld x1 r0_w) (View.ld x2 r0_a)⟩]
def out0_6 (x0 : Vec F S8192x256 .f32) (x1 : Vec F S256x128 .f32) (x3 : Vec F S128x1 .f32) : Vec F S8192x1 .f32 :=
  View.canon [⟨r0_s, k0_pay3 (View.ld x0 r0_x) (View.ld x1 r0_w) (View.ld x3 r0_a)⟩]

theorem cover0_4 (p0 : Vec F S8192x128 .f32) (y : S8192x128.Idx) :
    ∃ pc ∈ ([⟨r0_wh, p0⟩] : List (View.Piece (Elt F) S8192x128 .f32)), y ∈ pc.1.set :=
  View.cover_of_tiled [⟨r0_wh, p0⟩] S8192x128.size (by rfl) y
theorem cover0_s (p0 : Vec F S8192x1 .f32) (y : S8192x1.Idx) :
    ∃ pc ∈ ([⟨r0_s, p0⟩] : List (View.Piece (Elt F) S8192x1 .f32)), y ∈ pc.1.set :=
  View.cover_of_tiled [⟨r0_s, p0⟩] S8192x1.size (by rfl) y

set_option maxHeartbeats 1000000 in
/-- The body on whole staging memrefs, the inputs' at contents `x0 … x3` and the outputs' at anything, runs to the
    continuation with the inputs' unchanged and the outputs' at `out0_4`, `out0_5`, `out0_6` of the inputs'. -/
theorem sound_kernel0 (c : Dev nD) (E : Set ℕ)
    (arg0 : Memref sig .tc .vmem S8192x256 .f32) (harg0 : arg0.IsWhole) (arg1 : Memref sig .tc .vmem S256x128 .f32) (harg1 : arg1.IsWhole)
    (arg2 : Memref sig .tc .vmem S128x1 .f32) (harg2 : arg2.IsWhole) (arg3 : Memref sig .tc .vmem S128x1 .f32) (harg3 : arg3.IsWhole)
    (arg4 : Memref sig .tc .vmem S8192x128 .f32) (harg4 : arg4.IsWhole) (arg5 : Memref sig .tc .vmem S8192x1 .f32) (harg5 : arg5.IsWhole)
    (arg6 : Memref sig .tc .vmem S8192x1 .f32) (harg6 : arg6.IsWhole)
    (x0 : Vec F S8192x256 .f32) (x1 : Vec F S256x128 .f32) (x2 : Vec F S128x1 .f32) (x3 : Vec F S128x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3
            ∗ owns (c : Thread nD τ) arg4 fullShare (out0_4 x0 x1) ∗ owns (c : Thread nD τ) arg5 fullShare (out0_5 x0 x1 x2)
            ∗ owns (c : Thread nD τ) arg6 fullShare (out0_6 x0 x1 x3)) -∗ K ⟨⟩))
      ⊢ wp frame (wpE (defs₀ (F := F)) Variants.none c none) E (cc0__prelude_kernel arg0 harg0 arg1 harg1 arg2 harg2 arg3 harg3 arg4 harg4 arg5 harg5 arg6 harg6) K := by
  simp only [cc0__prelude_kernel_eq_skeleton]; unfold cc0__prelude_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_s _)
  iexists _; isplitr
  swap; · iexact H6
  ipureintro
  exact View.read_writes_eq_canon _ _ _ (cover0_s _)

/-- The proof data of this call on core `c`: the arrays as the region finds them; after the body each input's buffer
    at its block and each output's at `out0_4` / `out0_5` / `out0_6` of the input blocks; the plain region invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for this call, at its one point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 of the kernel's program (the attention call) at a parameter `V`, the buffer contents the region is
  entered with. The call walks the 8192 rows of the adjacency in 32 blocks of 256 rows; at block `t` the body reads
  rows `256 t … 256 t + 255` of the adjacency and of the first score column, the whole projected-feature array, the
  whole second score row and the whole 128 × 64 weight array; it forms the masked leaky scores of those rows, their
  row maximum, the exponentials of the differences and their row sums, the exponentials' product with the projected
  features divided by the row sums, applies the exponential-linear unit twice, and leaves the product with the weights
  in the 256 × 64 output block.  Stated here: what each window's staging buffer holds before and after the body at a
  point, and that the body run on those buffers leaves exactly that.
-/
import proofs.«109506_g1580547973939_cont_week2b_922_2_alg».proof.Proof.Gen.Kernel.Launch
import proofs.«109506_g1580547973939_cont_week2b_922_2_alg».proof.Proof.Gen.Kernel.Skeleton
import proofs.«109506_g1580547973939_cont_week2b_922_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it
    there or kept it from an earlier point (its block index did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev r1_adj : Rect S256x8192 := Rect.unit (s := S256x8192) ![0, 0] S256x8192.size inb_S256x8192_S256x8192_0_0
abbrev r1_wh : Rect S8192x128 := Rect.unit (s := S8192x128) ![0, 0] S8192x128.size inb_S8192x128_S8192x128_0_0
abbrev r1_s1 : Rect S256x1 := Rect.unit (s := S256x1) ![0, 0] S256x1.size inb_S256x1_S256x1_0_0
abbrev r1_s2 : Rect S1x8192 := Rect.unit (s := S1x8192) ![0, 0] S1x8192.size inb_S1x8192_S1x8192_0_0
abbrev r1_w : Rect S128x64 := Rect.unit (s := S128x64) ![0, 0] S128x64.size inb_S128x64_S128x64_0_0
abbrev r1_out : Rect S256x64 := Rect.unit (s := S256x64) ![0, 0] S256x64.size inb_S256x64_S256x64_0_0

/-- The output block after the body, from the five input blocks (adjacency rows, projected features, first score
    rows, second score row, weights): one store of the whole block. -/
def out1_5 (x0 : Vec F S256x8192 .f32) (x1 : Vec F S8192x128 .f32) (x2 : Vec F S256x1 .f32) (x3 : Vec F S1x8192 .f32) (x4 : Vec F S128x64 .f32) :
    Vec F S256x64 .f32 :=
  View.canon [⟨r1_out, k1_pay1 (k1_pay2 (View.ld x2 r1_s1) (View.ld x3 r1_s2) (View.ld x0 r1_adj) (View.ld x1 r1_wh)) (View.ld x4 r1_w)⟩]

theorem cover1_5 (p0 : Vec F S256x64 .f32) (y : S256x64.Idx) :
    ∃ pc ∈ ([⟨r1_out, p0⟩] : List (View.Piece (Elt F) S256x64 .f32)), y ∈ pc.1.set :=
  View.cover_of_tiled [⟨r1_out, p0⟩] S256x64.size (by rfl) y

set_option maxHeartbeats 1000000 in
/-- The body on whole staging memrefs, the inputs' at contents `x0 … x4` and the output's at anything, runs to the
    continuation with the inputs' unchanged and the output's at `out1_5` of the inputs'. -/
theorem sound_kernel1 (c : Dev nD) (E : Set ℕ) (i : grid1.Coords)
    (arg1 : Memref sig .tc .vmem S256x8192 .f32) (harg1 : arg1.IsWhole) (arg2 : Memref sig .tc .vmem S8192x128 .f32) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S128x64 .f32) (harg5 : arg5.IsWhole) (arg6 : Memref sig .tc .vmem S256x64 .f32) (harg6 : arg6.IsWhole)
    (x0 : Vec F S256x8192 .f32) (x1 : Vec F S8192x128 .f32) (x2 : Vec F S256x1 .f32) (x3 : Vec F S1x8192 .f32) (x4 : Vec F S128x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__gat_kernel i arg1 harg1 arg2 harg2 arg3 harg3 arg4 harg4 arg5 harg5 arg6 harg6) K := by
  simp only [cc1__gat_kernel_eq_skeleton]; unfold cc1__gat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this call on core `c`: the arrays as the region finds them; after the body at point `t`
    each input's buffer at its block and the output's at `out1_5` of the input blocks; the plain region
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for this call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2 of the kernel's program (the first graph-convolution call) at a parameter `V`, the buffer contents
  the region is entered with. The call walks the 8192 rows of the adjacency in 16 blocks of 512 rows; at
  block `t` the body reads rows `512 t … 512 t + 511` of the adjacency, the whole 8192 × 64 support array and
  the whole 64 × 128 weight array, and leaves in the 512 × 128 output block the product
  `max (adj_block · support, 0) · weights`.  Stated here: what each window's staging buffer holds before and
  after the body at a point (the proof data), and that the body run on those buffers leaves exactly that.
-/
import proofs.«109506_g1580547973939_cont_week2b_922_2_alg».proof.Proof.Gen.Kernel.Launch
import proofs.«109506_g1580547973939_cont_week2b_922_2_alg».proof.Proof.Gen.Kernel.Skeleton
import proofs.«109506_g1580547973939_cont_week2b_922_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it
    there or kept it from an earlier point (its block index did not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole 512 × 128 rectangle the body stores through. -/
abbrev r2_out : Rect S512x128 := Rect.unit (s := S512x128) ![0, 0] S512x128.size inb_S512x128_S512x128_0_0
abbrev r2_adj : Rect S512x8192 := Rect.unit (s := S512x8192) ![0, 0] S512x8192.size inb_S512x8192_S512x8192_0_0
abbrev r2_sup : Rect S8192x64 := Rect.unit (s := S8192x64) ![0, 0] S8192x64.size inb_S8192x64_S8192x64_0_0
abbrev r2_w : Rect S64x128 := Rect.unit (s := S64x128) ![0, 0] S64x128.size inb_S64x128_S64x128_0_0

/-- The output block after the body, from the three input blocks: one store of the whole block. -/
def out2_3 (x0 : Vec F S512x8192 .f32) (x1 : Vec F S8192x64 .f32) (x2 : Vec F S64x128 .f32) : Vec F S512x128 .f32 :=
  View.canon [⟨r2_out, k2_pay1 (View.ld x0 r2_adj) (View.ld x1 r2_sup) (View.ld x2 r2_w)⟩]

theorem cover2_3 (p0 : Vec F S512x128 .f32) (y : S512x128.Idx) :
    ∃ pc ∈ ([⟨r2_out, p0⟩] : List (View.Piece (Elt F) S512x128 .f32)), y ∈ pc.1.set :=
  View.cover_of_tiled [⟨r2_out, p0⟩] S512x128.size (by rfl) y

set_option maxHeartbeats 1000000 in
/-- The body on whole staging memrefs, the inputs' at contents `x0 x1 x2` and the output's at anything, runs to the
    continuation with the inputs' unchanged and the output's at `out2_3 x0 x1 x2`. -/
theorem sound_kernel2 (c : Dev nD) (E : Set ℕ) (i : grid2.Coords)
    (arg1 : Memref sig .tc .vmem S512x8192 .f32) (harg1 : arg1.IsWhole) (arg2 : Memref sig .tc .vmem S8192x64 .f32) (harg2 : arg2.IsWhole)
    (arg3 : Memref sig .tc .vmem S64x128 .f32) (harg3 : arg3.IsWhole) (arg4 : Memref sig .tc .vmem S512x128 .f32) (harg4 : arg4.IsWhole)
    (x0 : Vec F S512x8192 .f32) (x1 : Vec F S8192x64 .f32) (x2 : Vec F S64x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__gc1_kernel i arg1 harg1 arg2 harg2 arg3 harg3 arg4 harg4) K := by
  simp only [cc2__gc1_kernel_eq_skeleton]; unfold cc2__gc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this call on core `c`: the arrays as the region finds them; after the body at point `t`
    each input's buffer at its block and the output's at `out2_3` of the input blocks; the region invariant the
    plain one (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this call, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  Region 3 of the kernel's program (the second graph-convolution call) at a parameter `V`, the buffer contents
  the region is entered with. The call walks the 8192 rows of the adjacency in 16 blocks of 512 rows; at block
  `t` the body reads rows `512 t … 512 t + 511` of the adjacency and the whole 8192 × 128 array of the previous
  call, and leaves their product in the 512 × 128 output block.  Stated here: what each window's staging buffer
  holds before and after the body at a point, and that the body run on those buffers leaves exactly that.
-/
import proofs.«109506_g1580547973939_cont_week2b_922_2_alg».proof.Proof.Gen.Kernel.Launch
import proofs.«109506_g1580547973939_cont_week2b_922_2_alg».proof.Proof.Gen.Kernel.Skeleton
import proofs.«109506_g1580547973939_cont_week2b_922_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the pipeline fetched it
    there or kept it from an earlier point (its block index did not move). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole rectangles the body loads and stores through. -/
abbrev r3_out : Rect S512x128 := Rect.unit (s := S512x128) ![0, 0] S512x128.size inb_S512x128_S512x128_0_0
abbrev r3_adj : Rect S512x8192 := Rect.unit (s := S512x8192) ![0, 0] S512x8192.size inb_S512x8192_S512x8192_0_0
abbrev r3_in : Rect S8192x128 := Rect.unit (s := S8192x128) ![0, 0] S8192x128.size inb_S8192x128_S8192x128_0_0

/-- The output block after the body, from the two input blocks: one store of the whole block. -/
def out3_2 (x0 : Vec F S512x8192 .f32) (x1 : Vec F S8192x128 .f32) : Vec F S512x128 .f32 :=
  View.canon [⟨r3_out, k3_pay1 (View.ld x0 r3_adj) (View.ld x1 r3_in)⟩]

theorem cover3_2 (p0 : Vec F S512x128 .f32) (y : S512x128.Idx) :
    ∃ pc ∈ ([⟨r3_out, p0⟩] : List (View.Piece (Elt F) S512x128 .f32)), y ∈ pc.1.set :=
  View.cover_of_tiled [⟨r3_out, p0⟩] S512x128.size (by rfl) y

set_option maxHeartbeats 1000000 in
/-- The body on whole staging memrefs, the inputs' at contents `x0 x1` and the output's at anything, runs to the
    continuation with the inputs' unchanged and the output's at `out3_2 x0 x1`. -/
theorem sound_kernel3 (c : Dev nD) (E : Set ℕ) (i : grid3.Coords)
    (arg1 : Memref sig .tc .vmem S512x8192 .f32) (harg1 : arg1.IsWhole) (arg2 : Memref sig .tc .vmem S8192x128 .f32) (harg2 : arg2.IsWhole)
    (arg3 : Memref sig .tc .vmem S512x128 .f32) (harg3 : arg3.IsWhole)
    (x0 : Vec F S512x8192 .f32) (x1 : Vec F S8192x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__gc23_kernel i arg1 harg1 arg2 harg2 arg3 harg3) K := by
  simp only [cc3__gc23_kernel_eq_skeleton]; unfold cc3__gc23_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this call on core `c`: the arrays as the region finds them; after the body at point `t`
    each input's buffer at its block and the output's at `out3_2` of the input blocks; the plain region
    invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this call, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/-
  Region 4 of the kernel's program (the inner-product decoder) at a parameter `V`, the buffer contents the
  region is entered with. The call walks an 8 × 8 grid; at point (i, j) the body reads rows `1024 i …` and rows
  `1024 j …` of ONE 8192 × 64 array (both input windows are on that array) and leaves in the 1024 × 1024 output
  tile the products of those rows, contracted over the 64 columns.  Stated here: what each window's staging buffer
  holds before and after the body at a point, and that the body run on those buffers leaves exactly that. The two
  input windows hold the two halves of their common array's share.
-/
import proofs.«109506_g1580547973939_cont_week2b_922_2_alg».proof.Proof.Gen.Kernel.Launch
import proofs.«109506_g1580547973939_cont_week2b_922_2_alg».proof.Proof.Gen.Kernel.Skeleton
import proofs.«109506_g1580547973939_cont_week2b_922_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the pipeline fetched it
    there or kept it from an earlier point (its block index did not move). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole rectangles the body loads and stores through. -/
abbrev r4_out : Rect S1024x1024 := Rect.unit (s := S1024x1024) ![0, 0] S1024x1024.size inb_S1024x1024_S1024x1024_0_0
abbrev r4_in : Rect S1024x64 := Rect.unit (s := S1024x64) ![0, 0] S1024x64.size inb_S1024x64_S1024x64_0_0

/-- The output tile after the body, from the two row blocks: one store of the whole tile. -/
def out4_2 (x0 : Vec F S1024x64 .f32) (x1 : Vec F S1024x64 .f32) : Vec F S1024x1024 .f32 :=
  View.canon [⟨r4_out, k4_pay1 (View.ld x0 r4_in) (View.ld x1 r4_in)⟩]

theorem cover4_2 (p0 : Vec F S1024x1024 .f32) (y : S1024x1024.Idx) :
    ∃ pc ∈ ([⟨r4_out, p0⟩] : List (View.Piece (Elt F) S1024x1024 .f32)), y ∈ pc.1.set :=
  View.cover_of_tiled [⟨r4_out, p0⟩] S1024x1024.size (by rfl) y

set_option maxHeartbeats 1000000 in
/-- The body on whole staging memrefs, the inputs' at contents `x0 x1` and the output's at anything, runs to the
    continuation with the inputs' unchanged and the output's at `out4_2 x0 x1`. -/
theorem sound_kernel4 (c : Dev nD) (E : Set ℕ) (i : grid4.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out4_2 x0 x1)) -∗ K ⟨⟩))
      ⊢ wp frame (wpE (defs₀ (F := F)) Variants.none c none) E (cc4__outer_kernel i arg2 harg2 arg3 harg3 arg4 harg4) K := by
  simp only [cc4__outer_kernel_eq_skeleton]; unfold cc4__outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of this call on core `c`: the arrays as the region finds them; after the body at point `t`
    each input's buffer at its block and the output's at `out4_2` of the two blocks; the plain region invariant;
    nothing owed. The two input windows read one array: the first holds the left half of its share, the second
    the right half; the output's array is held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this call, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Fold.lean ====
/-
  The buffer contents of a core at each boundary between the items of the kernel's program: the launch memory,
  then alternately a stretch of host operations applied and a pallas call's arrays replaced by what its pipeline
  leaves. Ten boundaries, `W0` (launch) to `W9` (return). For each call: its arrays at the exit boundary are what
  the pipeline leaves, every other buffer is as at entry; an input window's array is as at entry too. Hence every
  argument array reads at `W9` what the launch memory held.
-/
import proofs.«109506_g1580547973939_cont_week2b_922_2_alg».proof.Proof.K.R0
import proofs.«109506_g1580547973939_cont_week2b_922_2_alg».proof.Proof.K.R1
import proofs.«109506_g1580547973939_cont_week2b_922_2_alg».proof.Proof.K.R2
import proofs.«109506_g1580547973939_cont_week2b_922_2_alg».proof.Proof.K.R3
import proofs.«109506_g1580547973939_cont_week2b_922_2_alg».proof.Proof.K.R4
import proofs.«109506_g1580547973939_cont_week2b_922_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The launch memory on core `c`. -/
abbrev W0 : Dev nD → Valuation τ sig (Elt F) := fun c b => m (c, b)

/-- After the host stretch `hostOps0`. -/
abbrev W1 : Dev nD → Valuation τ sig (Elt F) := fun c => StableHlo.after hostOps0 (W0 m c)
abbrev Vr1 : (c : Dev nD) → (b : Ref sig .tc) → Buf (Elt F) ((c : Thread nD τ).loc b) := fun c b => W1 m c b
/-- The stretch leaves every buffer it does not write. -/
theorem W1_keep (c : Dev nD) (r : Ref sig .tc) (h : r ∉ hostOps0_W) : W1 m c (Proc.devRef .tc r) = W0 m c (Proc.devRef .tc r) :=
  StableHlo.after_of_writes_sub hostOps0 _ hostOps0_writes h

/-- At call 0's exit: its arrays at what the pipeline leaves (the inputs as entered, each output's write-backs
    folded in), every other buffer as entered. -/
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references. -/
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

/-- Call 0 leaves every buffer but its outputs: an input window's array ends as entered, and a buffer it has no
    window on is untouched. -/
theorem W2_keep (c : Dev nD) (b : Ref sig .tc) (h0 : b ≠ main_v2_0) (h1 : b ≠ main_v2_1) (h2 : b ≠ main_v2_2) :
    W2 m c (Proc.devRef .tc b) = W1 m c (Proc.devRef .tc b) := by
  by_cases h : ∃ w, Pipeline.arrRef spec0 w = b
  · obtain ⟨w, rfl⟩ := h
    rw [W2_arr]
    match w with
    | ⟨0, _⟩ => exact ((dat0 (Vr1 m) c).arrAt_in 0 rfl _).trans (A_eq0 (Vr1 m) c 0)
    | ⟨1, _⟩ => exact ((dat0 (Vr1 m) c).arrAt_in 1 rfl _).trans (A_eq0 (Vr1 m) c 1)
    | ⟨2, _⟩ => exact ((dat0 (Vr1 m) c).arrAt_in 2 rfl _).trans (A_eq0 (Vr1 m) c 2)
    | ⟨3, _⟩ => exact ((dat0 (Vr1 m) c).arrAt_in 3 rfl _).trans (A_eq0 (Vr1 m) c 3)
    | ⟨4, _⟩ => exact absurd rfl h0
    | ⟨5, _⟩ => exact absurd rfl h1
    | ⟨6, _⟩ => exact absurd rfl h2
  · exact W2_of_ne m c b fun w e => h ⟨w, e⟩

/-- After the host stretch `hostOps1`. -/
abbrev W3 : Dev nD → Valuation τ sig (Elt F) := fun c => StableHlo.after hostOps1 (W2 m c)
abbrev Vr3 : (c : Dev nD) → (b : Ref sig .tc) → Buf (Elt F) ((c : Thread nD τ).loc b) := fun c b => W3 m c b
/-- The stretch leaves every buffer it does not write. -/
theorem W3_keep (c : Dev nD) (r : Ref sig .tc) (h : r ∉ hostOps1_W) : W3 m c (Proc.devRef .tc r) = W2 m c (Proc.devRef .tc r) :=
  StableHlo.after_of_writes_sub hostOps1 _ hostOps1_writes h

/-- At call 1's exit: its arrays at what the pipeline leaves (the inputs as entered, each output's write-backs
    folded in), every other buffer as entered. -/
def W4 (c : Dev nD) : Valuation τ sig (Elt F) :=
  Pipeline.withArrays spec1 c (W3 m c) fun w => (dat1 (Vr3 m) c).arrAt w cfg1.N
theorem W4_arr (c : Dev nD) (w : Fin cfg1.W) :
    W4 m c (Proc.devRef .tc (Pipeline.arrRef spec1 w)) = (dat1 (Vr3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the core's references. -/
abbrev Vr4 : (c : Dev nD) → (b : Ref sig .tc) → Buf (Elt F) ((c : Thread nD τ).loc b) := fun c b => W4 m c b
theorem hF1 (c : Dev nD) (w : Fin cfg1.W) : (dat1 (Vr3 m) c).arrAt w cfg1.N = Vr4 m c (Pipeline.arrRef spec1 w) :=
  (W4_arr m c w).symm
theorem hrest1 (c : Dev nD) : ∀ b, b ∉ Finset.univ.image (Pipeline.arrRef spec1) → Vr4 m c b = Vr3 m c b :=
  fun b hb => W4_of_ne m c b fun w e => hb (Finset.mem_image.mpr ⟨w, Finset.mem_univ _, e⟩)

/-- Call 1 leaves every buffer but its outputs: an input window's array ends as entered, and a buffer it has no
    window on is untouched. -/
theorem W4_keep (c : Dev nD) (b : Ref sig .tc) (h0 : b ≠ main_v4) :
    W4 m c (Proc.devRef .tc b) = W3 m c (Proc.devRef .tc b) := by
  by_cases h : ∃ w, Pipeline.arrRef spec1 w = b
  · obtain ⟨w, rfl⟩ := h
    rw [W4_arr]
    match w with
    | ⟨0, _⟩ => exact ((dat1 (Vr3 m) c).arrAt_in 0 rfl _).trans (A_eq1 (Vr3 m) c 0)
    | ⟨1, _⟩ => exact ((dat1 (Vr3 m) c).arrAt_in 1 rfl _).trans (A_eq1 (Vr3 m) c 1)
    | ⟨2, _⟩ => exact ((dat1 (Vr3 m) c).arrAt_in 2 rfl _).trans (A_eq1 (Vr3 m) c 2)
    | ⟨3, _⟩ => exact ((dat1 (Vr3 m) c).arrAt_in 3 rfl _).trans (A_eq1 (Vr3 m) c 3)
    | ⟨4, _⟩ => exact ((dat1 (Vr3 m) c).arrAt_in 4 rfl _).trans (A_eq1 (Vr3 m) c 4)
    | ⟨5, _⟩ => exact absurd rfl h0
  · exact W4_of_ne m c b fun w e => h ⟨w, e⟩

/-- After the host stretch `hostOps2`. -/
abbrev W5 : Dev nD → Valuation τ sig (Elt F) := fun c => StableHlo.after hostOps2 (W4 m c)
abbrev Vr5 : (c : Dev nD) → (b : Ref sig .tc) → Buf (Elt F) ((c : Thread nD τ).loc b) := fun c b => W5 m c b
/-- The stretch leaves every buffer it does not write. -/
theorem W5_keep (c : Dev nD) (r : Ref sig .tc) (h : r ∉ hostOps2_W) : W5 m c (Proc.devRef .tc r) = W4 m c (Proc.devRef .tc r) :=
  StableHlo.after_of_writes_sub hostOps2 _ hostOps2_writes h

/-- At call 2's exit: its arrays at what the pipeline leaves (the inputs as entered, each output's write-backs
    folded in), every other buffer as entered. -/
def W6 (c : Dev nD) : Valuation τ sig (Elt F) :=
  Pipeline.withArrays spec2 c (W5 m c) fun w => (dat2 (Vr5 m) c).arrAt w cfg2.N
theorem W6_arr (c : Dev nD) (w : Fin cfg2.W) :
    W6 m c (Proc.devRef .tc (Pipeline.arrRef spec2 w)) = (dat2 (Vr5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the core's references. -/
abbrev Vr6 : (c : Dev nD) → (b : Ref sig .tc) → Buf (Elt F) ((c : Thread nD τ).loc b) := fun c b => W6 m c b
theorem hF2 (c : Dev nD) (w : Fin cfg2.W) : (dat2 (Vr5 m) c).arrAt w cfg2.N = Vr6 m c (Pipeline.arrRef spec2 w) :=
  (W6_arr m c w).symm
theorem hrest2 (c : Dev nD) : ∀ b, b ∉ Finset.univ.image (Pipeline.arrRef spec2) → Vr6 m c b = Vr5 m c b :=
  fun b hb => W6_of_ne m c b fun w e => hb (Finset.mem_image.mpr ⟨w, Finset.mem_univ _, e⟩)

/-- Call 2 leaves every buffer but its outputs: an input window's array ends as entered, and a buffer it has no
    window on is untouched. -/
theorem W6_keep (c : Dev nD) (b : Ref sig .tc) (h0 : b ≠ main_v6) :
    W6 m c (Proc.devRef .tc b) = W5 m c (Proc.devRef .tc b) := by
  by_cases h : ∃ w, Pipeline.arrRef spec2 w = b
  · obtain ⟨w, rfl⟩ := h
    rw [W6_arr]
    match w with
    | ⟨0, _⟩ => exact ((dat2 (Vr5 m) c).arrAt_in 0 rfl _).trans (A_eq2 (Vr5 m) c 0)
    | ⟨1, _⟩ => exact ((dat2 (Vr5 m) c).arrAt_in 1 rfl _).trans (A_eq2 (Vr5 m) c 1)
    | ⟨2, _⟩ => exact ((dat2 (Vr5 m) c).arrAt_in 2 rfl _).trans (A_eq2 (Vr5 m) c 2)
    | ⟨3, _⟩ => exact absurd rfl h0
  · exact W6_of_ne m c b fun w e => h ⟨w, e⟩

/-- At call 3's exit: its arrays at what the pipeline leaves (the inputs as entered, each output's write-backs
    folded in), every other buffer as entered. -/
def W7 (c : Dev nD) : Valuation τ sig (Elt F) :=
  Pipeline.withArrays spec3 c (W6 m c) fun w => (dat3 (Vr6 m) c).arrAt w cfg3.N
theorem W7_arr (c : Dev nD) (w : Fin cfg3.W) :
    W7 m c (Proc.devRef .tc (Pipeline.arrRef spec3 w)) = (dat3 (Vr6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the core's references. -/
abbrev Vr7 : (c : Dev nD) → (b : Ref sig .tc) → Buf (Elt F) ((c : Thread nD τ).loc b) := fun c b => W7 m c b
theorem hF3 (c : Dev nD) (w : Fin cfg3.W) : (dat3 (Vr6 m) c).arrAt w cfg3.N = Vr7 m c (Pipeline.arrRef spec3 w) :=
  (W7_arr m c w).symm
theorem hrest3 (c : Dev nD) : ∀ b, b ∉ Finset.univ.image (Pipeline.arrRef spec3) → Vr7 m c b = Vr6 m c b :=
  fun b hb => W7_of_ne m c b fun w e => hb (Finset.mem_image.mpr ⟨w, Finset.mem_univ _, e⟩)

/-- Call 3 leaves every buffer but its outputs: an input window's array ends as entered, and a buffer it has no
    window on is untouched. -/
theorem W7_keep (c : Dev nD) (b : Ref sig .tc) (h0 : b ≠ main_v7) :
    W7 m c (Proc.devRef .tc b) = W6 m c (Proc.devRef .tc b) := by
  by_cases h : ∃ w, Pipeline.arrRef spec3 w = b
  · obtain ⟨w, rfl⟩ := h
    rw [W7_arr]
    match w with
    | ⟨0, _⟩ => exact ((dat3 (Vr6 m) c).arrAt_in 0 rfl _).trans (A_eq3 (Vr6 m) c 0)
    | ⟨1, _⟩ => exact ((dat3 (Vr6 m) c).arrAt_in 1 rfl _).trans (A_eq3 (Vr6 m) c 1)
    | ⟨2, _⟩ => exact absurd rfl h0
  · exact W7_of_ne m c b fun w e => h ⟨w, e⟩

/-- After the host stretch `hostOps4`. -/
abbrev W8 : Dev nD → Valuation τ sig (Elt F) := fun c => StableHlo.after hostOps4 (W7 m c)
abbrev Vr8 : (c : Dev nD) → (b : Ref sig .tc) → Buf (Elt F) ((c : Thread nD τ).loc b) := fun c b => W8 m c b
/-- The stretch leaves every buffer it does not write. -/
theorem W8_keep (c : Dev nD) (r : Ref sig .tc) (h : r ∉ hostOps4_W) : W8 m c (Proc.devRef .tc r) = W7 m c (Proc.devRef .tc r) :=
  StableHlo.after_of_writes_sub hostOps4 _ hostOps4_writes h

/-- At call 4's exit: its one output array at what the pipeline leaves, every other buffer as entered (its two input
    windows are on one array, which it only reads). -/
def W9 (c : Dev nD) : Valuation τ sig (Elt F) :=
  Pipeline.withArrays (fun _ : Fin 1 => spec4 2) c (W8 m c) fun _ => (dat4 (Vr8 m) c).arrAt 2 cfg4.N
theorem W9_out (c : Dev nD) : W9 m c (Proc.devRef .tc main_v10) = (dat4 (Vr8 m) c).arrAt 2 cfg4.N := by
  unfold W9; exact Pipeline.withArrays_arr (fun _ : Fin 1 => spec4 2) (fun a b _ => Subsingleton.elim a b) c _ _ 0
theorem W9_keep (c : Dev nD) (b : Ref sig .tc) (h : b ≠ main_v10) : W9 m c (Proc.devRef .tc b) = W8 m c (Proc.devRef .tc b) := by
  unfold W9; exact Pipeline.withArrays_of_ne (fun _ : Fin 1 => spec4 2) c _ _ b fun _ e => h e.symm
abbrev Vr9 : (c : Dev nD) → (b : Ref sig .tc) → Buf (Elt F) ((c : Thread nD τ).loc b) := fun c b => W9 m c b

/-- `main_arg0` ends as launched: no host stretch writes it and no call has an output window on it. -/
theorem W9_main_arg0 (c : Dev nD) : W9 m c (Proc.devRef .tc main_arg0) = m ((c : Thread nD τ).loc main_arg0) :=
  (W9_keep m c main_arg0 (by decide)).trans <| (W8_keep m c main_arg0 (by decide)).trans <| (W7_keep m c main_arg0 (by decide)).trans <|
  (W6_keep m c main_arg0 (by decide)).trans <| (W5_keep m c main_arg0 (by decide)).trans <| (W4_keep m c main_arg0 (by decide)).trans <|
  (W3_keep m c main_arg0 (by decide)).trans <| (W2_keep m c main_arg0 (by decide) (by decide) (by decide)).trans <| (W1_keep m c main_arg0 (by decide))

/-- `main_arg1` ends as launched: no host stretch writes it and no call has an output window on it. -/
theorem W9_main_arg1 (c : Dev nD) : W9 m c (Proc.devRef .tc main_arg1) = m ((c : Thread nD τ).loc main_arg1) :=
  (W9_keep m c main_arg1 (by decide)).trans <| (W8_keep m c main_arg1 (by decide)).trans <| (W7_keep m c main_arg1 (by decide)).trans <|
  (W6_keep m c main_arg1 (by decide)).trans <| (W5_keep m c main_arg1 (by decide)).trans <| (W4_keep m c main_arg1 (by decide)).trans <|
  (W3_keep m c main_arg1 (by decide)).trans <| (W2_keep m c main_arg1 (by decide) (by decide) (by decide)).trans <| (W1_keep m c main_arg1 (by decide))

/-- `main_arg2` ends as launched: no host stretch writes it and no call has an output window on it. -/
theorem W9_main_arg2 (c : Dev nD) : W9 m c (Proc.devRef .tc main_arg2) = m ((c : Thread nD τ).loc main_arg2) :=
  (W9_keep m c main_arg2 (by decide)).trans <| (W8_keep m c main_arg2 (by decide)).trans <| (W7_keep m c main_arg2 (by decide)).trans <|
  (W6_keep m c main_arg2 (by decide)).trans <| (W5_keep m c main_arg2 (by decide)).trans <| (W4_keep m c main_arg2 (by decide)).trans <|
  (W3_keep m c main_arg2 (by decide)).trans <| (W2_keep m c main_arg2 (by decide) (by decide) (by decide)).trans <| (W1_keep m c main_arg2 (by decide))

/-- `main_arg3` ends as launched: no host stretch writes it and no call has an output window on it. -/
theorem W9_main_arg3 (c : Dev nD) : W9 m c (Proc.devRef .tc main_arg3) = m ((c : Thread nD τ).loc main_arg3) :=
  (W9_keep m c main_arg3 (by decide)).trans <| (W8_keep m c main_arg3 (by decide)).trans <| (W7_keep m c main_arg3 (by decide)).trans <|
  (W6_keep m c main_arg3 (by decide)).trans <| (W5_keep m c main_arg3 (by decide)).trans <| (W4_keep m c main_arg3 (by decide)).trans <|
  (W3_keep m c main_arg3 (by decide)).trans <| (W2_keep m c main_arg3 (by decide) (by decide) (by decide)).trans <| (W1_keep m c main_arg3 (by decide))

/-- `main_arg4` ends as launched: no host stretch writes it and no call has an output window on it. -/
theorem W9_main_arg4 (c : Dev nD) : W9 m c (Proc.devRef .tc main_arg4) = m ((c : Thread nD τ).loc main_arg4) :=
  (W9_keep m c main_arg4 (by decide)).trans <| (W8_keep m c main_arg4 (by decide)).trans <| (W7_keep m c main_arg4 (by decide)).trans <|
  (W6_keep m c main_arg4 (by decide)).trans <| (W5_keep m c main_arg4 (by decide)).trans <| (W4_keep m c main_arg4 (by decide)).trans <|
  (W3_keep m c main_arg4 (by decide)).trans <| (W2_keep m c main_arg4 (by decide) (by decide) (by decide)).trans <| (W1_keep m c main_arg4 (by decide))

/-- `main_arg5` ends as launched: no host stretch writes it and no call has an output window on it. -/
theorem W9_main_arg5 (c : Dev nD) : W9 m c (Proc.devRef .tc main_arg5) = m ((c : Thread nD τ).loc main_arg5) :=
  (W9_keep m c main_arg5 (by decide)).trans <| (W8_keep m c main_arg5 (by decide)).trans <| (W7_keep m c main_arg5 (by decide)).trans <|
  (W6_keep m c main_arg5 (by decide)).trans <| (W5_keep m c main_arg5 (by decide)).trans <| (W4_keep m c main_arg5 (by decide)).trans <|
  (W3_keep m c main_arg5 (by decide)).trans <| (W2_keep m c main_arg5 (by decide) (by decide) (by decide)).trans <| (W1_keep m c main_arg5 (by decide))

/-- `main_arg6` ends as launched: no host stretch writes it and no call has an output window on it. -/
theorem W9_main_arg6 (c : Dev nD) : W9 m c (Proc.devRef .tc main_arg6) = m ((c : Thread nD τ).loc main_arg6) :=
  (W9_keep m c main_arg6 (by decide)).trans <| (W8_keep m c main_arg6 (by decide)).trans <| (W7_keep m c main_arg6 (by decide)).trans <|
  (W6_keep m c main_arg6 (by decide)).trans <| (W5_keep m c main_arg6 (by decide)).trans <| (W4_keep m c main_arg6 (by decide)).trans <|
  (W3_keep m c main_arg6 (by decide)).trans <| (W2_keep m c main_arg6 (by decide) (by decide) (by decide)).trans <| (W1_keep m c main_arg6 (by decide))

end Cert.Kernel.Hand

end
-- ==== Proof.K.Data.lean ====
/-
  What the five calls share when the program is run as a list of segments: every call's proof data at once, each
  at the buffer contents its call is entered with (the boundaries of the fold); the empty assignment of levels (no
  core owes another anything); the state that rides beside the buffers through every segment (the core's generator
  register at some state, and that it owes nothing); a stretch of host operations as a segment over all unscoped
  buffers; and the state the last segment leaves.
-/
import proofs.«109506_g1580547973939_cont_week2b_922_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every call's proof data, each at its call's entry contents: a literal match on the call's number, so that the
    launch theorem's configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr3 m) c
  | ⟨2, _⟩ => fun c => dat2 (Vr5 m) c
  | ⟨3, _⟩ => fun c => dat3 (Vr6 m) c
  | ⟨4, _⟩ => fun c => dat4 (Vr8 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state and its debts,
    none. -/
abbrev R (c : Dev nD) : sProp 𝕄 := iprop((∃ r, prngReg c r) ∗ ∃ W, owes (c : Thread nD τ) (0 : CellTallies nD τ sig Unit) W)

/-- A stretch of host operations as a segment over every unscoped buffer from the contents `W`, `R` riding along;
    it leaves the buffers at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at the last boundary's contents, the generator
    register at some state. -/
abbrev Tₙ (c : Dev nD) : sProp 𝕄 := iprop(StableHlo.held (c : Thread nD τ) (Pipeline.ucRefs τ sig) (W9 m c) ∗ ∃ r, prngReg c r)

end Cert.Kernel.Hand

end
-- ==== Proof.K.Reg0.lean ====
/-
  Call 0 of the kernel's program as a segment of the run. It is entered with every unscoped buffer of the core at
  boundary 1's contents and left with them at boundary 2's: at entry its windows' arrays are taken out of the
  buffers (each whole, at the full share) and the rest bypasses the call; at exit the arrays come back at what the
  pipeline leaves and rejoin the rest. The generator register goes into the region invariant and comes back; the
  core owes nothing throughout; the kernel has no semaphore of its own.
-/
import proofs.«109506_g1580547973939_cont_week2b_922_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- applying a library lemma stated over the pinned configuration needs unification to unfold plain definitions in a
-- metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  Call 1 of the kernel's program as a segment of the run. It is entered with every unscoped buffer of the core at
  boundary 3's contents and left with them at boundary 4's: at entry its windows' arrays are taken out of the
  buffers (each whole, at the full share) and the rest bypasses the call; at exit the arrays come back at what the
  pipeline leaves and rejoin the rest. The generator register goes into the region invariant and comes back; the
  core owes nothing throughout; the kernel has no semaphore of its own.
-/
import proofs.«109506_g1580547973939_cont_week2b_922_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- applying a library lemma stated over the pinned configuration needs unification to unfold plain definitions in a
-- metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr3 m c) (Vr4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  Call 2 of the kernel's program as a segment of the run. It is entered with every unscoped buffer of the core at
  boundary 5's contents and left with them at boundary 6's: at entry its windows' arrays are taken out of the
  buffers (each whole, at the full share) and the rest bypasses the call; at exit the arrays come back at what the
  pipeline leaves and rejoin the rest. The generator register goes into the region invariant and comes back; the
  core owes nothing throughout; the kernel has no semaphore of its own.
-/
import proofs.«109506_g1580547973939_cont_week2b_922_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- applying a library lemma stated over the pinned configuration needs unification to unfold plain definitions in a
-- metavariable's type
set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (Vr5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr5 m c) (Vr6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/-
  Call 3 of the kernel's program as a segment of the run. It is entered with every unscoped buffer of the core at
  boundary 6's contents and left with them at boundary 7's: at entry its windows' arrays are taken out of the
  buffers (each whole, at the full share) and the rest bypasses the call; at exit the arrays come back at what the
  pipeline leaves and rejoin the rest. The generator register goes into the region invariant and comes back; the
  core owes nothing throughout; the kernel has no semaphore of its own.
-/
import proofs.«109506_g1580547973939_cont_week2b_922_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- applying a library lemma stated over the pinned configuration needs unification to unfold plain definitions in a
-- metavariable's type
set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (Vr6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vr6 m c) (Vr7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
/-
  Call 4 of the kernel's program as a segment of the run, entered with every unscoped buffer of the core at boundary
  8's contents and left at boundary 9's. Its two input windows are on ONE array: at entry that array's full share is
  split into its left and right halves, one for each window; the call only reads it, so at exit both halves hold the
  entry contents and are joined back into the full share. Its output array is taken out whole at entry and comes
  back at what the pipeline leaves. The generator register goes into the region invariant and comes back; the core
  owes nothing throughout; the kernel has no semaphore of its own.
-/
import proofs.«109506_g1580547973939_cont_week2b_922_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers behind call 4's arrays are two: the common input array and the output array. -/
theorem arrImage4 : Finset.image (Pipeline.arrRef spec4) Finset.univ = insert main_v8 {main_v10} := by decide

/-- Call 4's windowed arrays, each array a whole buffer: one points-to per window at the window's share. -/
theorem arrays_eq4 (c : Dev nD) (Fc : (w : Fin (Pipeline.pin (pcfgs (F := F)) adm 4).W) → Buf (Elt F) (((Pipeline.pin (pcfgs (F := F)) adm 4).win w).arr.view.loc (c : Thread nD τ))) :
    (pdats m 4 c).arrays Fc
      = bigSep Finset.univ fun w => (((c : Thread nD τ).loc (Pipeline.arrRef spec4 w)) ↦{(pdats m 4 c).share w} Fc w : sProp 𝕄) := by
  unfold Pipeline.Dat.arrays
  refine bigSep_congr fun w _ => ?_
  have e : ((Pipeline.pin (pcfgs (F := F)) adm 4).win w).arr.view.set = Finset.univ := (arr_whole4 w).set_eq_univ
  rw [e]
  rfl

/-- ENTRY, the arrays' part: the input array's full share split between the two windows on it, the output whole. -/
theorem arrays_of_arrBufs4 (c : Dev nD) :
    (Pipeline.arrBufs (Ix := Unit) (Name := ℕ) (U := UR sig nD τ) (Lvl := ℕ) spec4 c (Vr8 m c) : sProp 𝕄)
      ⊢ (pdats m 4 c).arrays ((pdats m 4 c).arrAt · 0) := by
  rw [arrays_eq4 m c]
  unfold Pipeline.arrBufs
  rw [bigSep_W4, arrImage4, bigSep_insert (by decide), bigSep_singleton]
  rw [show (pdats m 4 c).share 0 = fullShare.left from rfl, show (pdats m 4 c).share 1 = fullShare.right from rfl,
    show (pdats m 4 c).share 2 = fullShare from rfl]
  show iprop((((c : Thread nD τ).loc main_v8) ↦{fullShare} Vr8 m c main_v8) ∗ (((c : Thread nD τ).loc main_v10) ↦{fullShare} Vr8 m c main_v10)) ⊢ _
  iintro ⟨H8, H10⟩
  ihave H := (pointsTo_share (PosShare.mem_left_op_right fullShare)).1 $$ H8
  icases H with ⟨Hl, Hr⟩
  isplitl [Hl]; · iexact Hl
  isplitl [Hr]; · iexact Hr
  iexact H10

/-- EXIT, the arrays' part: the two halves of the input array, each at the entry contents, joined into the full
    share; the output array at what the pipeline leaves. -/
theorem arrBufs_of_arrays4 (c : Dev nD) :
    (pdats m 4 c).arrays ((pdats m 4 c).arrAt · cfg4.N)
      ⊢ (Pipeline.arrBufs (Ix := Unit) (Name := ℕ) (U := UR sig nD τ) (Lvl := ℕ) spec4 c (Vr9 m c) : sProp 𝕄) := by
  rw [arrays_eq4 m c]
  unfold Pipeline.arrBufs
  rw [bigSep_W4, arrImage4, bigSep_insert (by decide), bigSep_singleton]
  rw [show (pdats m 4 c).share 0 = fullShare.left from rfl, show (pdats m 4 c).share 1 = fullShare.right from rfl,
    show (pdats m 4 c).share 2 = fullShare from rfl]
  have h0 : (pdats m 4 c).arrAt 0 cfg4.N = Vr9 m c main_v8 :=
    (((dat4 (Vr8 m) c).arrAt_in 0 rfl _).trans (A_eq4 (Vr8 m) c 0)).trans (W9_keep m c main_v8 (by decide)).symm
  have h1 : (pdats m 4 c).arrAt 1 cfg4.N = Vr9 m c main_v8 :=
    (((dat4 (Vr8 m) c).arrAt_in 1 rfl _).trans (A_eq4 (Vr8 m) c 1)).trans (W9_keep m c main_v8 (by decide)).symm
  have h2 : (pdats m 4 c).arrAt 2 cfg4.N = Vr9 m c main_v10 := (W9_out m c).symm
  dsimp only
  rw [h0, h1, h2]
  show _ ⊢ iprop((((c : Thread nD τ).loc main_v8) ↦{fullShare} Vr9 m c main_v8) ∗ (((c : Thread nD τ).loc main_v10) ↦{fullShare} Vr9 m c main_v10))
  iintro ⟨Hl, Hr, H10⟩
  isplitl [Hl Hr]
  · iapply (pointsTo_share (PosShare.mem_left_op_right fullShare)).2
    isplitl [Hl]; · iexact Hl
    iexact Hr
  iexact H10

/-- The unscoped buffers of the core are the buffers behind call 4's arrays and the rest. -/
theorem held_split4 (c : Dev nD) (W : Valuation τ sig (Elt F)) :
    (StableHlo.held (c : Thread nD τ) (Pipeline.ucRefs τ sig) W : sProp 𝕄)
      = iprop(Pipeline.arrBufs spec4 c (fun b => W b) ∗ Pipeline.unscopedRest spec4 c (fun b => W b)) := by
  rw [← Pipeline.unscopedBufs_held c W]
  exact Pipeline.unscopedBufs_split₀ (Pipeline.pin (pcfgs (F := F)) adm) 4 winFacts₀4.arr_unscoped c (fun b => W b)

/-- Off call 4's arrays the last boundary is boundary 8. -/
theorem rest4 (c : Dev nD) :
    (Pipeline.unscopedRest (Ix := Unit) (Name := ℕ) (U := UR sig nD τ) (Lvl := ℕ) spec4 c (Vr8 m c) : sProp 𝕄)
      = Pipeline.unscopedRest spec4 c (Vr9 m c) := by
  unfold Pipeline.unscopedRest
  refine bigSep_congr fun b hb => ?_
  have hb' : b ∉ Finset.image (Pipeline.arrRef spec4) Finset.univ := (Finset.mem_sdiff.mp hb).2
  rw [arrImage4] at hb'
  have hne : b ≠ main_v10 := fun e => hb' (by rw [e]; decide)
  rw [show Vr9 m c b = Vr8 m c b from W9_keep m c b hne]

set_option backward.isDefEq.respectTransparency.types false in
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (Vr8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Vr8 m c)
  hentry c := by
    rw [Pipeline.ownSems0_none, held_split4 c (W8 m c)]
    iintro ⟨⟨⟨Hab, Hrest⟩, Hp, HO⟩, -, -⟩
    ihave Ha := (arrays_of_arrBufs4 m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    unfold Tₙ
    rw [held_split4 c (W9 m c), rest4 m c]
    iintro ⟨Ha, HO, HY, Hrest⟩
    ihave Hab := (arrBufs_of_arrays4 m c) $$ Ha
    imodintro
    isplitl [Hab Hrest HY]
    · isplitl [Hab Hrest]
      · isplitl [Hab]; · iexact Hab
        iexact Hrest
      iexact HY
    unfold Pipeline.Dat.owesAt Pipeline.owesWithin
    icases HO with ⟨%W, -, HO⟩; iexists W; iexact HO

end Cert.Kernel.Hand

end
-- ==== Proof.K.Run.lean ====
/-
  The kernel's program run from launch to return. Its @main is nine items in order — a stretch of host operations,
  call 0, a stretch, call 1, a stretch, call 2, call 3, a stretch, call 4 — each entered with the core's unscoped
  buffers at one boundary of the fold and left with them at the next. Every weakly fair execution terminates without
  a fault, and at the end each unscoped buffer of each core holds what the last boundary `W9` says. In particular
  every argument array ends as launched (the frame).
-/
import proofs.«109506_g1580547973939_cont_week2b_922_2_alg».proof.Proof.K.Reg0
import proofs.«109506_g1580547973939_cont_week2b_922_2_alg».proof.Proof.K.Reg1
import proofs.«109506_g1580547973939_cont_week2b_922_2_alg».proof.Proof.K.Reg2
import proofs.«109506_g1580547973939_cont_week2b_922_2_alg».proof.Proof.K.Reg3
import proofs.«109506_g1580547973939_cont_week2b_922_2_alg».proof.Proof.K.Reg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- @main's nine segments in order: a host segment per stretch from its boundary's contents, a region per call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m),
    .host (hseg hostOps4 hostOps4_sub hostOps4_fresh (W7 m)),
    .region (reg4 m) ]

/-- @main is the run of the segments. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- From any memory with zero counters, every weakly fair execution of @main terminates, nothing faulting, and every
    final memory holds, at each unscoped buffer of each core, the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c)⟩) (run_all m ρ)

end Cert.Kernel.Hand

end
-- ==== Proof.KI.R0.lean ====
/-
  Region 0 of the kernel's program (the projection call) at a parameter `V`, the buffer contents the region is
  entered with. The call has no grid: its one point reads the whole 8192 × 256 feature array, the whole 256 × 128
  projection and the two 128 × 1 halves of the attention vector, and leaves three arrays: the projected features
  `x · W` (8192 × 128) and its products with each half of the attention vector (8192 × 1 each).  Stated here: what
  each window's staging buffer holds before and after the body, and that the body run on those buffers leaves
  exactly that.
-/
import proofs.«109506_g1580547973939_cont_week2b_922_2_alg».proof.Proof.Gen.KernelIdeal.Launch
import proofs.«109506_g1580547973939_cont_week2b_922_2_alg».proof.Proof.Gen.KernelIdeal.Skeleton
import proofs.«109506_g1580547973939_cont_week2b_922_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at the point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev r0_x : Rect S8192x256 := Rect.unit (s := S8192x256) ![0, 0] S8192x256.size inb_S8192x256_S8192x256_0_0
abbrev r0_w : Rect S256x128 := Rect.unit (s := S256x128) ![0, 0] S256x128.size inb_S256x128_S256x128_0_0
abbrev r0_a : Rect S128x1 := Rect.unit (s := S128x1) ![0, 0] S128x1.size inb_S128x1_S128x1_0_0
abbrev r0_wh : Rect S8192x128 := Rect.unit (s := S8192x128) ![0, 0] S8192x128.size inb_S8192x128_S8192x128_0_0
abbrev r0_s : Rect S8192x1 := Rect.unit (s := S8192x1) ![0, 0] S8192x1.size inb_S8192x1_S8192x1_0_0

/-- The three output buffers after the body, from the input blocks: one whole store each. -/
def out0_4 (x0 : Vec F S8192x256 .f32) (x1 : Vec F S256x128 .f32) : Vec F S8192x128 .f32 :=
  View.canon [⟨r0_wh, k0_pay1 (View.ld x0 r0_x) (View.ld x1 r0_w)⟩]
def out0_5 (x0 : Vec F S8192x256 .f32) (x1 : Vec F S256x128 .f32) (x2 : Vec F S128x1 .f32) : Vec F S8192x1 .f32 :=
  View.canon [⟨r0_s, k0_pay2 (View.ld x0 r0_x) (View.ld x1 r0_w) (View.ld x2 r0_a)⟩]
def out0_6 (x0 : Vec F S8192x256 .f32) (x1 : Vec F S256x128 .f32) (x3 : Vec F S128x1 .f32) : Vec F S8192x1 .f32 :=
  View.canon [⟨r0_s, k0_pay3 (View.ld x0 r0_x) (View.ld x1 r0_w) (View.ld x3 r0_a)⟩]

theorem cover0_4 (p0 : Vec F S8192x128 .f32) (y : S8192x128.Idx) :
    ∃ pc ∈ ([⟨r0_wh, p0⟩] : List (View.Piece (Elt F) S8192x128 .f32)), y ∈ pc.1.set :=
  View.cover_of_tiled [⟨r0_wh, p0⟩] S8192x128.size (by rfl) y
theorem cover0_s (p0 : Vec F S8192x1 .f32) (y : S8192x1.Idx) :
    ∃ pc ∈ ([⟨r0_s, p0⟩] : List (View.Piece (Elt F) S8192x1 .f32)), y ∈ pc.1.set :=
  View.cover_of_tiled [⟨r0_s, p0⟩] S8192x1.size (by rfl) y

set_option maxHeartbeats 1000000 in
/-- The body on whole staging memrefs, the inputs' at contents `x0 … x3` and the outputs' at anything, runs to the
    continuation with the inputs' unchanged and the outputs' at `out0_4`, `out0_5`, `out0_6` of the inputs'. -/
theorem sound_kernel0 (c : Dev nD) (E : Set ℕ)
    (arg0 : Memref sig .tc .vmem S8192x256 .f32) (harg0 : arg0.IsWhole) (arg1 : Memref sig .tc .vmem S256x128 .f32) (harg1 : arg1.IsWhole)
    (arg2 : Memref sig .tc .vmem S128x1 .f32) (harg2 : arg2.IsWhole) (arg3 : Memref sig .tc .vmem S128x1 .f32) (harg3 : arg3.IsWhole)
    (arg4 : Memref sig .tc .vmem S8192x128 .f32) (harg4 : arg4.IsWhole) (arg5 : Memref sig .tc .vmem S8192x1 .f32) (harg5 : arg5.IsWhole)
    (arg6 : Memref sig .tc .vmem S8192x1 .f32) (harg6 : arg6.IsWhole)
    (x0 : Vec F S8192x256 .f32) (x1 : Vec F S256x128 .f32) (x2 : Vec F S128x1 .f32) (x3 : Vec F S128x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3
            ∗ owns (c : Thread nD τ) arg4 fullShare (out0_4 x0 x1) ∗ owns (c : Thread nD τ) arg5 fullShare (out0_5 x0 x1 x2)
            ∗ owns (c : Thread nD τ) arg6 fullShare (out0_6 x0 x1 x3)) -∗ K ⟨⟩))
      ⊢ wp frame (wpE (defs₀ (F := F)) Variants.none c none) E (cc0__prelude_kernel arg0 harg0 arg1 harg1 arg2 harg2 arg3 harg3 arg4 harg4 arg5 harg5 arg6 harg6) K := by
  simp only [cc0__prelude_kernel_eq_skeleton]; unfold cc0__prelude_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_s _)
  iexists _; isplitr
  swap; · iexact H6
  ipureintro
  exact View.read_writes_eq_canon _ _ _ (cover0_s _)

/-- The proof data of this call on core `c`: the arrays as the region finds them; after the body each input's buffer
    at its block and each output's at `out0_4` / `out0_5` / `out0_6` of the input blocks; the plain region invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for this call, at its one point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of the kernel's program (the attention call) at a parameter `V`, the buffer contents the region is
  entered with. The call walks the 8192 rows of the adjacency in 32 blocks of 256 rows; at block `t` the body reads
  rows `256 t … 256 t + 255` of the adjacency and of the first score column, the whole projected-feature array, the
  whole second score row and the whole 128 × 64 weight array; it forms the masked leaky scores of those rows, their
  row maximum, the exponentials of the differences and their row sums, the exponentials' product with the projected
  features divided by the row sums, applies the exponential-linear unit twice, and leaves the product with the weights
  in the 256 × 64 output block.  Stated here: what each window's staging buffer holds before and after the body at a
  point, and that the body run on those buffers leaves exactly that.
-/
import proofs.«109506_g1580547973939_cont_week2b_922_2_alg».proof.Proof.Gen.KernelIdeal.Launch
import proofs.«109506_g1580547973939_cont_week2b_922_2_alg».proof.Proof.Gen.KernelIdeal.Skeleton
import proofs.«109506_g1580547973939_cont_week2b_922_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it
    there or kept it from an earlier point (its block index did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev r1_adj : Rect S256x8192 := Rect.unit (s := S256x8192) ![0, 0] S256x8192.size inb_S256x8192_S256x8192_0_0
abbrev r1_wh : Rect S8192x128 := Rect.unit (s := S8192x128) ![0, 0] S8192x128.size inb_S8192x128_S8192x128_0_0
abbrev r1_s1 : Rect S256x1 := Rect.unit (s := S256x1) ![0, 0] S256x1.size inb_S256x1_S256x1_0_0
abbrev r1_s2 : Rect S1x8192 := Rect.unit (s := S1x8192) ![0, 0] S1x8192.size inb_S1x8192_S1x8192_0_0
abbrev r1_w : Rect S128x64 := Rect.unit (s := S128x64) ![0, 0] S128x64.size inb_S128x64_S128x64_0_0
abbrev r1_out : Rect S256x64 := Rect.unit (s := S256x64) ![0, 0] S256x64.size inb_S256x64_S256x64_0_0

/-- The output block after the body, from the five input blocks (adjacency rows, projected features, first score
    rows, second score row, weights): one store of the whole block. -/
def out1_5 (x0 : Vec F S256x8192 .f32) (x1 : Vec F S8192x128 .f32) (x2 : Vec F S256x1 .f32) (x3 : Vec F S1x8192 .f32) (x4 : Vec F S128x64 .f32) :
    Vec F S256x64 .f32 :=
  View.canon [⟨r1_out, k1_pay1 (k1_pay2 (View.ld x2 r1_s1) (View.ld x3 r1_s2) (View.ld x0 r1_adj) (View.ld x1 r1_wh)) (View.ld x4 r1_w)⟩]

theorem cover1_5 (p0 : Vec F S256x64 .f32) (y : S256x64.Idx) :
    ∃ pc ∈ ([⟨r1_out, p0⟩] : List (View.Piece (Elt F) S256x64 .f32)), y ∈ pc.1.set :=
  View.cover_of_tiled [⟨r1_out, p0⟩] S256x64.size (by rfl) y

set_option maxHeartbeats 1000000 in
/-- The body on whole staging memrefs, the inputs' at contents `x0 … x4` and the output's at anything, runs to the
    continuation with the inputs' unchanged and the output's at `out1_5` of the inputs'. -/
theorem sound_kernel1 (c : Dev nD) (E : Set ℕ) (i : grid1.Coords)
    (arg1 : Memref sig .tc .vmem S256x8192 .f32) (harg1 : arg1.IsWhole) (arg2 : Memref sig .tc .vmem S8192x128 .f32) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S128x64 .f32) (harg5 : arg5.IsWhole) (arg6 : Memref sig .tc .vmem S256x64 .f32) (harg6 : arg6.IsWhole)
    (x0 : Vec F S256x8192 .f32) (x1 : Vec F S8192x128 .f32) (x2 : Vec F S256x1 .f32) (x3 : Vec F S1x8192 .f32) (x4 : Vec F S128x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__gat_kernel i arg1 harg1 arg2 harg2 arg3 harg3 arg4 harg4 arg5 harg5 arg6 harg6) K := by
  simp only [cc1__gat_kernel_eq_skeleton]; unfold cc1__gat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this call on core `c`: the arrays as the region finds them; after the body at point `t`
    each input's buffer at its block and the output's at `out1_5` of the input blocks; the plain region
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for this call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2 of the kernel's program (the first graph-convolution call) at a parameter `V`, the buffer contents
  the region is entered with. The call walks the 8192 rows of the adjacency in 16 blocks of 512 rows; at
  block `t` the body reads rows `512 t … 512 t + 511` of the adjacency, the whole 8192 × 64 support array and
  the whole 64 × 128 weight array, and leaves in the 512 × 128 output block the product
  `max (adj_block · support, 0) · weights`.  Stated here: what each window's staging buffer holds before and
  after the body at a point (the proof data), and that the body run on those buffers leaves exactly that.
-/
import proofs.«109506_g1580547973939_cont_week2b_922_2_alg».proof.Proof.Gen.KernelIdeal.Launch
import proofs.«109506_g1580547973939_cont_week2b_922_2_alg».proof.Proof.Gen.KernelIdeal.Skeleton
import proofs.«109506_g1580547973939_cont_week2b_922_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it
    there or kept it from an earlier point (its block index did not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole 512 × 128 rectangle the body stores through. -/
abbrev r2_out : Rect S512x128 := Rect.unit (s := S512x128) ![0, 0] S512x128.size inb_S512x128_S512x128_0_0
abbrev r2_adj : Rect S512x8192 := Rect.unit (s := S512x8192) ![0, 0] S512x8192.size inb_S512x8192_S512x8192_0_0
abbrev r2_sup : Rect S8192x64 := Rect.unit (s := S8192x64) ![0, 0] S8192x64.size inb_S8192x64_S8192x64_0_0
abbrev r2_w : Rect S64x128 := Rect.unit (s := S64x128) ![0, 0] S64x128.size inb_S64x128_S64x128_0_0

/-- The output block after the body, from the three input blocks: one store of the whole block. -/
def out2_3 (x0 : Vec F S512x8192 .f32) (x1 : Vec F S8192x64 .f32) (x2 : Vec F S64x128 .f32) : Vec F S512x128 .f32 :=
  View.canon [⟨r2_out, k2_pay1 (View.ld x0 r2_adj) (View.ld x1 r2_sup) (View.ld x2 r2_w)⟩]

theorem cover2_3 (p0 : Vec F S512x128 .f32) (y : S512x128.Idx) :
    ∃ pc ∈ ([⟨r2_out, p0⟩] : List (View.Piece (Elt F) S512x128 .f32)), y ∈ pc.1.set :=
  View.cover_of_tiled [⟨r2_out, p0⟩] S512x128.size (by rfl) y

set_option maxHeartbeats 1000000 in
/-- The body on whole staging memrefs, the inputs' at contents `x0 x1 x2` and the output's at anything, runs to the
    continuation with the inputs' unchanged and the output's at `out2_3 x0 x1 x2`. -/
theorem sound_kernel2 (c : Dev nD) (E : Set ℕ) (i : grid2.Coords)
    (arg1 : Memref sig .tc .vmem S512x8192 .f32) (harg1 : arg1.IsWhole) (arg2 : Memref sig .tc .vmem S8192x64 .f32) (harg2 : arg2.IsWhole)
    (arg3 : Memref sig .tc .vmem S64x128 .f32) (harg3 : arg3.IsWhole) (arg4 : Memref sig .tc .vmem S512x128 .f32) (harg4 : arg4.IsWhole)
    (x0 : Vec F S512x8192 .f32) (x1 : Vec F S8192x64 .f32) (x2 : Vec F S64x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__gc1_kernel i arg1 harg1 arg2 harg2 arg3 harg3 arg4 harg4) K := by
  simp only [cc2__gc1_kernel_eq_skeleton]; unfold cc2__gc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this call on core `c`: the arrays as the region finds them; after the body at point `t`
    each input's buffer at its block and the output's at `out2_3` of the input blocks; the region invariant the
    plain one (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this call, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  Region 3 of the kernel's program (the second graph-convolution call) at a parameter `V`, the buffer contents
  the region is entered with. The call walks the 8192 rows of the adjacency in 16 blocks of 512 rows; at block
  `t` the body reads rows `512 t … 512 t + 511` of the adjacency and the whole 8192 × 128 array of the previous
  call, and leaves their product in the 512 × 128 output block.  Stated here: what each window's staging buffer
  holds before and after the body at a point, and that the body run on those buffers leaves exactly that.
-/
import proofs.«109506_g1580547973939_cont_week2b_922_2_alg».proof.Proof.Gen.KernelIdeal.Launch
import proofs.«109506_g1580547973939_cont_week2b_922_2_alg».proof.Proof.Gen.KernelIdeal.Skeleton
import proofs.«109506_g1580547973939_cont_week2b_922_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the pipeline fetched it
    there or kept it from an earlier point (its block index did not move). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole rectangles the body loads and stores through. -/
abbrev r3_out : Rect S512x128 := Rect.unit (s := S512x128) ![0, 0] S512x128.size inb_S512x128_S512x128_0_0
abbrev r3_adj : Rect S512x8192 := Rect.unit (s := S512x8192) ![0, 0] S512x8192.size inb_S512x8192_S512x8192_0_0
abbrev r3_in : Rect S8192x128 := Rect.unit (s := S8192x128) ![0, 0] S8192x128.size inb_S8192x128_S8192x128_0_0

/-- The output block after the body, from the two input blocks: one store of the whole block. -/
def out3_2 (x0 : Vec F S512x8192 .f32) (x1 : Vec F S8192x128 .f32) : Vec F S512x128 .f32 :=
  View.canon [⟨r3_out, k3_pay1 (View.ld x0 r3_adj) (View.ld x1 r3_in)⟩]

theorem cover3_2 (p0 : Vec F S512x128 .f32) (y : S512x128.Idx) :
    ∃ pc ∈ ([⟨r3_out, p0⟩] : List (View.Piece (Elt F) S512x128 .f32)), y ∈ pc.1.set :=
  View.cover_of_tiled [⟨r3_out, p0⟩] S512x128.size (by rfl) y

set_option maxHeartbeats 1000000 in
/-- The body on whole staging memrefs, the inputs' at contents `x0 x1` and the output's at anything, runs to the
    continuation with the inputs' unchanged and the output's at `out3_2 x0 x1`. -/
theorem sound_kernel3 (c : Dev nD) (E : Set ℕ) (i : grid3.Coords)
    (arg1 : Memref sig .tc .vmem S512x8192 .f32) (harg1 : arg1.IsWhole) (arg2 : Memref sig .tc .vmem S8192x128 .f32) (harg2 : arg2.IsWhole)
    (arg3 : Memref sig .tc .vmem S512x128 .f32) (harg3 : arg3.IsWhole)
    (x0 : Vec F S512x8192 .f32) (x1 : Vec F S8192x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__gc23_kernel i arg1 harg1 arg2 harg2 arg3 harg3) K := by
  simp only [cc3__gc23_kernel_eq_skeleton]; unfold cc3__gc23_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this call on core `c`: the arrays as the region finds them; after the body at point `t`
    each input's buffer at its block and the output's at `out3_2` of the input blocks; the plain region
    invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this call, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/-
  Region 4 of the kernel's program (the inner-product decoder) at a parameter `V`, the buffer contents the
  region is entered with. The call walks an 8 × 8 grid; at point (i, j) the body reads rows `1024 i …` and rows
  `1024 j …` of ONE 8192 × 64 array (both input windows are on that array) and leaves in the 1024 × 1024 output
  tile the products of those rows, contracted over the 64 columns.  Stated here: what each window's staging buffer
  holds before and after the body at a point, and that the body run on those buffers leaves exactly that. The two
  input windows hold the two halves of their common array's share.
-/
import proofs.«109506_g1580547973939_cont_week2b_922_2_alg».proof.Proof.Gen.KernelIdeal.Launch
import proofs.«109506_g1580547973939_cont_week2b_922_2_alg».proof.Proof.Gen.KernelIdeal.Skeleton
import proofs.«109506_g1580547973939_cont_week2b_922_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the pipeline fetched it
    there or kept it from an earlier point (its block index did not move). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole rectangles the body loads and stores through. -/
abbrev r4_out : Rect S1024x1024 := Rect.unit (s := S1024x1024) ![0, 0] S1024x1024.size inb_S1024x1024_S1024x1024_0_0
abbrev r4_in : Rect S1024x64 := Rect.unit (s := S1024x64) ![0, 0] S1024x64.size inb_S1024x64_S1024x64_0_0

/-- The output tile after the body, from the two row blocks: one store of the whole tile. -/
def out4_2 (x0 : Vec F S1024x64 .f32) (x1 : Vec F S1024x64 .f32) : Vec F S1024x1024 .f32 :=
  View.canon [⟨r4_out, k4_pay1 (View.ld x0 r4_in) (View.ld x1 r4_in)⟩]

theorem cover4_2 (p0 : Vec F S1024x1024 .f32) (y : S1024x1024.Idx) :
    ∃ pc ∈ ([⟨r4_out, p0⟩] : List (View.Piece (Elt F) S1024x1024 .f32)), y ∈ pc.1.set :=
  View.cover_of_tiled [⟨r4_out, p0⟩] S1024x1024.size (by rfl) y

set_option maxHeartbeats 1000000 in
/-- The body on whole staging memrefs, the inputs' at contents `x0 x1` and the output's at anything, runs to the
    continuation with the inputs' unchanged and the output's at `out4_2 x0 x1`. -/
theorem sound_kernel4 (c : Dev nD) (E : Set ℕ) (i : grid4.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out4_2 x0 x1)) -∗ K ⟨⟩))
      ⊢ wp frame (wpE (defs₀ (F := F)) Variants.none c none) E (cc4__outer_kernel i arg2 harg2 arg3 harg3 arg4 harg4) K := by
  simp only [cc4__outer_kernel_eq_skeleton]; unfold cc4__outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of this call on core `c`: the arrays as the region finds them; after the body at point `t`
    each input's buffer at its block and the output's at `out4_2` of the two blocks; the plain region invariant;
    nothing owed. The two input windows read one array: the first holds the left half of its share, the second
    the right half; the output's array is held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this call, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Fold.lean ====
/-
  The buffer contents of a core at each boundary between the items of the kernel's program: the launch memory,
  then alternately a stretch of host operations applied and a pallas call's arrays replaced by what its pipeline
  leaves. Ten boundaries, `W0` (launch) to `W9` (return). For each call: its arrays at the exit boundary are what
  the pipeline leaves, every other buffer is as at entry; an input window's array is as at entry too. Hence every
  argument array reads at `W9` what the launch memory held.
-/
import proofs.«109506_g1580547973939_cont_week2b_922_2_alg».proof.Proof.KI.R0
import proofs.«109506_g1580547973939_cont_week2b_922_2_alg».proof.Proof.KI.R1
import proofs.«109506_g1580547973939_cont_week2b_922_2_alg».proof.Proof.KI.R2
import proofs.«109506_g1580547973939_cont_week2b_922_2_alg».proof.Proof.KI.R3
import proofs.«109506_g1580547973939_cont_week2b_922_2_alg».proof.Proof.KI.R4
import proofs.«109506_g1580547973939_cont_week2b_922_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The launch memory on core `c`. -/
abbrev W0 : Dev nD → Valuation τ sig (Elt F) := fun c b => m (c, b)

/-- After the host stretch `hostOps0`. -/
abbrev W1 : Dev nD → Valuation τ sig (Elt F) := fun c => StableHlo.after hostOps0 (W0 m c)
abbrev Vr1 : (c : Dev nD) → (b : Ref sig .tc) → Buf (Elt F) ((c : Thread nD τ).loc b) := fun c b => W1 m c b
/-- The stretch leaves every buffer it does not write. -/
theorem W1_keep (c : Dev nD) (r : Ref sig .tc) (h : r ∉ hostOps0_W) : W1 m c (Proc.devRef .tc r) = W0 m c (Proc.devRef .tc r) :=
  StableHlo.after_of_writes_sub hostOps0 _ hostOps0_writes h

/-- At call 0's exit: its arrays at what the pipeline leaves (the inputs as entered, each output's write-backs
    folded in), every other buffer as entered. -/
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references. -/
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

/-- Call 0 leaves every buffer but its outputs: an input window's array ends as entered, and a buffer it has no
    window on is untouched. -/
theorem W2_keep (c : Dev nD) (b : Ref sig .tc) (h0 : b ≠ main_v2_0) (h1 : b ≠ main_v2_1) (h2 : b ≠ main_v2_2) :
    W2 m c (Proc.devRef .tc b) = W1 m c (Proc.devRef .tc b) := by
  by_cases h : ∃ w, Pipeline.arrRef spec0 w = b
  · obtain ⟨w, rfl⟩ := h
    rw [W2_arr]
    match w with
    | ⟨0, _⟩ => exact ((dat0 (Vr1 m) c).arrAt_in 0 rfl _).trans (A_eq0 (Vr1 m) c 0)
    | ⟨1, _⟩ => exact ((dat0 (Vr1 m) c).arrAt_in 1 rfl _).trans (A_eq0 (Vr1 m) c 1)
    | ⟨2, _⟩ => exact ((dat0 (Vr1 m) c).arrAt_in 2 rfl _).trans (A_eq0 (Vr1 m) c 2)
    | ⟨3, _⟩ => exact ((dat0 (Vr1 m) c).arrAt_in 3 rfl _).trans (A_eq0 (Vr1 m) c 3)
    | ⟨4, _⟩ => exact absurd rfl h0
    | ⟨5, _⟩ => exact absurd rfl h1
    | ⟨6, _⟩ => exact absurd rfl h2
  · exact W2_of_ne m c b fun w e => h ⟨w, e⟩

/-- After the host stretch `hostOps1`. -/
abbrev W3 : Dev nD → Valuation τ sig (Elt F) := fun c => StableHlo.after hostOps1 (W2 m c)
abbrev Vr3 : (c : Dev nD) → (b : Ref sig .tc) → Buf (Elt F) ((c : Thread nD τ).loc b) := fun c b => W3 m c b
/-- The stretch leaves every buffer it does not write. -/
theorem W3_keep (c : Dev nD) (r : Ref sig .tc) (h : r ∉ hostOps1_W) : W3 m c (Proc.devRef .tc r) = W2 m c (Proc.devRef .tc r) :=
  StableHlo.after_of_writes_sub hostOps1 _ hostOps1_writes h

/-- At call 1's exit: its arrays at what the pipeline leaves (the inputs as entered, each output's write-backs
    folded in), every other buffer as entered. -/
def W4 (c : Dev nD) : Valuation τ sig (Elt F) :=
  Pipeline.withArrays spec1 c (W3 m c) fun w => (dat1 (Vr3 m) c).arrAt w cfg1.N
theorem W4_arr (c : Dev nD) (w : Fin cfg1.W) :
    W4 m c (Proc.devRef .tc (Pipeline.arrRef spec1 w)) = (dat1 (Vr3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the core's references. -/
abbrev Vr4 : (c : Dev nD) → (b : Ref sig .tc) → Buf (Elt F) ((c : Thread nD τ).loc b) := fun c b => W4 m c b
theorem hF1 (c : Dev nD) (w : Fin cfg1.W) : (dat1 (Vr3 m) c).arrAt w cfg1.N = Vr4 m c (Pipeline.arrRef spec1 w) :=
  (W4_arr m c w).symm
theorem hrest1 (c : Dev nD) : ∀ b, b ∉ Finset.univ.image (Pipeline.arrRef spec1) → Vr4 m c b = Vr3 m c b :=
  fun b hb => W4_of_ne m c b fun w e => hb (Finset.mem_image.mpr ⟨w, Finset.mem_univ _, e⟩)

/-- Call 1 leaves every buffer but its outputs: an input window's array ends as entered, and a buffer it has no
    window on is untouched. -/
theorem W4_keep (c : Dev nD) (b : Ref sig .tc) (h0 : b ≠ main_v4) :
    W4 m c (Proc.devRef .tc b) = W3 m c (Proc.devRef .tc b) := by
  by_cases h : ∃ w, Pipeline.arrRef spec1 w = b
  · obtain ⟨w, rfl⟩ := h
    rw [W4_arr]
    match w with
    | ⟨0, _⟩ => exact ((dat1 (Vr3 m) c).arrAt_in 0 rfl _).trans (A_eq1 (Vr3 m) c 0)
    | ⟨1, _⟩ => exact ((dat1 (Vr3 m) c).arrAt_in 1 rfl _).trans (A_eq1 (Vr3 m) c 1)
    | ⟨2, _⟩ => exact ((dat1 (Vr3 m) c).arrAt_in 2 rfl _).trans (A_eq1 (Vr3 m) c 2)
    | ⟨3, _⟩ => exact ((dat1 (Vr3 m) c).arrAt_in 3 rfl _).trans (A_eq1 (Vr3 m) c 3)
    | ⟨4, _⟩ => exact ((dat1 (Vr3 m) c).arrAt_in 4 rfl _).trans (A_eq1 (Vr3 m) c 4)
    | ⟨5, _⟩ => exact absurd rfl h0
  · exact W4_of_ne m c b fun w e => h ⟨w, e⟩

/-- After the host stretch `hostOps2`. -/
abbrev W5 : Dev nD → Valuation τ sig (Elt F) := fun c => StableHlo.after hostOps2 (W4 m c)
abbrev Vr5 : (c : Dev nD) → (b : Ref sig .tc) → Buf (Elt F) ((c : Thread nD τ).loc b) := fun c b => W5 m c b
/-- The stretch leaves every buffer it does not write. -/
theorem W5_keep (c : Dev nD) (r : Ref sig .tc) (h : r ∉ hostOps2_W) : W5 m c (Proc.devRef .tc r) = W4 m c (Proc.devRef .tc r) :=
  StableHlo.after_of_writes_sub hostOps2 _ hostOps2_writes h

/-- At call 2's exit: its arrays at what the pipeline leaves (the inputs as entered, each output's write-backs
    folded in), every other buffer as entered. -/
def W6 (c : Dev nD) : Valuation τ sig (Elt F) :=
  Pipeline.withArrays spec2 c (W5 m c) fun w => (dat2 (Vr5 m) c).arrAt w cfg2.N
theorem W6_arr (c : Dev nD) (w : Fin cfg2.W) :
    W6 m c (Proc.devRef .tc (Pipeline.arrRef spec2 w)) = (dat2 (Vr5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the core's references. -/
abbrev Vr6 : (c : Dev nD) → (b : Ref sig .tc) → Buf (Elt F) ((c : Thread nD τ).loc b) := fun c b => W6 m c b
theorem hF2 (c : Dev nD) (w : Fin cfg2.W) : (dat2 (Vr5 m) c).arrAt w cfg2.N = Vr6 m c (Pipeline.arrRef spec2 w) :=
  (W6_arr m c w).symm
theorem hrest2 (c : Dev nD) : ∀ b, b ∉ Finset.univ.image (Pipeline.arrRef spec2) → Vr6 m c b = Vr5 m c b :=
  fun b hb => W6_of_ne m c b fun w e => hb (Finset.mem_image.mpr ⟨w, Finset.mem_univ _, e⟩)

/-- Call 2 leaves every buffer but its outputs: an input window's array ends as entered, and a buffer it has no
    window on is untouched. -/
theorem W6_keep (c : Dev nD) (b : Ref sig .tc) (h0 : b ≠ main_v6) :
    W6 m c (Proc.devRef .tc b) = W5 m c (Proc.devRef .tc b) := by
  by_cases h : ∃ w, Pipeline.arrRef spec2 w = b
  · obtain ⟨w, rfl⟩ := h
    rw [W6_arr]
    match w with
    | ⟨0, _⟩ => exact ((dat2 (Vr5 m) c).arrAt_in 0 rfl _).trans (A_eq2 (Vr5 m) c 0)
    | ⟨1, _⟩ => exact ((dat2 (Vr5 m) c).arrAt_in 1 rfl _).trans (A_eq2 (Vr5 m) c 1)
    | ⟨2, _⟩ => exact ((dat2 (Vr5 m) c).arrAt_in 2 rfl _).trans (A_eq2 (Vr5 m) c 2)
    | ⟨3, _⟩ => exact absurd rfl h0
  · exact W6_of_ne m c b fun w e => h ⟨w, e⟩

/-- At call 3's exit: its arrays at what the pipeline leaves (the inputs as entered, each output's write-backs
    folded in), every other buffer as entered. -/
def W7 (c : Dev nD) : Valuation τ sig (Elt F) :=
  Pipeline.withArrays spec3 c (W6 m c) fun w => (dat3 (Vr6 m) c).arrAt w cfg3.N
theorem W7_arr (c : Dev nD) (w : Fin cfg3.W) :
    W7 m c (Proc.devRef .tc (Pipeline.arrRef spec3 w)) = (dat3 (Vr6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the core's references. -/
abbrev Vr7 : (c : Dev nD) → (b : Ref sig .tc) → Buf (Elt F) ((c : Thread nD τ).loc b) := fun c b => W7 m c b
theorem hF3 (c : Dev nD) (w : Fin cfg3.W) : (dat3 (Vr6 m) c).arrAt w cfg3.N = Vr7 m c (Pipeline.arrRef spec3 w) :=
  (W7_arr m c w).symm
theorem hrest3 (c : Dev nD) : ∀ b, b ∉ Finset.univ.image (Pipeline.arrRef spec3) → Vr7 m c b = Vr6 m c b :=
  fun b hb => W7_of_ne m c b fun w e => hb (Finset.mem_image.mpr ⟨w, Finset.mem_univ _, e⟩)

/-- Call 3 leaves every buffer but its outputs: an input window's array ends as entered, and a buffer it has no
    window on is untouched. -/
theorem W7_keep (c : Dev nD) (b : Ref sig .tc) (h0 : b ≠ main_v7) :
    W7 m c (Proc.devRef .tc b) = W6 m c (Proc.devRef .tc b) := by
  by_cases h : ∃ w, Pipeline.arrRef spec3 w = b
  · obtain ⟨w, rfl⟩ := h
    rw [W7_arr]
    match w with
    | ⟨0, _⟩ => exact ((dat3 (Vr6 m) c).arrAt_in 0 rfl _).trans (A_eq3 (Vr6 m) c 0)
    | ⟨1, _⟩ => exact ((dat3 (Vr6 m) c).arrAt_in 1 rfl _).trans (A_eq3 (Vr6 m) c 1)
    | ⟨2, _⟩ => exact absurd rfl h0
  · exact W7_of_ne m c b fun w e => h ⟨w, e⟩

/-- After the host stretch `hostOps4`. -/
abbrev W8 : Dev nD → Valuation τ sig (Elt F) := fun c => StableHlo.after hostOps4 (W7 m c)
abbrev Vr8 : (c : Dev nD) → (b : Ref sig .tc) → Buf (Elt F) ((c : Thread nD τ).loc b) := fun c b => W8 m c b
/-- The stretch leaves every buffer it does not write. -/
theorem W8_keep (c : Dev nD) (r : Ref sig .tc) (h : r ∉ hostOps4_W) : W8 m c (Proc.devRef .tc r) = W7 m c (Proc.devRef .tc r) :=
  StableHlo.after_of_writes_sub hostOps4 _ hostOps4_writes h

/-- At call 4's exit: its one output array at what the pipeline leaves, every other buffer as entered (its two input
    windows are on one array, which it only reads). -/
def W9 (c : Dev nD) : Valuation τ sig (Elt F) :=
  Pipeline.withArrays (fun _ : Fin 1 => spec4 2) c (W8 m c) fun _ => (dat4 (Vr8 m) c).arrAt 2 cfg4.N
theorem W9_out (c : Dev nD) : W9 m c (Proc.devRef .tc main_v10) = (dat4 (Vr8 m) c).arrAt 2 cfg4.N := by
  unfold W9; exact Pipeline.withArrays_arr (fun _ : Fin 1 => spec4 2) (fun a b _ => Subsingleton.elim a b) c _ _ 0
theorem W9_keep (c : Dev nD) (b : Ref sig .tc) (h : b ≠ main_v10) : W9 m c (Proc.devRef .tc b) = W8 m c (Proc.devRef .tc b) := by
  unfold W9; exact Pipeline.withArrays_of_ne (fun _ : Fin 1 => spec4 2) c _ _ b fun _ e => h e.symm
abbrev Vr9 : (c : Dev nD) → (b : Ref sig .tc) → Buf (Elt F) ((c : Thread nD τ).loc b) := fun c b => W9 m c b

/-- `main_arg0` ends as launched: no host stretch writes it and no call has an output window on it. -/
theorem W9_main_arg0 (c : Dev nD) : W9 m c (Proc.devRef .tc main_arg0) = m ((c : Thread nD τ).loc main_arg0) :=
  (W9_keep m c main_arg0 (by decide)).trans <| (W8_keep m c main_arg0 (by decide)).trans <| (W7_keep m c main_arg0 (by decide)).trans <|
  (W6_keep m c main_arg0 (by decide)).trans <| (W5_keep m c main_arg0 (by decide)).trans <| (W4_keep m c main_arg0 (by decide)).trans <|
  (W3_keep m c main_arg0 (by decide)).trans <| (W2_keep m c main_arg0 (by decide) (by decide) (by decide)).trans <| (W1_keep m c main_arg0 (by decide))

/-- `main_arg1` ends as launched: no host stretch writes it and no call has an output window on it. -/
theorem W9_main_arg1 (c : Dev nD) : W9 m c (Proc.devRef .tc main_arg1) = m ((c : Thread nD τ).loc main_arg1) :=
  (W9_keep m c main_arg1 (by decide)).trans <| (W8_keep m c main_arg1 (by decide)).trans <| (W7_keep m c main_arg1 (by decide)).trans <|
  (W6_keep m c main_arg1 (by decide)).trans <| (W5_keep m c main_arg1 (by decide)).trans <| (W4_keep m c main_arg1 (by decide)).trans <|
  (W3_keep m c main_arg1 (by decide)).trans <| (W2_keep m c main_arg1 (by decide) (by decide) (by decide)).trans <| (W1_keep m c main_arg1 (by decide))

/-- `main_arg2` ends as launched: no host stretch writes it and no call has an output window on it. -/
theorem W9_main_arg2 (c : Dev nD) : W9 m c (Proc.devRef .tc main_arg2) = m ((c : Thread nD τ).loc main_arg2) :=
  (W9_keep m c main_arg2 (by decide)).trans <| (W8_keep m c main_arg2 (by decide)).trans <| (W7_keep m c main_arg2 (by decide)).trans <|
  (W6_keep m c main_arg2 (by decide)).trans <| (W5_keep m c main_arg2 (by decide)).trans <| (W4_keep m c main_arg2 (by decide)).trans <|
  (W3_keep m c main_arg2 (by decide)).trans <| (W2_keep m c main_arg2 (by decide) (by decide) (by decide)).trans <| (W1_keep m c main_arg2 (by decide))

/-- `main_arg3` ends as launched: no host stretch writes it and no call has an output window on it. -/
theorem W9_main_arg3 (c : Dev nD) : W9 m c (Proc.devRef .tc main_arg3) = m ((c : Thread nD τ).loc main_arg3) :=
  (W9_keep m c main_arg3 (by decide)).trans <| (W8_keep m c main_arg3 (by decide)).trans <| (W7_keep m c main_arg3 (by decide)).trans <|
  (W6_keep m c main_arg3 (by decide)).trans <| (W5_keep m c main_arg3 (by decide)).trans <| (W4_keep m c main_arg3 (by decide)).trans <|
  (W3_keep m c main_arg3 (by decide)).trans <| (W2_keep m c main_arg3 (by decide) (by decide) (by decide)).trans <| (W1_keep m c main_arg3 (by decide))

/-- `main_arg4` ends as launched: no host stretch writes it and no call has an output window on it. -/
theorem W9_main_arg4 (c : Dev nD) : W9 m c (Proc.devRef .tc main_arg4) = m ((c : Thread nD τ).loc main_arg4) :=
  (W9_keep m c main_arg4 (by decide)).trans <| (W8_keep m c main_arg4 (by decide)).trans <| (W7_keep m c main_arg4 (by decide)).trans <|
  (W6_keep m c main_arg4 (by decide)).trans <| (W5_keep m c main_arg4 (by decide)).trans <| (W4_keep m c main_arg4 (by decide)).trans <|
  (W3_keep m c main_arg4 (by decide)).trans <| (W2_keep m c main_arg4 (by decide) (by decide) (by decide)).trans <| (W1_keep m c main_arg4 (by decide))

/-- `main_arg5` ends as launched: no host stretch writes it and no call has an output window on it. -/
theorem W9_main_arg5 (c : Dev nD) : W9 m c (Proc.devRef .tc main_arg5) = m ((c : Thread nD τ).loc main_arg5) :=
  (W9_keep m c main_arg5 (by decide)).trans <| (W8_keep m c main_arg5 (by decide)).trans <| (W7_keep m c main_arg5 (by decide)).trans <|
  (W6_keep m c main_arg5 (by decide)).trans <| (W5_keep m c main_arg5 (by decide)).trans <| (W4_keep m c main_arg5 (by decide)).trans <|
  (W3_keep m c main_arg5 (by decide)).trans <| (W2_keep m c main_arg5 (by decide) (by decide) (by decide)).trans <| (W1_keep m c main_arg5 (by decide))

/-- `main_arg6` ends as launched: no host stretch writes it and no call has an output window on it. -/
theorem W9_main_arg6 (c : Dev nD) : W9 m c (Proc.devRef .tc main_arg6) = m ((c : Thread nD τ).loc main_arg6) :=
  (W9_keep m c main_arg6 (by decide)).trans <| (W8_keep m c main_arg6 (by decide)).trans <| (W7_keep m c main_arg6 (by decide)).trans <|
  (W6_keep m c main_arg6 (by decide)).trans <| (W5_keep m c main_arg6 (by decide)).trans <| (W4_keep m c main_arg6 (by decide)).trans <|
  (W3_keep m c main_arg6 (by decide)).trans <| (W2_keep m c main_arg6 (by decide) (by decide) (by decide)).trans <| (W1_keep m c main_arg6 (by decide))

end Cert.KernelIdeal.Hand

end
-- ==== Proof.KI.Data.lean ====
/-
  What the five calls share when the program is run as a list of segments: every call's proof data at once, each
  at the buffer contents its call is entered with (the boundaries of the fold); the empty assignment of levels (no
  core owes another anything); the state that rides beside the buffers through every segment (the core's generator
  register at some state, and that it owes nothing); a stretch of host operations as a segment over all unscoped
  buffers; and the state the last segment leaves.
-/
import proofs.«109506_g1580547973939_cont_week2b_922_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every call's proof data, each at its call's entry contents: a literal match on the call's number, so that the
    launch theorem's configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr3 m) c
  | ⟨2, _⟩ => fun c => dat2 (Vr5 m) c
  | ⟨3, _⟩ => fun c => dat3 (Vr6 m) c
  | ⟨4, _⟩ => fun c => dat4 (Vr8 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state and its debts,
    none. -/
abbrev R (c : Dev nD) : sProp 𝕄 := iprop((∃ r, prngReg c r) ∗ ∃ W, owes (c : Thread nD τ) (0 : CellTallies nD τ sig Unit) W)

/-- A stretch of host operations as a segment over every unscoped buffer from the contents `W`, `R` riding along;
    it leaves the buffers at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at the last boundary's contents, the generator
    register at some state. -/
abbrev Tₙ (c : Dev nD) : sProp 𝕄 := iprop(StableHlo.held (c : Thread nD τ) (Pipeline.ucRefs τ sig) (W9 m c) ∗ ∃ r, prngReg c r)

end Cert.KernelIdeal.Hand

end
-- ==== Proof.KI.Reg0.lean ====
/-
  Call 0 of the kernel's program as a segment of the run. It is entered with every unscoped buffer of the core at
  boundary 1's contents and left with them at boundary 2's: at entry its windows' arrays are taken out of the
  buffers (each whole, at the full share) and the rest bypasses the call; at exit the arrays come back at what the
  pipeline leaves and rejoin the rest. The generator register goes into the region invariant and comes back; the
  core owes nothing throughout; the kernel has no semaphore of its own.
-/
import proofs.«109506_g1580547973939_cont_week2b_922_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- applying a library lemma stated over the pinned configuration needs unification to unfold plain definitions in a
-- metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  Call 1 of the kernel's program as a segment of the run. It is entered with every unscoped buffer of the core at
  boundary 3's contents and left with them at boundary 4's: at entry its windows' arrays are taken out of the
  buffers (each whole, at the full share) and the rest bypasses the call; at exit the arrays come back at what the
  pipeline leaves and rejoin the rest. The generator register goes into the region invariant and comes back; the
  core owes nothing throughout; the kernel has no semaphore of its own.
-/
import proofs.«109506_g1580547973939_cont_week2b_922_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- applying a library lemma stated over the pinned configuration needs unification to unfold plain definitions in a
-- metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr3 m c) (Vr4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  Call 2 of the kernel's program as a segment of the run. It is entered with every unscoped buffer of the core at
  boundary 5's contents and left with them at boundary 6's: at entry its windows' arrays are taken out of the
  buffers (each whole, at the full share) and the rest bypasses the call; at exit the arrays come back at what the
  pipeline leaves and rejoin the rest. The generator register goes into the region invariant and comes back; the
  core owes nothing throughout; the kernel has no semaphore of its own.
-/
import proofs.«109506_g1580547973939_cont_week2b_922_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- applying a library lemma stated over the pinned configuration needs unification to unfold plain definitions in a
-- metavariable's type
set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (Vr5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr5 m c) (Vr6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/-
  Call 3 of the kernel's program as a segment of the run. It is entered with every unscoped buffer of the core at
  boundary 6's contents and left with them at boundary 7's: at entry its windows' arrays are taken out of the
  buffers (each whole, at the full share) and the rest bypasses the call; at exit the arrays come back at what the
  pipeline leaves and rejoin the rest. The generator register goes into the region invariant and comes back; the
  core owes nothing throughout; the kernel has no semaphore of its own.
-/
import proofs.«109506_g1580547973939_cont_week2b_922_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- applying a library lemma stated over the pinned configuration needs unification to unfold plain definitions in a
-- metavariable's type
set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (Vr6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vr6 m c) (Vr7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
/-
  Call 4 of the kernel's program as a segment of the run, entered with every unscoped buffer of the core at boundary
  8's contents and left at boundary 9's. Its two input windows are on ONE array: at entry that array's full share is
  split into its left and right halves, one for each window; the call only reads it, so at exit both halves hold the
  entry contents and are joined back into the full share. Its output array is taken out whole at entry and comes
  back at what the pipeline leaves. The generator register goes into the region invariant and comes back; the core
  owes nothing throughout; the kernel has no semaphore of its own.
-/
import proofs.«109506_g1580547973939_cont_week2b_922_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers behind call 4's arrays are two: the common input array and the output array. -/
theorem arrImage4 : Finset.image (Pipeline.arrRef spec4) Finset.univ = insert main_v8 {main_v10} := by decide

/-- Call 4's windowed arrays, each array a whole buffer: one points-to per window at the window's share. -/
theorem arrays_eq4 (c : Dev nD) (Fc : (w : Fin (Pipeline.pin (pcfgs (F := F)) adm 4).W) → Buf (Elt F) (((Pipeline.pin (pcfgs (F := F)) adm 4).win w).arr.view.loc (c : Thread nD τ))) :
    (pdats m 4 c).arrays Fc
      = bigSep Finset.univ fun w => (((c : Thread nD τ).loc (Pipeline.arrRef spec4 w)) ↦{(pdats m 4 c).share w} Fc w : sProp 𝕄) := by
  unfold Pipeline.Dat.arrays
  refine bigSep_congr fun w _ => ?_
  have e : ((Pipeline.pin (pcfgs (F := F)) adm 4).win w).arr.view.set = Finset.univ := (arr_whole4 w).set_eq_univ
  rw [e]
  rfl

/-- ENTRY, the arrays' part: the input array's full share split between the two windows on it, the output whole. -/
theorem arrays_of_arrBufs4 (c : Dev nD) :
    (Pipeline.arrBufs (Ix := Unit) (Name := ℕ) (U := UR sig nD τ) (Lvl := ℕ) spec4 c (Vr8 m c) : sProp 𝕄)
      ⊢ (pdats m 4 c).arrays ((pdats m 4 c).arrAt · 0) := by
  rw [arrays_eq4 m c]
  unfold Pipeline.arrBufs
  rw [bigSep_W4, arrImage4, bigSep_insert (by decide), bigSep_singleton]
  rw [show (pdats m 4 c).share 0 = fullShare.left from rfl, show (pdats m 4 c).share 1 = fullShare.right from rfl,
    show (pdats m 4 c).share 2 = fullShare from rfl]
  show iprop((((c : Thread nD τ).loc main_v8) ↦{fullShare} Vr8 m c main_v8) ∗ (((c : Thread nD τ).loc main_v10) ↦{fullShare} Vr8 m c main_v10)) ⊢ _
  iintro ⟨H8, H10⟩
  ihave H := (pointsTo_share (PosShare.mem_left_op_right fullShare)).1 $$ H8
  icases H with ⟨Hl, Hr⟩
  isplitl [Hl]; · iexact Hl
  isplitl [Hr]; · iexact Hr
  iexact H10

/-- EXIT, the arrays' part: the two halves of the input array, each at the entry contents, joined into the full
    share; the output array at what the pipeline leaves. -/
theorem arrBufs_of_arrays4 (c : Dev nD) :
    (pdats m 4 c).arrays ((pdats m 4 c).arrAt · cfg4.N)
      ⊢ (Pipeline.arrBufs (Ix := Unit) (Name := ℕ) (U := UR sig nD τ) (Lvl := ℕ) spec4 c (Vr9 m c) : sProp 𝕄) := by
  rw [arrays_eq4 m c]
  unfold Pipeline.arrBufs
  rw [bigSep_W4, arrImage4, bigSep_insert (by decide), bigSep_singleton]
  rw [show (pdats m 4 c).share 0 = fullShare.left from rfl, show (pdats m 4 c).share 1 = fullShare.right from rfl,
    show (pdats m 4 c).share 2 = fullShare from rfl]
  have h0 : (pdats m 4 c).arrAt 0 cfg4.N = Vr9 m c main_v8 :=
    (((dat4 (Vr8 m) c).arrAt_in 0 rfl _).trans (A_eq4 (Vr8 m) c 0)).trans (W9_keep m c main_v8 (by decide)).symm
  have h1 : (pdats m 4 c).arrAt 1 cfg4.N = Vr9 m c main_v8 :=
    (((dat4 (Vr8 m) c).arrAt_in 1 rfl _).trans (A_eq4 (Vr8 m) c 1)).trans (W9_keep m c main_v8 (by decide)).symm
  have h2 : (pdats m 4 c).arrAt 2 cfg4.N = Vr9 m c main_v10 := (W9_out m c).symm
  dsimp only
  rw [h0, h1, h2]
  show _ ⊢ iprop((((c : Thread nD τ).loc main_v8) ↦{fullShare} Vr9 m c main_v8) ∗ (((c : Thread nD τ).loc main_v10) ↦{fullShare} Vr9 m c main_v10))
  iintro ⟨Hl, Hr, H10⟩
  isplitl [Hl Hr]
  · iapply (pointsTo_share (PosShare.mem_left_op_right fullShare)).2
    isplitl [Hl]; · iexact Hl
    iexact Hr
  iexact H10

/-- The unscoped buffers of the core are the buffers behind call 4's arrays and the rest. -/
theorem held_split4 (c : Dev nD) (W : Valuation τ sig (Elt F)) :
    (StableHlo.held (c : Thread nD τ) (Pipeline.ucRefs τ sig) W : sProp 𝕄)
      = iprop(Pipeline.arrBufs spec4 c (fun b => W b) ∗ Pipeline.unscopedRest spec4 c (fun b => W b)) := by
  rw [← Pipeline.unscopedBufs_held c W]
  exact Pipeline.unscopedBufs_split₀ (Pipeline.pin (pcfgs (F := F)) adm) 4 winFacts₀4.arr_unscoped c (fun b => W b)

/-- Off call 4's arrays the last boundary is boundary 8. -/
theorem rest4 (c : Dev nD) :
    (Pipeline.unscopedRest (Ix := Unit) (Name := ℕ) (U := UR sig nD τ) (Lvl := ℕ) spec4 c (Vr8 m c) : sProp 𝕄)
      = Pipeline.unscopedRest spec4 c (Vr9 m c) := by
  unfold Pipeline.unscopedRest
  refine bigSep_congr fun b hb => ?_
  have hb' : b ∉ Finset.image (Pipeline.arrRef spec4) Finset.univ := (Finset.mem_sdiff.mp hb).2
  rw [arrImage4] at hb'
  have hne : b ≠ main_v10 := fun e => hb' (by rw [e]; decide)
  rw [show Vr9 m c b = Vr8 m c b from W9_keep m c b hne]

set_option backward.isDefEq.respectTransparency.types false in
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (Vr8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Vr8 m c)
  hentry c := by
    rw [Pipeline.ownSems0_none, held_split4 c (W8 m c)]
    iintro ⟨⟨⟨Hab, Hrest⟩, Hp, HO⟩, -, -⟩
    ihave Ha := (arrays_of_arrBufs4 m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    unfold Tₙ
    rw [held_split4 c (W9 m c), rest4 m c]
    iintro ⟨Ha, HO, HY, Hrest⟩
    ihave Hab := (arrBufs_of_arrays4 m c) $$ Ha
    imodintro
    isplitl [Hab Hrest HY]
    · isplitl [Hab Hrest]
      · isplitl [Hab]; · iexact Hab
        iexact Hrest
      iexact HY
    unfold Pipeline.Dat.owesAt Pipeline.owesWithin
    icases HO with ⟨%W, -, HO⟩; iexists W; iexact HO

end Cert.KernelIdeal.Hand

end
-- ==== Proof.KI.Run.lean ====
/-
  The kernel's program run from launch to return. Its @main is nine items in order — a stretch of host operations,
  call 0, a stretch, call 1, a stretch, call 2, call 3, a stretch, call 4 — each entered with the core's unscoped
  buffers at one boundary of the fold and left with them at the next. Every weakly fair execution terminates without
  a fault, and at the end each unscoped buffer of each core holds what the last boundary `W9` says. In particular
  every argument array ends as launched (the frame).
-/
import proofs.«109506_g1580547973939_cont_week2b_922_2_alg».proof.Proof.KI.Reg0
import proofs.«109506_g1580547973939_cont_week2b_922_2_alg».proof.Proof.KI.Reg1
import proofs.«109506_g1580547973939_cont_week2b_922_2_alg».proof.Proof.KI.Reg2
import proofs.«109506_g1580547973939_cont_week2b_922_2_alg».proof.Proof.KI.Reg3
import proofs.«109506_g1580547973939_cont_week2b_922_2_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- @main's nine segments in order: a host segment per stretch from its boundary's contents, a region per call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m),
    .host (hseg hostOps4 hostOps4_sub hostOps4_fresh (W7 m)),
    .region (reg4 m) ]

/-- @main is the run of the segments. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- From any memory with zero counters, every weakly fair execution of @main terminates, nothing faulting, and every
    final memory holds, at each unscoped buffer of each core, the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c)⟩) (run_all m ρ)

end Cert.KernelIdeal.Hand

end
-- ==== Proof.Ref.Run.lean ====
import proofs.«109506_g1580547973939_cont_week2b_922_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 79 operations in order, each callee's operations listed at its call over that call's buffers:
    the attention logits (ten), the leaky rectifier's seven, the mask's five and its select, the row softmax's
    fourteen, the attention product, the exponential linear unit's fifteen twice, the two products of the first
    layer, the rectifier's three, the two heads' four products, the transpose and the reconstruction product. -/
abbrev ops : List (HloOp τ sig (Elt F)) :=
  [ binary main_arg0 main_arg2 main_v0 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_arg3 main_v1 ((extractStridedSlice S128x1 ![0, 0] · slices_S256x1_S128x1_0_0) : (⟨S256x1, .f32⟩ : BufTy).Contents (Elt F) → (⟨S128x1, .f32⟩ : BufTy).Contents (Elt F)),
    binary main_v0 main_v1 main_v2 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_arg3 main_v3 ((extractStridedSlice S128x1 ![128, 0] · slices_S256x1_S128x1_128_0) : (⟨S256x1, .f32⟩ : BufTy).Contents (Elt F) → (⟨S128x1, .f32⟩ : BufTy).Contents (Elt F)),
    binary main_v0 main_v3 main_v4 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_v4 main_v5 ((transpose S1x8192 [1, 0] · transposes_S8192x1_S1x8192_1_0) : (⟨S8192x1, .f32⟩ : BufTy).Contents (Elt F) → (⟨S1x8192, .f32⟩ : BufTy).Contents (Elt F)),
    unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v8) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v8) main_call0.v4 mulf,
    TRef.ternary main_call0.v1 (.of main_v8) main_call0.v4 main_call0.call0.v0 select,
    nullary main_cst_0 (constant S_ .f32 0xD9FFCB9E#32),
    unary main_cst_0 main_v10 (broadcastInDim S8192x8192 ![] bcast_S_S8192x8192 : (⟨S_, .f32⟩ : BufTy).Contents (Elt F) → (⟨S8192x8192, .f32⟩ : BufTy).Contents (Elt F)),
    nullary main_cst_1 (constant S_ .f32 0x00000000#32),
    unary main_cst_1 main_v11 (broadcastInDim S8192x8192 ![] bcast_S_S8192x8192 : (⟨S_, .f32⟩ : BufTy).Contents (Elt F) → (⟨S8192x8192, .f32⟩ : BufTy).Contents (Elt F)),
    binary main_arg1 main_v11 main_v12 (cmpf .ogt : (⟨S8192x8192, .f32⟩ : BufTy).Contents (Elt F) → (⟨S8192x8192, .f32⟩ : BufTy).Contents (Elt F) → (⟨S8192x8192, .i1⟩ : BufTy).Contents (Elt F)),
    TRef.ternary (.of main_v12) (.of main_v9) (.of main_v10) main_call1.v0 select,
    nullary main_cst_2 (constant S_ .f32 0xFF800000#32),
    binary main_v13 main_cst_2 main_v14 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0xFF800000#32),
    unary main_cst_3 main_v15 (broadcastInDim S8192 ![] bcast_S_S8192 : (⟨S_, .f32⟩ : BufTy).Contents (Elt F) → (⟨S8192, .f32⟩ : BufTy).Contents (Elt F)),
    binary main_v15 main_v14 main_v16 (maximumf : (⟨S8192, .f32⟩ : BufTy).Contents (Elt F) → (⟨S8192, .f32⟩ : BufTy).Contents (Elt F) → (⟨S8192, .f32⟩ : BufTy).Contents (Elt F)),
    unary main_v16 main_v17 (broadcastInDim S8192x1 ![0] bcast_S8192_S8192x1_0 : (⟨S8192, .f32⟩ : BufTy).Contents (Elt F) → (⟨S8192x1, .f32⟩ : BufTy).Contents (Elt F)),
    unary main_v17 main_v18 (broadcastInDim S8192x8192 ![0, 1] bcast_S8192x1_S8192x8192_0_1 : (⟨S8192x1, .f32⟩ : BufTy).Contents (Elt F) → (⟨S8192x8192, .f32⟩ : BufTy).Contents (Elt F)),
    binary main_v13 main_v18 main_v19 (subf : (⟨S8192x8192, .f32⟩ : BufTy).Contents (Elt F) → (⟨S8192x8192, .f32⟩ : BufTy).Contents (Elt F) → (⟨S8192x8192, .f32⟩ : BufTy).Contents (Elt F)),
    unary main_v19 main_v20 (Host.exp : (⟨S8192x8192, .f32⟩ : BufTy).Contents (Elt F) → (⟨S8192x8192, .f32⟩ : BufTy).Contents (Elt F)),
    nullary main_cst_4 (constant S_ .f32 0x00000000#32),
    binary main_v20 main_cst_4 main_v21 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v21 main_v22 (broadcastInDim S8192x1 ![0] bcast_S8192_S8192x1_0 : (⟨S8192, .f32⟩ : BufTy).Contents (Elt F) → (⟨S8192x1, .f32⟩ : BufTy).Contents (Elt F)),
    unary main_v22 main_v23 (broadcastInDim S8192x8192 ![0, 1] bcast_S8192x1_S8192x8192_0_1 : (⟨S8192x1, .f32⟩ : BufTy).Contents (Elt F) → (⟨S8192x8192, .f32⟩ : BufTy).Contents (Elt F)),
    binary main_v20 main_v23 main_v24 (Host.divf : (⟨S8192x8192, .f32⟩ : BufTy).Contents (Elt F) → (⟨S8192x8192, .f32⟩ : BufTy).Contents (Elt F) → (⟨S8192x8192, .f32⟩ : BufTy).Contents (Elt F)),
    binary main_v24 main_v0 main_v25 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    TRef.nullary main_call2.cst (constant S_ .f32 0x00000000#32),
    TRef.unary main_call2.cst main_call2.v0 (broadcastInDim S8192x128 ![] bcast_S_S8192x128),
    TRef.binary (.of main_v25) main_call2.v0 main_call2.v1 (cmpf .ogt),
    TRef.nullary main_call2.cst_0 (constant S_ .f32 0x00000000#32),
    TRef.unary main_call2.cst_0 main_call2.v2 (broadcastInDim S8192x128 ![] bcast_S_S8192x128),
    TRef.binary (.of main_v25) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x128 ![] bcast_S_S8192x128),
    TRef.ternary main_call2.v3 main_call2.call0.v1 (.of main_v25) main_call2.call0.v2 select,
    TRef.unary main_call2.call0.v2 main_call2.v5 Host.expm1,
    TRef.nullary main_call2.cst_2 (constant S_ .f32 0x3F800000#32),
    TRef.unary main_call2.cst_2 main_call2.v6 (broadcastInDim S8192x128 ![] bcast_S_S8192x128),
    TRef.binary main_call2.v6 main_call2.v5 main_call2.v7 mulf,
    TRef.ternary main_call2.v1 (.of main_v25) main_call2.v7 main_call2.call1.v0 select,
    TRef.nullary main_call3.cst (constant S_ .f32 0x00000000#32),
    TRef.unary main_call3.cst main_call3.v0 (broadcastInDim S8192x128 ![] bcast_S_S8192x128),
    TRef.binary (.of main_v26) main_call3.v0 main_call3.v1 (cmpf .ogt),
    TRef.nullary main_call3.cst_0 (constant S_ .f32 0x00000000#32),
    TRef.unary main_call3.cst_0 main_call3.v2 (broadcastInDim S8192x128 ![] bcast_S_S8192x128),
    TRef.binary (.of main_v26) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S8192x128 ![] bcast_S_S8192x128),
    TRef.ternary main_call3.v3 main_call3.call0.v1 (.of main_v26) main_call3.call0.v2 select,
    TRef.unary main_call3.call0.v2 main_call3.v5 Host.expm1,
    TRef.nullary main_call3.cst_2 (constant S_ .f32 0x3F800000#32),
    TRef.unary main_call3.cst_2 main_call3.v6 (broadcastInDim S8192x128 ![] bcast_S_S8192x128),
    TRef.binary main_call3.v6 main_call3.v5 main_call3.v7 mulf,
    TRef.ternary main_call3.v1 (.of main_v26) main_call3.v7 main_call3.call1.v0 select,
    binary main_v27 main_arg4 main_v28 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    binary main_arg1 main_v28 main_v29 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    TRef.nullary main_call4.cst (constant S_ .f32 0x00000000#32),
    TRef.unary main_call4.cst main_call4.v0 (broadcastInDim S8192x64 ![] bcast_S_S8192x64),
    TRef.binary (.of main_v29) main_call4.v0 main_call4.v1 maximumf,
    binary main_v30 main_arg5 main_v31 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    binary main_arg1 main_v31 main_v32 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    binary main_v30 main_arg6 main_v33 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    binary main_arg1 main_v33 main_v34 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_v32 main_v35 ((transpose S64x8192 [1, 0] · transposes_S8192x64_S64x8192_1_0) : (⟨S8192x64, .f32⟩ : BufTy).Contents (Elt F) → (⟨S64x8192, .f32⟩ : BufTy).Contents (Elt F)),
    binary main_v32 main_v35 main_v36 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)) ]

set_option maxRecDepth 4096 in
set_option maxHeartbeats 1600000 in
/-- @main is that straight line: each callee's definition unfolded at its call, sequencing reassociated. -/
theorem main_eq (c : Dev nD) : main (F := F) c = seq ops := by
  simp only [main, fn_leaky_relu.body, fn_where.body, fn_where_0.body, fn_where_1.body, fn_elu.body, fn_relu.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., nullary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., binary_bufs_sub .., nullary_bufs_sub .., unary_bufs_sub .., binary_bufs_sub .., binary_bufs_sub .., binary_bufs_sub .., binary_bufs_sub .., binary_bufs_sub .., unary_bufs_sub .., binary_bufs_sub ..⟩

/-! ## The stages

Each a function of the arrays it reads, holding the operations of one stretch of @main with the program's own
shape records and facts. -/

/-- The node features through the attention weight: the product `x · wa`. -/
def rWh (x : FVec F S8192x256 .f32) (wa : FVec F S256x128 .f32) : FVec F S8192x128 .f32 :=
  Host.dotGeneral dot_S8192x256_S256x128_S8192x128_1_0_0_1_n_n none x wa

/-- The upper half of the attention vector: rows 0 to 127 of `a`. -/
def rA1 (a : FVec F S256x1 .f32) : FVec F S128x1 .f32 :=
  extractStridedSlice S128x1 ![0, 0] a slices_S256x1_S128x1_0_0

/-- The lower half of the attention vector: rows 128 to 255 of `a`. -/
def rA2 (a : FVec F S256x1 .f32) : FVec F S128x1 .f32 :=
  extractStridedSlice S128x1 ![128, 0] a slices_S256x1_S128x1_128_0

/-- One score per node: the product `wh · av`, a column. -/
def rS (wh : FVec F S8192x128 .f32) (av : FVec F S128x1 .f32) : FVec F S8192x1 .f32 :=
  Host.dotGeneral dot_S8192x128_S128x1_S8192x1_1_0_0_1_n_n none wh av

/-- The pairwise logits before the rectifier: entry (i, j) is `s1 i + s2 j` — the column `s1` spread along rows,
    the column `s2` transposed to a row and spread along columns, added. -/
def rSum (s1 s2 : FVec F S8192x1 .f32) : FVec F S8192x8192 .f32 :=
  addf (broadcastInDim S8192x8192 ![0, 1] bcast_S8192x1_S8192x8192_0_1 s1)
    (broadcastInDim S8192x8192 ![0, 1] bcast_S1x8192_S8192x8192_0_1
      (transpose S1x8192 [1, 0] s2 transposes_S8192x1_S1x8192_1_0))

/-- The leaky rectifier of slope 0.2 (the bits 0x3E4CCCCD), in its select form: where `e ≥ 0` the entry, elsewhere
    the slope times the entry. -/
def rLeaky (e : FVec F S8192x8192 .f32) : FVec F S8192x8192 .f32 :=
  select (cmpf .oge e (broadcastInDim S8192x8192 ![] bcast_S_S8192x8192 (constant (F := F) S_ .f32 0x00000000#32)))
    e
    (mulf (broadcastInDim S8192x8192 ![] bcast_S_S8192x8192 (constant (F := F) S_ .f32 0x3E4CCCCD#32)) e)

/-- The attention logits: the leaky rectifier of the pairwise sums. -/
def rE (s1 s2 : FVec F S8192x1 .f32) : FVec F S8192x8192 .f32 :=
  rLeaky (rSum s1 s2)

/-- The logits kept where the adjacency is positive, elsewhere the constant -9e15 (the bits 0xD9FFCB9E). -/
def rMask (adj e : FVec F S8192x8192 .f32) : FVec F S8192x8192 .f32 :=
  select (cmpf .ogt adj (broadcastInDim S8192x8192 ![] bcast_S_S8192x8192 (constant (F := F) S_ .f32 0x00000000#32)))
    e
    (broadcastInDim S8192x8192 ![] bcast_S_S8192x8192 (constant (F := F) S_ .f32 0xD9FFCB9E#32))

/-- Each row less its maximum: the row maximum is the reduction along columns from minus infinity (the bits
    0xFF800000), taken once more against a vector of minus infinity, then spread back over the row. -/
def rShift (z : FVec F S8192x8192 .f32) : FVec F S8192x8192 .f32 :=
  subf z
    (broadcastInDim S8192x8192 ![0, 1] bcast_S8192x1_S8192x8192_0_1
      (broadcastInDim S8192x1 ![0] bcast_S8192_S8192x1_0
        (maximumf (broadcastInDim S8192 ![] bcast_S_S8192 (constant (F := F) S_ .f32 0xFF800000#32))
          (Host.reduce FloatOps.maximumf z (constant (F := F) S_ .f32 0xFF800000#32)
            reducesTo_S8192x8192_S8192_d1 h_S_))))

/-- Each row divided by its sum: the row sum is the reduction along columns from zero, spread back over the row. -/
def rNorm (p : FVec F S8192x8192 .f32) : FVec F S8192x8192 .f32 :=
  Host.divf p
    (broadcastInDim S8192x8192 ![0, 1] bcast_S8192x1_S8192x8192_0_1
      (broadcastInDim S8192x1 ![0] bcast_S8192_S8192x1_0
        (Host.reduceAdd p (constant (F := F) S_ .f32 0x00000000#32) reducesTo_S8192x8192_S8192_d1 h_S_)))

/-- The row softmax: the exponential of each row less its maximum, divided by its row sum. -/
def rSoft (z : FVec F S8192x8192 .f32) : FVec F S8192x8192 .f32 :=
  rNorm (Host.exp (rShift z))

/-- The attention weights applied to the transformed features: the product `att · wh`. -/
def rAwh (att : FVec F S8192x8192 .f32) (wh : FVec F S8192x128 .f32) : FVec F S8192x128 .f32 :=
  Host.dotGeneral dot_S8192x8192_S8192x128_S8192x128_1_0_0_1_n_n none att wh

/-- The exponential linear unit in its select form: where `v > 0` the entry, elsewhere one (the bits 0x3F800000)
    times `exp − 1` of the entry with the positive entries first replaced by zero. -/
def rElu (v : FVec F S8192x128 .f32) : FVec F S8192x128 .f32 :=
  select (cmpf .ogt v (broadcastInDim S8192x128 ![] bcast_S_S8192x128 (constant (F := F) S_ .f32 0x00000000#32)))
    v
    (mulf (broadcastInDim S8192x128 ![] bcast_S_S8192x128 (constant (F := F) S_ .f32 0x3F800000#32))
      (Host.expm1
        (select (cmpf .ogt v (broadcastInDim S8192x128 ![] bcast_S_S8192x128 (constant (F := F) S_ .f32 0x00000000#32)))
          (broadcastInDim S8192x128 ![] bcast_S_S8192x128 (constant (F := F) S_ .f32 0x00000000#32))
          v)))

/-- The first layer's support: the product `g · w1`. -/
def rSup (g : FVec F S8192x128 .f32) (w1 : FVec F S128x64 .f32) : FVec F S8192x64 .f32 :=
  Host.dotGeneral dot_S8192x128_S128x64_S8192x64_1_0_0_1_n_n none g w1

/-- Aggregation over neighbours: the product `adj · s`. -/
def rAgg (adj : FVec F S8192x8192 .f32) (s : FVec F S8192x64 .f32) : FVec F S8192x64 .f32 :=
  Host.dotGeneral dot_S8192x8192_S8192x64_S8192x64_1_0_0_1_n_n none adj s

/-- The rectifier: the maximum of the entry and zero. -/
def rRelu (v : FVec F S8192x64 .f32) : FVec F S8192x64 .f32 :=
  maximumf v (broadcastInDim S8192x64 ![] bcast_S_S8192x64 (constant (F := F) S_ .f32 0x00000000#32))

/-- A head's linear map: the product `h · w`. -/
def rLin (h : FVec F S8192x64 .f32) (w : FVec F S64x64 .f32) : FVec F S8192x64 .f32 :=
  Host.dotGeneral dot_S8192x64_S64x64_S8192x64_1_0_0_1_n_n none h w

/-- The reconstruction: the product of `mu` with its own transpose. -/
def rRecon (mu : FVec F S8192x64 .f32) : FVec F S8192x8192 .f32 :=
  Host.dotGeneral dot_S8192x64_S64x8192_S8192x8192_1_0_0_1_n_n none mu
    (transpose S64x8192 [1, 0] mu transposes_S8192x64_S64x8192_1_0)

/-- The hidden layer: attention over the transformed features, the exponential linear unit twice, the first
    layer's support aggregated over neighbours, rectified. -/
def rHid (x : FVec F S8192x256 .f32) (adj : FVec F S8192x8192 .f32) (wa : FVec F S256x128 .f32)
    (a : FVec F S256x1 .f32) (w1 : FVec F S128x64 .f32) : FVec F S8192x64 .f32 :=
  rRelu (rAgg adj (rSup (rElu (rElu (rAwh (rSoft (rMask adj (rE (rS (rWh x wa) (rA1 a)) (rS (rWh x wa) (rA2 a)))))
    (rWh x wa)))) w1))

/-- The mean head: the hidden layer through `w2`, aggregated over neighbours. -/
def rMu (x : FVec F S8192x256 .f32) (adj : FVec F S8192x8192 .f32) (wa : FVec F S256x128 .f32)
    (a : FVec F S256x1 .f32) (w1 : FVec F S128x64 .f32) (w2 : FVec F S64x64 .f32) : FVec F S8192x64 .f32 :=
  rAgg adj (rLin (rHid x adj wa a w1) w2)

/-- The log-variance head: the hidden layer through `w3`, aggregated over neighbours. -/
def rLv (x : FVec F S8192x256 .f32) (adj : FVec F S8192x8192 .f32) (wa : FVec F S256x128 .f32)
    (a : FVec F S256x1 .f32) (w1 : FVec F S128x64 .f32) (w3 : FVec F S64x64 .f32) : FVec F S8192x64 .f32 :=
  rAgg adj (rLin (rHid x adj wa a w1) w3)

/-! ## The line's results

The contents of each result buffer after the 79 operations, from any contents `V`: the stages composed over `V`
at the seven arguments; and each argument's buffer is written by no operation. -/

set_option maxRecDepth 8192 in
set_option maxHeartbeats 4000000 in
/-- The mean head's buffer holds `rMu` of the arguments. -/
theorem after_v32 (V : Valuation τ sig (Elt F)) :
    after ops V (main_v32 : DevRef τ sig) = rMu (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp <;> (try simp only [TRef.ofBuf, TRef.toBuf, cast_eq]) <;> rfl

set_option maxRecDepth 8192 in
set_option maxHeartbeats 4000000 in
/-- The log-variance head's buffer holds `rLv` of the arguments. -/
theorem after_v34 (V : Valuation τ sig (Elt F)) :
    after ops V (main_v34 : DevRef τ sig) = rLv (V (main_arg0 : DevRef τ sig)) (V (main_arg1 : DevRef τ sig)) (V (main_arg2 : DevRef τ sig)) (V (main_arg3 : DevRef τ sig)) (V (main_arg4 : DevRef τ sig)) (V (main_arg6 : DevRef τ sig)) := by
  after_results_simp <;> (try simp only [TRef.ofBuf, TRef.toBuf, cast_eq]) <;> rfl

set_option maxRecDepth 8192 in
set_option maxHeartbeats 4000000 in
/-- The reconstruction's buffer holds `rRecon` of the mean head. -/
theorem after_v36 (V : Valuation τ sig (Elt F)) :
    after ops V (main_v36 : DevRef τ sig) = rRecon (rMu (V (main_arg0 : DevRef τ sig)) (V (main_arg1 : DevRef τ sig)) (V (main_arg2 : DevRef τ sig)) (V (main_arg3 : DevRef τ sig)) (V (main_arg4 : DevRef τ sig)) (V (main_arg5 : DevRef τ sig))) := by
  after_results_simp <;> (try simp only [TRef.ofBuf, TRef.toBuf, cast_eq]) <;> rfl

set_option maxRecDepth 8192 in
set_option maxHeartbeats 4000000 in
theorem after_arg0 (V : Valuation τ sig (Elt F)) :
    after ops V (main_arg0 : DevRef τ sig) = V (main_arg0 : DevRef τ sig) := by
  after_results_simp

set_option maxRecDepth 8192 in
set_option maxHeartbeats 4000000 in
theorem after_arg1 (V : Valuation τ sig (Elt F)) :
    after ops V (main_arg1 : DevRef τ sig) = V (main_arg1 : DevRef τ sig) := by
  after_results_simp

set_option maxRecDepth 8192 in
set_option maxHeartbeats 4000000 in
theorem after_arg2 (V : Valuation τ sig (Elt F)) :
    after ops V (main_arg2 : DevRef τ sig) = V (main_arg2 : DevRef τ sig) := by
  after_results_simp

set_option maxRecDepth 8192 in
set_option maxHeartbeats 4000000 in
theorem after_arg3 (V : Valuation τ sig (Elt F)) :
    after ops V (main_arg3 : DevRef τ sig) = V (main_arg3 : DevRef τ sig) := by
  after_results_simp

set_option maxRecDepth 8192 in
set_option maxHeartbeats 4000000 in
theorem after_arg4 (V : Valuation τ sig (Elt F)) :
    after ops V (main_arg4 : DevRef τ sig) = V (main_arg4 : DevRef τ sig) := by
  after_results_simp

set_option maxRecDepth 8192 in
set_option maxHeartbeats 4000000 in
theorem after_arg5 (V : Valuation τ sig (Elt F)) :
    after ops V (main_arg5 : DevRef τ sig) = V (main_arg5 : DevRef τ sig) := by
  after_results_simp

set_option maxRecDepth 8192 in
set_option maxHeartbeats 4000000 in
theorem after_arg6 (V : Valuation τ sig (Elt F)) :
    after ops V (main_arg6 : DevRef τ sig) = V (main_arg6 : DevRef τ sig) := by
  after_results_simp

/-- On every device, for any float values, from any memory with zero counters: every weakly fair execution of
    @main terminates with the reconstruction, the mean head and the log-variance head at the stages composed over
    the arguments' launch contents, and the seven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = rRecon (rMu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v32) = rMu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v34) = rLv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v36).trans (after_v36 _), (h c main_v32).trans (after_v32 _),
      (h c main_v34).trans (after_v34 _),
      (h c main_arg0).trans (after_arg0 _), (h c main_arg1).trans (after_arg1 _), (h c main_arg2).trans (after_arg2 _), (h c main_arg3).trans (after_arg3 _), (h c main_arg4).trans (after_arg4 _), (h c main_arg5).trans (after_arg5 _),
      (h c main_arg6).trans (after_arg6 _)⟩)
    (run_seq scopedRefs_eq scopedSems_eq defs main (fun _ => ops) main_eq (fun _ => ops_sub) m ρ)

end Cert.ReferenceIdeal.Hand

end
-- ==== Proof.LibIdealFinite.lean ====
/-
  Finiteness of host computations over the extended reals.

  At the ideal reading of floats every value is an extended real, an element of [-∞, +∞]. This module
  is about arrays whose every entry is an honest REAL number (neither infinity), and about the two
  sharper properties "every entry is a real number ≥ 0" and "every entry is a real number > 0". It
  proves that the elementary array operations preserve these properties:

  • sums, differences, products and negations of real entries are real; the exponential of a real is a
    positive real; a lane-by-lane choice between two arrays of reals is an array of reals;
  • an operation that only RE-INDEXES its operand (a broadcast along new axes, a permutation of the
    axes, a gather of slices at integer positions) has each output entry equal to some input entry, so
    it preserves all three properties;
  • a contraction (a matrix product: a finite sum of products) and a sum along axes added to an initial
    value are finite sums of reals, hence real — the coercion ℝ → [-∞, +∞] commutes with finite sums;
    such a sum of entries ≥ 0 is ≥ 0;
  • a quotient whose divisor is a positive real is the real quotient; the square root of a real > 0
    (≥ 0) is a real > 0 (≥ 0); a square is ≥ 0; a sum of a real ≥ 0 and a real > 0 is > 0;
  • the binary32 bit patterns listed at the end denote the real numbers stated there (and the pattern
    0x7F800000 denotes +∞), so a constant array of one of them has the corresponding property;
  • an integer converted to a float, signed or unsigned, is that integer as a real number.
-/
import Idealize.ShloMosaic.PureOps.Ideal
import Idealize.ShloMosaic.PureOps.Ideal.Laws
import Mathlib.Data.EReal.Operations
import Mathlib.Data.EReal.Inv
import Mathlib.Analysis.SpecialFunctions.Exp
import Mathlib.Analysis.SpecialFunctions.Sqrt
import Mathlib.Algebra.BigOperators.Group.Finset.Basic

noncomputable section

namespace IdealFinite

open Idealize.ShloMosaic
open scoped BigOperators

/-! ### The three properties -/

/-- An extended real that is a real number. -/
def IsFin (x : EReal) : Prop := ∃ r : ℝ, x = (r : EReal)

/-- Every entry of the array is a real number. -/
def AllFin {S : Shape} (v : S.Idx → EReal) : Prop := ∀ i, IsFin (v i)

/-- Every entry of the array is a real number that is not negative. -/
def AllNonneg {S : Shape} (v : S.Idx → EReal) : Prop := ∀ i, ∃ r : ℝ, 0 ≤ r ∧ v i = (r : EReal)

/-- Every entry of the array is a positive real number. -/
def AllPos {S : Shape} (v : S.Idx → EReal) : Prop := ∀ i, ∃ r : ℝ, 0 < r ∧ v i = (r : EReal)

theorem AllPos.allNonneg {S : Shape} {v : S.Idx → EReal} (h : AllPos v) : AllNonneg v := fun i => by
  obtain ⟨r, hr, e⟩ := h i
  exact ⟨r, hr.le, e⟩

theorem AllNonneg.allFin {S : Shape} {v : S.Idx → EReal} (h : AllNonneg v) : AllFin v := fun i => by
  obtain ⟨r, _, e⟩ := h i
  exact ⟨r, e⟩

theorem AllPos.allFin {S : Shape} {v : S.Idx → EReal} (h : AllPos v) : AllFin v := h.allNonneg.allFin

/-! ### Finite sums of reals -/

/-- The coercion of the reals into the extended reals commutes with finite sums. -/
theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem isFin_sum {ι : Type} (s : Finset ι) (f : ι → EReal) (h : ∀ i ∈ s, IsFin (f i)) :
    IsFin (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- A finite sum of real numbers that are not negative is a real number that is not negative. -/
theorem nonneg_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr0, hr⟩ := h a (Finset.mem_insert_self a s)
    obtain ⟨t, ht0, ht⟩ := ih fun i hi => h i (Finset.mem_insert_of_mem hi)
    exact ⟨r + t, add_nonneg hr0 ht0, by rw [Finset.sum_insert ha, hr, ht, EReal.coe_add]⟩

/-! ### Pointwise operations -/

theorem AllFin.addf {S : Shape} {φ : FTy} {x y : FVec Ideal S φ} (hx : AllFin x) (hy : AllFin y) :
    AllFin (Idealize.ShloMosaic.addf (F := Ideal) x y) := fun i => by
  obtain ⟨a, ha⟩ := hx i
  obtain ⟨b, hb⟩ := hy i
  exact ⟨a + b, by show x i + y i = _; rw [ha, hb, EReal.coe_add]⟩

theorem AllFin.subf {S : Shape} {φ : FTy} {x y : FVec Ideal S φ} (hx : AllFin x) (hy : AllFin y) :
    AllFin (Idealize.ShloMosaic.subf (F := Ideal) x y) := fun i => by
  obtain ⟨a, ha⟩ := hx i
  obtain ⟨b, hb⟩ := hy i
  exact ⟨a - b, by show x i - y i = _; rw [ha, hb, EReal.coe_sub]⟩

theorem AllFin.mulf {S : Shape} {φ : FTy} {x y : FVec Ideal S φ} (hx : AllFin x) (hy : AllFin y) :
    AllFin (Idealize.ShloMosaic.mulf (F := Ideal) x y) := fun i => by
  obtain ⟨a, ha⟩ := hx i
  obtain ⟨b, hb⟩ := hy i
  exact ⟨a * b, by show x i * y i = _; rw [ha, hb, EReal.coe_mul]⟩

theorem AllFin.negf {S : Shape} {φ : FTy} {x : FVec Ideal S φ} (hx : AllFin x) :
    AllFin (Idealize.ShloMosaic.Host.negf (F := Ideal) x) := fun i => by
  obtain ⟨a, ha⟩ := hx i
  exact ⟨-a, by show -(x i) = _; rw [ha, EReal.coe_neg]⟩

/-- The exponential of a real number is a positive real number. -/
theorem AllPos.exp {S : Shape} {φ : FTy} {x : FVec Ideal S φ} (hx : AllFin x) :
    AllPos (Idealize.ShloMosaic.Host.exp (F := Ideal) x) := fun i => by
  obtain ⟨a, ha⟩ := hx i
  exact ⟨Real.exp a, Real.exp_pos a, by show Ideal.exp (x i) = _; rw [ha, Ideal.exp_coe]⟩

theorem AllFin.exp {S : Shape} {φ : FTy} {x : FVec Ideal S φ} (hx : AllFin x) :
    AllFin (Idealize.ShloMosaic.Host.exp (F := Ideal) x) := (AllPos.exp hx).allFin

/-- A lane-by-lane choice between two arrays of reals, whatever the mask. -/
theorem AllFin.select {S : Shape} {p : IVec S 1} {a b : S.Idx → EReal} (ha : AllFin a) (hb : AllFin b) :
    AllFin (Idealize.ShloMosaic.select p a b) := fun i => by
  show IsFin (Scalar.select (p i) (a i) (b i))
  unfold Scalar.select
  split
  · exact ha i
  · exact hb i

theorem AllNonneg.select {S : Shape} {p : IVec S 1} {a b : S.Idx → EReal} (ha : AllNonneg a) (hb : AllNonneg b) :
    AllNonneg (Idealize.ShloMosaic.select p a b) := fun i => by
  show ∃ r : ℝ, 0 ≤ r ∧ Scalar.select (p i) (a i) (b i) = (r : EReal)
  unfold Scalar.select
  split
  · exact ha i
  · exact hb i

theorem AllPos.select {S : Shape} {p : IVec S 1} {a b : S.Idx → EReal} (ha : AllPos a) (hb : AllPos b) :
    AllPos (Idealize.ShloMosaic.select p a b) := fun i => by
  show ∃ r : ℝ, 0 < r ∧ Scalar.select (p i) (a i) (b i) = (r : EReal)
  unfold Scalar.select
  split
  · exact ha i
  · exact hb i

/-! ### Re-indexing operations: every output entry is an input entry -/

theorem AllFin.broadcastInDim {S T : Shape} {dims : Fin S.rank → Fin T.rank} {h : S.BroadcastsInDim T dims}
    {x : S.Idx → EReal} (hx : AllFin x) : AllFin (Idealize.ShloMosaic.broadcastInDim T dims h x) :=
  fun _ => hx _

theorem AllNonneg.broadcastInDim {S T : Shape} {dims : Fin S.rank → Fin T.rank} {h : S.BroadcastsInDim T dims}
    {x : S.Idx → EReal} (hx : AllNonneg x) : AllNonneg (Idealize.ShloMosaic.broadcastInDim T dims h x) :=
  fun _ => hx _

theorem AllPos.broadcastInDim {S T : Shape} {dims : Fin S.rank → Fin T.rank} {h : S.BroadcastsInDim T dims}
    {x : S.Idx → EReal} (hx : AllPos x) : AllPos (Idealize.ShloMosaic.broadcastInDim T dims h x) :=
  fun _ => hx _

theorem AllFin.transpose {S T : Shape} {perm : List (Fin S.rank)} {x : S.Idx → EReal} {h : S.Transposes perm T}
    (hx : AllFin x) : AllFin (Idealize.ShloMosaic.transpose T perm x h) :=
  fun _ => hx _

theorem AllNonneg.transpose {S T : Shape} {perm : List (Fin S.rank)} {x : S.Idx → EReal} {h : S.Transposes perm T}
    (hx : AllNonneg x) : AllNonneg (Idealize.ShloMosaic.transpose T perm x h) :=
  fun _ => hx _

theorem AllPos.transpose {S T : Shape} {perm : List (Fin S.rank)} {x : S.Idx → EReal} {h : S.Transposes perm T}
    (hx : AllPos x) : AllPos (Idealize.ShloMosaic.transpose T perm x h) :=
  fun _ => hx _

theorem AllFin.gather {S SI T : Shape} {w : Nat} {d : GatherDims S SI T} {x : S.Idx → EReal} {idx : IVec SI w}
    (hx : AllFin x) : AllFin (Idealize.ShloMosaic.Host.gather d x idx) :=
  fun _ => hx _

theorem AllNonneg.gather {S SI T : Shape} {w : Nat} {d : GatherDims S SI T} {x : S.Idx → EReal} {idx : IVec SI w}
    (hx : AllNonneg x) : AllNonneg (Idealize.ShloMosaic.Host.gather d x idx) :=
  fun _ => hx _

theorem AllPos.gather {S SI T : Shape} {w : Nat} {d : GatherDims S SI T} {x : S.Idx → EReal} {idx : IVec SI w}
    (hx : AllPos x) : AllPos (Idealize.ShloMosaic.Host.gather d x idx) :=
  fun _ => hx _

/-! ### Contractions and sums -/

/-- A matrix product of arrays of reals: each entry is a finite sum of products of reals. -/
theorem AllFin.dotGeneral {sl sr so : Shape} {φ₁ φ₂ : FTy} {d : DotDims sl sr so} {prec : Option ContractPrecision}
    {l : FVec Ideal sl φ₁} {r : FVec Ideal sr φ₂} (hl : AllFin l) (hr : AllFin r) :
    AllFin (Idealize.ShloMosaic.Host.dotGeneral (F := Ideal) d prec l r) := fun j => by
  show IsFin (FloatOps.dotGeneral d prec .single l r j)
  rw [Ideal.dotGeneral_apply]
  refine isFin_sum _ _ fun k _ => ?_
  obtain ⟨a, ha⟩ := hl (d.lhsIdx j k)
  obtain ⟨b, hb⟩ := hr (d.rhsIdx j k)
  exact ⟨a * b, by rw [ha, hb, EReal.coe_mul]⟩

/-- The sum of an array of reals along axes, added to a real initial value. -/
theorem AllFin.reduceAdd {S T U : Shape} {φ : FTy} {axes : List (Fin S.rank)} {x : FVec Ideal S φ}
    {v : U.Idx → Ideal φ} {red : S.ReducesTo axes T} {hu : 0 < U.numel} (hx : AllFin x) (hv : AllFin (S := U) v) :
    AllFin (Idealize.ShloMosaic.Host.reduceAdd (F := Ideal) x v red hu) := fun j => by
  show IsFin (Ideal.hostReduceAdd red x (v (Shape.Idx.first hu)) j)
  unfold Ideal.hostReduceAdd
  obtain ⟨a, ha⟩ := hv (Shape.Idx.first hu)
  obtain ⟨b, hb⟩ := isFin_sum (Finset.univ.filter fun i => red.drop i = j) x fun i _ => hx i
  exact ⟨a + b, by rw [ha, hb, EReal.coe_add]⟩

theorem AllNonneg.reduceAdd {S T U : Shape} {φ : FTy} {axes : List (Fin S.rank)} {x : FVec Ideal S φ}
    {v : U.Idx → Ideal φ} {red : S.ReducesTo axes T} {hu : 0 < U.numel} (hx : AllNonneg x)
    (hv : AllNonneg (S := U) v) :
    AllNonneg (Idealize.ShloMosaic.Host.reduceAdd (F := Ideal) x v red hu) := fun j => by
  show ∃ r : ℝ, 0 ≤ r ∧ Ideal.hostReduceAdd red x (v (Shape.Idx.first hu)) j = (r : EReal)
  unfold Ideal.hostReduceAdd
  obtain ⟨a, ha0, ha⟩ := hv (Shape.Idx.first hu)
  obtain ⟨b, hb0, hb⟩ := nonneg_sum (Finset.univ.filter fun i => red.drop i = j) x fun i _ => hx i
  exact ⟨a + b, add_nonneg ha0 hb0, by rw [ha, hb, EReal.coe_add]⟩

/-! ### Division by a positive real -/

/-- A real divided by a positive real, as extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem AllFin.divf {S : Shape} {φ : FTy} {x y : FVec Ideal S φ} (hx : AllFin x) (hy : AllPos y) :
    AllFin (Idealize.ShloMosaic.Host.divf (F := Ideal) x y) := fun i => by
  obtain ⟨a, ha⟩ := hx i
  obtain ⟨b, hb0, hb⟩ := hy i
  exact ⟨a / b, by show Ideal.div (x i) (y i) = _; rw [ha, hb, div_coe_coe a hb0.ne']⟩

theorem AllNonneg.divf {S : Shape} {φ : FTy} {x y : FVec Ideal S φ} (hx : AllNonneg x) (hy : AllPos y) :
    AllNonneg (Idealize.ShloMosaic.Host.divf (F := Ideal) x y) := fun i => by
  obtain ⟨a, ha0, ha⟩ := hx i
  obtain ⟨b, hb0, hb⟩ := hy i
  exact ⟨a / b, div_nonneg ha0 hb0.le, by show Ideal.div (x i) (y i) = _; rw [ha, hb, div_coe_coe a hb0.ne']⟩

theorem AllPos.divf {S : Shape} {φ : FTy} {x y : FVec Ideal S φ} (hx : AllPos x) (hy : AllPos y) :
    AllPos (Idealize.ShloMosaic.Host.divf (F := Ideal) x y) := fun i => by
  obtain ⟨a, ha0, ha⟩ := hx i
  obtain ⟨b, hb0, hb⟩ := hy i
  exact ⟨a / b, div_pos ha0 hb0, by show Ideal.div (x i) (y i) = _; rw [ha, hb, div_coe_coe a hb0.ne']⟩

/-! ### Square roots -/

/-- The square root of a positive real is a positive real. -/
theorem AllPos.sqrt {S : Shape} {φ : FTy} {x : FVec Ideal S φ} (hx : AllPos x) :
    AllPos (Idealize.ShloMosaic.Host.sqrt (F := Ideal) x) := fun i => by
  obtain ⟨a, ha0, ha⟩ := hx i
  exact ⟨Real.sqrt a, Real.sqrt_pos.mpr ha0, by
    show Ideal.sqrt (x i) = _
    rw [ha, Ideal.sqrt_coe, if_neg (not_lt.mpr ha0.le)]⟩

/-- The square root of a real that is not negative is a real that is not negative. -/
theorem AllNonneg.sqrt {S : Shape} {φ : FTy} {x : FVec Ideal S φ} (hx : AllNonneg x) :
    AllNonneg (Idealize.ShloMosaic.Host.sqrt (F := Ideal) x) := fun i => by
  obtain ⟨a, ha0, ha⟩ := hx i
  exact ⟨Real.sqrt a, Real.sqrt_nonneg a, by
    show Ideal.sqrt (x i) = _
    rw [ha, Ideal.sqrt_coe, if_neg (not_lt.mpr ha0)]⟩

/-! ### Signs of sums and products -/

/-- A square of a real is not negative. -/
theorem AllNonneg.mulf_self {S : Shape} {φ : FTy} {x : FVec Ideal S φ} (hx : AllFin x) :
    AllNonneg (Idealize.ShloMosaic.mulf (F := Ideal) x x) := fun i => by
  obtain ⟨a, ha⟩ := hx i
  exact ⟨a * a, mul_self_nonneg a, by show x i * x i = _; rw [ha, EReal.coe_mul]⟩

theorem AllNonneg.mulf {S : Shape} {φ : FTy} {x y : FVec Ideal S φ} (hx : AllNonneg x) (hy : AllNonneg y) :
    AllNonneg (Idealize.ShloMosaic.mulf (F := Ideal) x y) := fun i => by
  obtain ⟨a, ha0, ha⟩ := hx i
  obtain ⟨b, hb0, hb⟩ := hy i
  exact ⟨a * b, mul_nonneg ha0 hb0, by show x i * y i = _; rw [ha, hb, EReal.coe_mul]⟩

theorem AllPos.mulf {S : Shape} {φ : FTy} {x y : FVec Ideal S φ} (hx : AllPos x) (hy : AllPos y) :
    AllPos (Idealize.ShloMosaic.mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

theorem AllNonneg.addf {S : Shape} {φ : FTy} {x y : FVec Ideal S φ} (hx : AllNonneg x) (hy : AllNonneg y) :
    AllNonneg (Idealize.ShloMosaic.addf (F := Ideal) x y) := fun i => by
  obtain ⟨a, ha0, ha⟩ := hx i
  obtain ⟨b, hb0, hb⟩ := hy i
  exact ⟨a + b, add_nonneg ha0 hb0, by show x i + y i = _; rw [ha, hb, EReal.coe_add]⟩

theorem AllPos.addf_nonneg_pos {S : Shape} {φ : FTy} {x y : FVec Ideal S φ} (hx : AllNonneg x) (hy : AllPos y) :
    AllPos (Idealize.ShloMosaic.addf (F := Ideal) x y) := fun i => by
  obtain ⟨a, ha0, ha⟩ := hx i
  obtain ⟨b, hb0, hb⟩ := hy i
  exact ⟨a + b, add_pos_of_nonneg_of_pos ha0 hb0, by show x i + y i = _; rw [ha, hb, EReal.coe_add]⟩

theorem AllPos.addf_pos_nonneg {S : Shape} {φ : FTy} {x y : FVec Ideal S φ} (hx : AllPos x) (hy : AllNonneg y) :
    AllPos (Idealize.ShloMosaic.addf (F := Ideal) x y) := fun i => by
  obtain ⟨a, ha0, ha⟩ := hx i
  obtain ⟨b, hb0, hb⟩ := hy i
  exact ⟨a + b, add_pos_of_pos_of_nonneg ha0 hb0, by show x i + y i = _; rw [ha, hb, EReal.coe_add]⟩

theorem AllPos.addf {S : Shape} {φ : FTy} {x y : FVec Ideal S φ} (hx : AllPos x) (hy : AllPos y) :
    AllPos (Idealize.ShloMosaic.addf (F := Ideal) x y) := AllPos.addf_pos_nonneg hx hy.allNonneg

/-! ### Constants: binary32 bit patterns as real numbers

Each pattern is read as sign, eight exponent bits and twenty-three fraction bits; a normal number is
(2^23 + fraction) · 2^(exponent − 150). -/

/-- The pattern of +0.0 denotes 0. -/
theorem ofBits_00000000 : Ideal.ofBits .f32 0x00000000#32 = ((0 : ℝ) : EReal) := by
  simp [Ideal.ofBits, Ideal.ieee]

/-- The pattern of 1.0 denotes 1. -/
theorem ofBits_3F800000 : Ideal.ofBits .f32 0x3F800000#32 = ((1 : ℝ) : EReal) := by
  simp [Ideal.ofBits, Ideal.ieee, -EReal.coe_mul]; norm_num

/-- The binary32 number nearest 0.01: 10737418 · 2^(-30). -/
theorem ofBits_3C23D70A : Ideal.ofBits .f32 0x3C23D70A#32 = ((10737418 / 1073741824 : ℝ) : EReal) := by
  simp [Ideal.ofBits, Ideal.ieee, -EReal.coe_mul]; norm_num

/-- The binary32 number nearest 1e-5: 10995116 · 2^(-40). -/
theorem ofBits_3727C5AC : Ideal.ofBits .f32 0x3727C5AC#32 = ((10995116 / 1099511627776 : ℝ) : EReal) := by
  simp [Ideal.ofBits, Ideal.ieee, -EReal.coe_mul]; norm_num

/-- The pattern of 16384.0 = 2^14. -/
theorem ofBits_46800000 : Ideal.ofBits .f32 0x46800000#32 = ((16384 : ℝ) : EReal) := by
  simp [Ideal.ofBits, Ideal.ieee, -EReal.coe_mul]; norm_num

/-- The pattern of 8192.0 = 2^13. -/
theorem ofBits_46000000 : Ideal.ofBits .f32 0x46000000#32 = ((8192 : ℝ) : EReal) := by
  simp [Ideal.ofBits, Ideal.ieee, -EReal.coe_mul]; norm_num

/-- The pattern of 2048.0 = 2^11. -/
theorem ofBits_45000000 : Ideal.ofBits .f32 0x45000000#32 = ((2048 : ℝ) : EReal) := by
  simp [Ideal.ofBits, Ideal.ieee, -EReal.coe_mul]; norm_num

/-- The pattern of 128.0 = 2^7. -/
theorem ofBits_43000000 : Ideal.ofBits .f32 0x43000000#32 = ((128 : ℝ) : EReal) := by
  simp [Ideal.ofBits, Ideal.ieee, -EReal.coe_mul]; norm_num

/-- The pattern of 2.0. -/
theorem ofBits_40000000 : Ideal.ofBits .f32 0x40000000#32 = ((2 : ℝ) : EReal) := by
  simp [Ideal.ofBits, Ideal.ieee, -EReal.coe_mul]; norm_num

/-- The pattern of 62.0 = 31 · 2. -/
theorem ofBits_42780000 : Ideal.ofBits .f32 0x42780000#32 = ((62 : ℝ) : EReal) := by
  simp [Ideal.ofBits, Ideal.ieee, -EReal.coe_mul]; norm_num

/-- The pattern with all exponent bits set and no fraction bit denotes +∞. -/
theorem ofBits_7F800000 : Ideal.ofBits .f32 0x7F800000#32 = ⊤ := by
  simp [Ideal.ofBits, Ideal.ieee]

/-- An extended real equal to a real is a real; equal to a real ≥ 0 (> 0), it is such a real. -/
theorem isFin_of_eq {x : EReal} {r : ℝ} (h : x = (r : EReal)) : IsFin x := ⟨r, h⟩
theorem nonneg_of_eq {x : EReal} {r : ℝ} (h : x = (r : EReal)) (hr : 0 ≤ r) : ∃ r : ℝ, 0 ≤ r ∧ x = (r : EReal) :=
  ⟨r, hr, h⟩
theorem pos_of_eq {x : EReal} {r : ℝ} (h : x = (r : EReal)) (hr : 0 < r) : ∃ r : ℝ, 0 < r ∧ x = (r : EReal) :=
  ⟨r, hr, h⟩

theorem ofBits_00000000_nonneg : ∃ r : ℝ, 0 ≤ r ∧ Ideal.ofBits .f32 0x00000000#32 = (r : EReal) :=
  nonneg_of_eq ofBits_00000000 (le_refl _)
theorem ofBits_3F800000_pos : ∃ r : ℝ, 0 < r ∧ Ideal.ofBits .f32 0x3F800000#32 = (r : EReal) :=
  pos_of_eq ofBits_3F800000 (by norm_num)
theorem ofBits_3C23D70A_pos : ∃ r : ℝ, 0 < r ∧ Ideal.ofBits .f32 0x3C23D70A#32 = (r : EReal) :=
  pos_of_eq ofBits_3C23D70A (by norm_num)
theorem ofBits_3727C5AC_pos : ∃ r : ℝ, 0 < r ∧ Ideal.ofBits .f32 0x3727C5AC#32 = (r : EReal) :=
  pos_of_eq ofBits_3727C5AC (by norm_num)
theorem ofBits_46800000_pos : ∃ r : ℝ, 0 < r ∧ Ideal.ofBits .f32 0x46800000#32 = (r : EReal) :=
  pos_of_eq ofBits_46800000 (by norm_num)
theorem ofBits_46000000_pos : ∃ r : ℝ, 0 < r ∧ Ideal.ofBits .f32 0x46000000#32 = (r : EReal) :=
  pos_of_eq ofBits_46000000 (by norm_num)
theorem ofBits_45000000_pos : ∃ r : ℝ, 0 < r ∧ Ideal.ofBits .f32 0x45000000#32 = (r : EReal) :=
  pos_of_eq ofBits_45000000 (by norm_num)
theorem ofBits_43000000_pos : ∃ r : ℝ, 0 < r ∧ Ideal.ofBits .f32 0x43000000#32 = (r : EReal) :=
  pos_of_eq ofBits_43000000 (by norm_num)
theorem ofBits_40000000_pos : ∃ r : ℝ, 0 < r ∧ Ideal.ofBits .f32 0x40000000#32 = (r : EReal) :=
  pos_of_eq ofBits_40000000 (by norm_num)
theorem ofBits_42780000_pos : ∃ r : ℝ, 0 < r ∧ Ideal.ofBits .f32 0x42780000#32 = (r : EReal) :=
  pos_of_eq ofBits_42780000 (by norm_num)

/-- A constant array has the property its one value has. -/
theorem AllFin.constant {S : Shape} {φ : FTy} {b : BitVec φ.bits} (h : IsFin (Ideal.ofBits φ b)) :
    AllFin (Idealize.ShloMosaic.constant (F := Ideal) S φ b) := fun _ => h

theorem AllNonneg.constant {S : Shape} {φ : FTy} {b : BitVec φ.bits}
    (h : ∃ r : ℝ, 0 ≤ r ∧ Ideal.ofBits φ b = (r : EReal)) :
    AllNonneg (Idealize.ShloMosaic.constant (F := Ideal) S φ b) := fun _ => h

theorem AllPos.constant {S : Shape} {φ : FTy} {b : BitVec φ.bits}
    (h : ∃ r : ℝ, 0 < r ∧ Ideal.ofBits φ b = (r : EReal)) :
    AllPos (Idealize.ShloMosaic.constant (F := Ideal) S φ b) := fun _ => h

/-! ### Integers converted to floats -/

/-- An unsigned integer as a float is that natural number, a real that is not negative. -/
theorem AllNonneg.uitofp {S : Shape} {w : Nat} {φ : FTy} {x : IVec S w} :
    AllNonneg (Idealize.ShloMosaic.uitofp (F := Ideal) φ x) :=
  fun i => ⟨((x i).toNat : ℝ), Nat.cast_nonneg _, rfl⟩

theorem AllFin.uitofp {S : Shape} {w : Nat} {φ : FTy} {x : IVec S w} :
    AllFin (Idealize.ShloMosaic.uitofp (F := Ideal) φ x) :=
  fun i => ⟨((x i).toNat : ℝ), rfl⟩

/-- A signed integer as a float is that integer, a real. -/
theorem AllFin.sitofp {S : Shape} {w : Nat} {φ : FTy} {x : IVec S w} :
    AllFin (Idealize.ShloMosaic.sitofp (F := Ideal) φ x) :=
  fun i => ⟨((x i).toInt : ℝ), rfl⟩

/-! ### Each closure lemma applies to the operation's own term, with nothing unfolded by hand -/

section Examples
variable {S T : Shape} (x y : FVec Ideal S .f32) (hx : AllFin x) (hy : AllFin y) (hp : AllPos y) (hn : AllNonneg x)

example : AllFin (addf (F := Ideal) x y) := AllFin.addf hx hy
example : AllFin (subf (F := Ideal) x y) := AllFin.subf hx hy
example : AllFin (mulf (F := Ideal) x y) := AllFin.mulf hx hy
example : AllFin (Host.negf (F := Ideal) x) := AllFin.negf hx
example : AllFin (Host.exp (F := Ideal) x) := AllFin.exp hx
example : AllPos (Host.exp (F := Ideal) x) := AllPos.exp hx
example : AllFin (Host.divf (F := Ideal) x y) := AllFin.divf hx hp
example : AllNonneg (Host.divf (F := Ideal) x y) := AllNonneg.divf hn hp
example : AllPos (Host.sqrt (F := Ideal) y) := AllPos.sqrt hp
example : AllNonneg (mulf (F := Ideal) x x) := AllNonneg.mulf_self hx
example : AllPos (addf (F := Ideal) x y) := AllPos.addf_nonneg_pos hn hp
example (p : IVec S 1) : AllFin (select p x y) := AllFin.select hx hy
example : AllFin (select (cmpf (F := Ideal) .oge x (constant S .f32 0x00000000#32)) x
    (mulf x (constant S .f32 0x3C23D70A#32))) :=
  AllFin.select hx (AllFin.mulf hx (AllFin.constant (isFin_of_eq ofBits_3C23D70A)))
example : AllPos (constant (F := Ideal) S .f32 0x3727C5AC#32) := AllPos.constant ofBits_3727C5AC_pos
example (dims : Fin S.rank → Fin T.rank) (h : S.BroadcastsInDim T dims) : AllFin (broadcastInDim T dims h x) :=
  AllFin.broadcastInDim hx
example (perm : List (Fin S.rank)) (h : S.Transposes perm T) : AllFin (transpose T perm x h) :=
  AllFin.transpose hx
example {SI : Shape} (d : GatherDims S SI T) (idx : IVec SI 32) : AllFin (Host.gather d x idx) :=
  AllFin.gather hx
example {sr so : Shape} (d : DotDims S sr so) (r : FVec Ideal sr .f32) (hr : AllFin r) :
    AllFin (Host.dotGeneral (F := Ideal) d none x r) := AllFin.dotGeneral hx hr
example {axes : List (Fin S.rank)} {U : Shape} (v : FVec Ideal U .f32) (hv : AllFin v) (red : S.ReducesTo axes T)
    (hu : 0 < U.numel) : AllFin (Host.reduceAdd (F := Ideal) x v red hu) := AllFin.reduceAdd hx hv
example {axes : List (Fin S.rank)} {U : Shape} (v : FVec Ideal U .f32) (hv : AllNonneg v) (red : S.ReducesTo axes T)
    (hu : 0 < U.numel) : AllNonneg (Host.reduceAdd (F := Ideal) x v red hu) := AllNonneg.reduceAdd hn hv
example (n : IVec S 32) : AllFin (uitofp (F := Ideal) .f32 n) := AllFin.uitofp
example (n : IVec S 32) : AllFin (sitofp (F := Ideal) .f32 n) := AllFin.sitofp
-- at a concrete shape: x / √(y + ε) is real when x is real, y > 0 and ε > 0
example (a : FVec Ideal ⟨2, ![8, 16]⟩ .f32) (b : FVec Ideal ⟨2, ![8, 16]⟩ .f32) (ha : AllFin a) (hb : AllPos b) :
    AllFin (Host.divf a (Host.sqrt (addf b (constant ⟨2, ![8, 16]⟩ .f32 0x3727C5AC#32)))) :=
  AllFin.divf ha (AllPos.sqrt (AllPos.addf hb (AllPos.constant ofBits_3727C5AC_pos)))

end Examples

end IdealFinite

end
-- ==== Proof.Fin.Pre.lean ====
/-
  Finite inputs are real numbers.

  The precondition says of each of the seven float arrays x that |x| < +∞ holds at every entry: the
  comparison is reduced by `and` over all entries, and the seven results are joined by `and`. Over the
  extended reals |x| = max x (-x), and max x (-x) < +∞ excludes both -∞ and +∞; so every entry of every
  argument array is a real number.
-/
import proofs.«109506_g1580547973939_cont_week2b_922_2_alg».proof.Defs
import proofs.«109506_g1580547973939_cont_week2b_922_2_alg».proof.Proof.Gen.Pre_finite_inputs
import proofs.«109506_g1580547973939_cont_week2b_922_2_alg».proof.Proof.LibIdealFinite
import Idealize.ShloMosaic.Lib.ReduceAll
import Idealize.ShloMosaic.Lib.ValueIdx

noncomputable section

namespace Cert.Hand.Fin

open Idealize.ShloMosaic Idealize.SL.Sem
open IdealFinite
open Cert.Pre_finite_inputs (S_ S8192x256 S8192x8192 S256x128 S256x1 S128x64 S64x64)

/-- An extended real x with max x (-x) < +∞ is neither infinity. -/
theorem isFin_of_abs_lt_top (x : EReal) (h : max x (-x) < ⊤) : IsFin x := by
  induction x using EReal.rec with
  | bot => simp at h
  | coe r => exact ⟨r, rfl⟩
  | top => simp at h

/-- The comparison |x| < (the pattern of +∞) answering 1 says x is a real number. -/
theorem isFin_of_cmp (x : EReal)
    (h : Ideal.cmp .olt (max x (-x)) (Ideal.ofBits .f32 0x7F800000#32) = 1#1) : IsFin x := by
  rw [ofBits_7F800000] at h
  refine isFin_of_abs_lt_top x ?_
  by_contra hn
  simp [Ideal.cmp, hn] at h

/-- The rank-0 shape has one index. -/
instance : Subsingleton S_.Idx := ⟨fun a b => funext fun d => d.elim0⟩

/-- One array: the `and` over all entries of |x| < +∞ being 1 says every entry of x is a real number. -/
theorem allFin_of_all {S : Shape} {axes : List (Fin S.rank)} (x : FVec Ideal S .f32)
    (bc : S_.BroadcastsInDim S (![] : Fin 0 → Fin S.rank)) (red : S.ReducesTo axes S_) (hu : 0 < S_.numel)
    (init : IVec S_ 1)
    (e : Host.reduce IntOp.andi
        (cmpf .olt (Host.absf x) (broadcastInDim S ![] bc (constant (F := Ideal) S_ .f32 0x7F800000#32)))
        init red hu ValueIdx.ix0 = 1#1) :
    AllFin x := fun i =>
  isFin_of_cmp (x i) (Host.reduce_andi_all _ init red hu ValueIdx.ix0 e i)

/-- The printed predicate answering 1 says all seven arrays hold real numbers only. -/
theorem allFin_of_fn (a0 : FVec Ideal S8192x256 .f32) (a1 : FVec Ideal S8192x8192 .f32)
    (a2 : FVec Ideal S256x128 .f32) (a3 : FVec Ideal S256x1 .f32) (a4 : FVec Ideal S128x64 .f32)
    (a5 a6 : FVec Ideal S64x64 .f32)
    (h : Cert.Pre_finite_inputs.fn (F := Ideal) a0 a1 a2 a3 a4 a5 a6 = (fun _ => 1#1)) :
    AllFin a0 ∧ AllFin a1 ∧ AllFin a2 ∧ AllFin a3 ∧ AllFin a4 ∧ AllFin a5 ∧ AllFin a6 := by
  have h0 := congrFun h ValueIdx.ix0
  dsimp only [Cert.Pre_finite_inputs.fn, Cert.Pre_finite_inputs.fn_part1] at h0
  simp only [andi, IntOp.andi_eq_one] at h0
  obtain ⟨⟨⟨⟨⟨⟨e0, e1⟩, e2⟩, e3⟩, e4⟩, e5⟩, e6⟩ := h0
  exact ⟨allFin_of_all a0 _ _ _ _ e0, allFin_of_all a1 _ _ _ _ e1, allFin_of_all a2 _ _ _ _ e2,
    allFin_of_all a3 _ _ _ _ e3, allFin_of_all a4 _ _ _ _ e4, allFin_of_all a5 _ _ _ _ e5,
    allFin_of_all a6 _ _ _ _ e6⟩

/-- Under the precondition every argument array of the kernel, on every device, holds real numbers only. -/
theorem allFin_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    AllFin (S := S8192x256) (m ((c.tc : Thread Cert.KernelIdeal.nD Cert.KernelIdeal.τ).loc Cert.KernelIdeal.main_arg0))
    ∧ AllFin (S := S8192x8192) (m ((c.tc : Thread Cert.KernelIdeal.nD Cert.KernelIdeal.τ).loc Cert.KernelIdeal.main_arg1))
    ∧ AllFin (S := S256x128) (m ((c.tc : Thread Cert.KernelIdeal.nD Cert.KernelIdeal.τ).loc Cert.KernelIdeal.main_arg2))
    ∧ AllFin (S := S256x1) (m ((c.tc : Thread Cert.KernelIdeal.nD Cert.KernelIdeal.τ).loc Cert.KernelIdeal.main_arg3))
    ∧ AllFin (S := S128x64) (m ((c.tc : Thread Cert.KernelIdeal.nD Cert.KernelIdeal.τ).loc Cert.KernelIdeal.main_arg4))
    ∧ AllFin (S := S64x64) (m ((c.tc : Thread Cert.KernelIdeal.nD Cert.KernelIdeal.τ).loc Cert.KernelIdeal.main_arg5))
    ∧ AllFin (S := S64x64) (m ((c.tc : Thread Cert.KernelIdeal.nD Cert.KernelIdeal.τ).loc Cert.KernelIdeal.main_arg6)) :=
  allFin_of_fn _ _ _ _ _ _ _ (h c)

end Cert.Hand.Fin

end
-- ==== Proof.KI.FoldVal.lean ====
/-
  What each call of the kernel's program finds in its windows' arrays when it is entered, and what the three result
  buffers hold at the return, read off the fold of the boundaries: an argument array is the launch memory's (no item
  writes it); a buffer a host stretch wrote is that stretch's operation applied to its operands; a buffer a call
  wrote is that call's final array.
-/
import proofs.«109506_g1580547973939_cont_week2b_922_2_alg».proof.Proof.KI.Fold
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.StableHlo

/-! ## Call 0 is entered at boundary 1 -/

theorem Vr1_arg0 (c : Dev nD) : Vr1 m c main_arg0 = m ((c : Thread nD τ).loc main_arg0) := W1_keep m c main_arg0 (by decide)
theorem Vr1_arg2 (c : Dev nD) : Vr1 m c main_arg2 = m ((c : Thread nD τ).loc main_arg2) := W1_keep m c main_arg2 (by decide)
/-- The first half of the attention vector. -/
theorem Vr1_v0 (c : Dev nD) :
    Vr1 m c main_v0 = extractStridedSlice S128x1 ![0, 0] (m ((c : Thread nD τ).loc main_arg3)) slices_S256x1_S128x1_0_0 := by
  show StableHlo.after hostOps0 (W0 m c) (Proc.devRef .tc main_v0) = _
  after_results
/-- The second half of the attention vector. -/
theorem Vr1_v1 (c : Dev nD) :
    Vr1 m c main_v1 = extractStridedSlice S128x1 ![128, 0] (m ((c : Thread nD τ).loc main_arg3)) slices_S256x1_S128x1_128_0 := by
  show StableHlo.after hostOps0 (W0 m c) (Proc.devRef .tc main_v1) = _
  after_results

/-! ## Call 1 is entered at boundary 3 -/

theorem Vr3_arg1 (c : Dev nD) : Vr3 m c main_arg1 = m ((c : Thread nD τ).loc main_arg1) :=
  (W3_keep m c main_arg1 (by decide)).trans <| (W2_keep m c main_arg1 (by decide) (by decide) (by decide)).trans <| W1_keep m c main_arg1 (by decide)
theorem Vr3_arg4 (c : Dev nD) : Vr3 m c main_arg4 = m ((c : Thread nD τ).loc main_arg4) :=
  (W3_keep m c main_arg4 (by decide)).trans <| (W2_keep m c main_arg4 (by decide) (by decide) (by decide)).trans <| W1_keep m c main_arg4 (by decide)
/-- The projected features and the first scores are call 0's first and second outputs. -/
theorem Vr3_v2_0 (c : Dev nD) : Vr3 m c main_v2_0 = (dat0 (Vr1 m) c).arrAt 4 cfg0.N :=
  (W3_keep m c main_v2_0 (by decide)).trans (W2_arr m c 4)
theorem Vr3_v2_1 (c : Dev nD) : Vr3 m c main_v2_1 = (dat0 (Vr1 m) c).arrAt 5 cfg0.N :=
  (W3_keep m c main_v2_1 (by decide)).trans (W2_arr m c 5)
/-- The second scores as a row: call 0's third output, a column, reshaped. -/
theorem Vr3_v3 (c : Dev nD) :
    Vr3 m c main_v3 = fun i => shapeCast S1x8192 ((dat0 (Vr1 m) c).arrAt 6 cfg0.N) shapeCasts_S8192x1_S1x8192 i := by
  have h6 : W2 m c (Proc.devRef .tc main_v2_2) = (dat0 (Vr1 m) c).arrAt 6 cfg0.N := W2_arr m c 6
  show StableHlo.after hostOps1 (W2 m c) (Proc.devRef .tc main_v3) = _
  after_results
  rw [h6]; rfl

/-! ## Call 2 is entered at boundary 5 -/

theorem Vr5_arg1 (c : Dev nD) : Vr5 m c main_arg1 = m ((c : Thread nD τ).loc main_arg1) :=
  (W5_keep m c main_arg1 (by decide)).trans <| (W4_keep m c main_arg1 (by decide)).trans <| Vr3_arg1 m c
/-- The support array is call 1's output. -/
theorem Vr5_v4 (c : Dev nD) : Vr5 m c main_v4 = (dat1 (Vr3 m) c).arrAt 5 cfg1.N :=
  (W5_keep m c main_v4 (by decide)).trans (W4_arr m c 5)
/-- The two weight arrays side by side. -/
theorem Vr5_v5 (c : Dev nD) :
    Vr5 m c main_v5 = concatenate S64x128 1 [⟨S64x64, m ((c : Thread nD τ).loc main_arg5)⟩, ⟨S64x64, m ((c : Thread nD τ).loc main_arg6)⟩]
      concatenates_S64x64_S64x64_S64x128_d1 := by
  have h5 : W4 m c (Proc.devRef .tc main_arg5) = m ((c : Thread nD τ).loc main_arg5) :=
    (W4_keep m c main_arg5 (by decide)).trans <| (W3_keep m c main_arg5 (by decide)).trans <|
      (W2_keep m c main_arg5 (by decide) (by decide) (by decide)).trans <| W1_keep m c main_arg5 (by decide)
  have h6 : W4 m c (Proc.devRef .tc main_arg6) = m ((c : Thread nD τ).loc main_arg6) :=
    (W4_keep m c main_arg6 (by decide)).trans <| (W3_keep m c main_arg6 (by decide)).trans <|
      (W2_keep m c main_arg6 (by decide) (by decide) (by decide)).trans <| W1_keep m c main_arg6 (by decide)
  show StableHlo.after hostOps2 (W4 m c) (Proc.devRef .tc main_v5) = _
  after_results
  rw [h5, h6]

/-! ## Call 3 is entered at boundary 6 -/

theorem Vr6_arg1 (c : Dev nD) : Vr6 m c main_arg1 = m ((c : Thread nD τ).loc main_arg1) :=
  (W6_keep m c main_arg1 (by decide)).trans (Vr5_arg1 m c)
theorem Vr6_v6 (c : Dev nD) : Vr6 m c main_v6 = (dat2 (Vr5 m) c).arrAt 3 cfg2.N := W6_arr m c 3

/-! ## Call 4 is entered at boundary 8; the results are read at boundary 9 -/

/-- The first 64 columns of call 3's output. -/
theorem Vr8_v8 (c : Dev nD) :
    Vr8 m c main_v8 = extractStridedSlice S8192x64 ![0, 0] ((dat3 (Vr6 m) c).arrAt 2 cfg3.N) slices_S8192x128_S8192x64_0_0 := by
  have h7 : W7 m c (Proc.devRef .tc main_v7) = (dat3 (Vr6 m) c).arrAt 2 cfg3.N := W7_arr m c 2
  show StableHlo.after hostOps4 (W7 m c) (Proc.devRef .tc main_v8) = _
  after_results
  rw [h7]
/-- The last 64 columns of call 3's output. -/
theorem Vr8_v9 (c : Dev nD) :
    Vr8 m c main_v9 = extractStridedSlice S8192x64 ![0, 64] ((dat3 (Vr6 m) c).arrAt 2 cfg3.N) slices_S8192x128_S8192x64_0_64 := by
  have h7 : W7 m c (Proc.devRef .tc main_v7) = (dat3 (Vr6 m) c).arrAt 2 cfg3.N := W7_arr m c 2
  show StableHlo.after hostOps4 (W7 m c) (Proc.devRef .tc main_v9) = _
  after_results
  rw [h7]
theorem W9_v10 (c : Dev nD) : W9 m c (Proc.devRef .tc main_v10) = (dat4 (Vr8 m) c).arrAt 2 cfg4.N := W9_out m c
theorem W9_v8 (c : Dev nD) : W9 m c (Proc.devRef .tc main_v8) = Vr8 m c main_v8 := W9_keep m c main_v8 (by decide)
theorem W9_v9 (c : Dev nD) : W9 m c (Proc.devRef .tc main_v9) = Vr8 m c main_v9 := W9_keep m c main_v9 (by decide)

end Cert.KernelIdeal.Hand

end
-- ==== Proof.KV.Val0.lean ====
/-
  The values of the projection call's three output arrays after its one point has run, at the ideal values.
  The call has no grid: every window's block is its whole array. With `x` the 8192 × 256 feature array, `W` the
  256 × 128 projection and `u`, `v` the two 128 × 1 halves of the attention vector, the body leaves
  `(x · W) (i, k) = ∑ d, x (i, d) · W (d, k)` in the first output and the products of that matrix with the one
  column of `u` and of `v`, `∑ k, (x · W) (i, k) · u (k, 0)`, in the other two: each product contracts the second
  axis of its left operand with the first axis of its right operand and accumulates into zero. The one point's
  blocks cover the arrays, so the arrays end holding these functions of the arrays the call was entered with.
-/
import proofs.«109506_g1580547973939_cont_week2b_922_2_alg».proof.Proof.KI.R0
import Idealize.ShloMosaic.Lib.ValueIdx
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

theorem lhsA_0 (i : S8192x128.Idx) (q : dot_S8192x256_S256x128_S8192x128_1_0_0_1_n_n.contr.Idx) :
    (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl
theorem lhsA_1 (i : S8192x128.Idx) (q : dot_S8192x256_S256x128_S8192x128_1_0_0_1_n_n.contr.Idx) :
    (dot_S8192x256_S256x128_S8192x128_1_0_0_1_n_n.lhsIdx i q 1).val = (q ⟨0, by decide⟩).val :=
  dot_S8192x256_S256x128_S8192x128_1_0_0_1_n_n.lhsIdx_val_of_single rfl i q
theorem rhsA_0 (i : S8192x128.Idx) (q : dot_S8192x256_S256x128_S8192x128_1_0_0_1_n_n.contr.Idx) :
    (dot_S8192x256_S256x128_S8192x128_1_0_0_1_n_n.rhsIdx i q 0).val = (q ⟨0, by decide⟩).val :=
  dot_S8192x256_S256x128_S8192x128_1_0_0_1_n_n.rhsIdx_val_of_single rfl i q
theorem rhsA_1 (i : S8192x128.Idx) (q : dot_S8192x256_S256x128_S8192x128_1_0_0_1_n_n.contr.Idx) :
    (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl

theorem lhsB_0 (i : S8192x1.Idx) (q : dot_S8192x128_S128x1_S8192x1_1_0_0_1_n_n.contr.Idx) :
    (dot_S8192x128_S128x1_S8192x1_1_0_0_1_n_n.lhsIdx i q 0).val = (i 0).val := by
  unfold DotDims.lhsIdx
  rw [dif_neg (show ¬(0 : Fin S8192x128.rank) ∈ dot_S8192x128_S128x1_S8192x1_1_0_0_1_n_n.lhsBatch by decide), dif_pos (show (0 : Fin S8192x128.rank) ∈ dot_S8192x128_S128x1_S8192x1_1_0_0_1_n_n.lhsNonContracting by decide)]
  rfl
theorem lhsB_1 (i : S8192x1.Idx) (q : dot_S8192x128_S128x1_S8192x1_1_0_0_1_n_n.contr.Idx) :
    (dot_S8192x128_S128x1_S8192x1_1_0_0_1_n_n.lhsIdx i q 1).val = (q ⟨0, by decide⟩).val :=
  dot_S8192x128_S128x1_S8192x1_1_0_0_1_n_n.lhsIdx_val_of_single rfl i q
theorem rhsB_0 (i : S8192x1.Idx) (q : dot_S8192x128_S128x1_S8192x1_1_0_0_1_n_n.contr.Idx) :
    (dot_S8192x128_S128x1_S8192x1_1_0_0_1_n_n.rhsIdx i q 0).val = (q ⟨0, by decide⟩).val :=
  dot_S8192x128_S128x1_S8192x1_1_0_0_1_n_n.rhsIdx_val_of_single rfl i q
theorem rhsB_1 (i : S8192x1.Idx) (q : dot_S8192x128_S128x1_S8192x1_1_0_0_1_n_n.contr.Idx) :
    (dot_S8192x128_S128x1_S8192x1_1_0_0_1_n_n.rhsIdx i q 1).val = (i 1).val := by
  unfold DotDims.rhsIdx
  rw [dif_neg (show ¬(1 : Fin S128x1.rank) ∈ dot_S8192x128_S128x1_S8192x1_1_0_0_1_n_n.rhsBatch by decide), dif_pos (show (1 : Fin S128x1.rank) ∈ dot_S8192x128_S128x1_S8192x1_1_0_0_1_n_n.rhsNonContracting by decide)]
  rfl

/-- The first product at an entry: row `i` of the features against column `k` of the projection. -/
theorem pay0_1_apply (x0 : Vec Ideal S8192x256 .f32) (x1 : Vec Ideal S256x128 .f32) (i : Fin 8192) (k : Fin 128) :
    k0_pay1 x0 x1 (ix2 i k) = ∑ d : Fin 256, x0 (ix2 i d) * x1 (ix2 d k) := by
  unfold k0_pay1
  simp only [matmul]
  rw [Ideal.matmul_constant_zero_apply, ← Equiv.sum_comp (contrEquiv1 dot_S8192x256_S256x128_S8192x128_1_0_0_1_n_n 256 rfl rfl).symm]
  refine Finset.sum_congr rfl fun d _ => ?_
  have hk := contrEquiv1_symm_val dot_S8192x256_S256x128_S8192x128_1_0_0_1_n_n 256 rfl rfl d
  have el : dot_S8192x256_S256x128_S8192x128_1_0_0_1_n_n.lhsIdx (ix2 i k) ((contrEquiv1 dot_S8192x256_S256x128_S8192x128_1_0_0_1_n_n 256 rfl rfl).symm d) = ix2 i d := funext fun a => Fin.ext (by
    match a with
    | ⟨0, _⟩ => exact lhsA_0 _ _
    | ⟨1, _⟩ => exact (lhsA_1 _ _).trans hk)
  have er : dot_S8192x256_S256x128_S8192x128_1_0_0_1_n_n.rhsIdx (ix2 i k) ((contrEquiv1 dot_S8192x256_S256x128_S8192x128_1_0_0_1_n_n 256 rfl rfl).symm d) = ix2 d k := funext fun a => Fin.ext (by
    match a with
    | ⟨0, _⟩ => exact (rhsA_0 _ _).trans hk
    | ⟨1, _⟩ => exact rhsA_1 _ _)
  rw [el, er]

/-- A second product at an entry: row `i` of a left operand `y` against the one column of a 128 × 1 vector. -/
theorem colprod_apply (y : FVec Ideal S8192x128 .f32) (x2 : FVec Ideal S128x1 .f32) (i : Fin 8192) :
    matmul dot_S8192x128_S128x1_S8192x1_1_0_0_1_n_n none y x2 (constant (F := Ideal) S8192x1 .f32 0x00000000#32) (ix2 i (0 : Fin 1))
      = ∑ k : Fin 128, y (ix2 i k) * x2 (ix2 k (0 : Fin 1)) := by
  simp only [matmul]
  rw [Ideal.matmul_constant_zero_apply, ← Equiv.sum_comp (contrEquiv1 dot_S8192x128_S128x1_S8192x1_1_0_0_1_n_n 128 rfl rfl).symm]
  refine Finset.sum_congr rfl fun k _ => ?_
  have hk := contrEquiv1_symm_val dot_S8192x128_S128x1_S8192x1_1_0_0_1_n_n 128 rfl rfl k
  have el : dot_S8192x128_S128x1_S8192x1_1_0_0_1_n_n.lhsIdx (ix2 i (0 : Fin 1)) ((contrEquiv1 dot_S8192x128_S128x1_S8192x1_1_0_0_1_n_n 128 rfl rfl).symm k) = ix2 i k := funext fun a => Fin.ext (by
    match a with
    | ⟨0, _⟩ => exact lhsB_0 _ _
    | ⟨1, _⟩ => exact (lhsB_1 _ _).trans hk)
  have er : dot_S8192x128_S128x1_S8192x1_1_0_0_1_n_n.rhsIdx (ix2 i (0 : Fin 1)) ((contrEquiv1 dot_S8192x128_S128x1_S8192x1_1_0_0_1_n_n 128 rfl rfl).symm k) = ix2 k (0 : Fin 1) := funext fun a => Fin.ext (by
    match a with
    | ⟨0, _⟩ => exact (rhsB_0 _ _).trans hk
    | ⟨1, _⟩ => exact rhsB_1 _ _)
  rw [el, er]

theorem pay0_2_apply (x0 : Vec Ideal S8192x256 .f32) (x1 : Vec Ideal S256x128 .f32) (x2 : Vec Ideal S128x1 .f32) (i : Fin 8192) :
    k0_pay2 x0 x1 x2 (ix2 i (0 : Fin 1))
      = ∑ k : Fin 128, (∑ d : Fin 256, x0 (ix2 i d) * x1 (ix2 d k)) * x2 (ix2 k (0 : Fin 1)) := by
  unfold k0_pay2
  simp only [shapeCast_self]
  refine (colprod_apply (k0_pay1 x0 x1) x2 i).trans ?_
  refine Finset.sum_congr rfl fun k _ => ?_
  rw [pay0_1_apply]

theorem pay0_3_apply (x0 : Vec Ideal S8192x256 .f32) (x1 : Vec Ideal S256x128 .f32) (x3 : Vec Ideal S128x1 .f32) (i : Fin 8192) :
    k0_pay3 x0 x1 x3 (ix2 i (0 : Fin 1))
      = ∑ k : Fin 128, (∑ d : Fin 256, x0 (ix2 i d) * x1 (ix2 d k)) * x3 (ix2 k (0 : Fin 1)) := by
  unfold k0_pay3
  simp only [shapeCast_self]
  refine (colprod_apply (k0_pay1 x0 x1) x3 i).trans ?_
  refine Finset.sum_congr rfl fun k _ => ?_
  rw [pay0_1_apply]

/-- The projected features `x · W`, entry by entry. -/
abbrev G0_4 (a0 : S8192x256.Idx → EReal) (a1 : S256x128.Idx → EReal) : S8192x128.Idx → EReal :=
  fun j => ∑ d : Fin 256, a0 (ix2 (j 0) d) * a1 (ix2 d (j 1))

/-- The projected features against the one column of a 128 × 1 vector, entry by entry. -/
abbrev G0_s (a0 : S8192x256.Idx → EReal) (a1 : S256x128.Idx → EReal) (a2 : S128x1.Idx → EReal) : S8192x1.Idx → EReal :=
  fun j => ∑ k : Fin 128, (∑ d : Fin 256, a0 (ix2 (j 0) d) * a1 (ix2 d k)) * a2 (ix2 k (0 : Fin 1))

theorem iblk0_0_apply (c : Dev nD) (t : Fin cfg0.N) (x : S8192x256.Idx) (k : S8192x256.Idx)
    (hk0 : (k 0).val = (x 0).val) (hk1 : (k 1).val = (x 1).val) :
    (iblk0 V c 0 t : Vec Ideal S8192x256 .f32) x = (V c main_arg0 : S8192x256.Idx → EReal) k := by
  have h0 : win0_0.index t (0 : Fin 2) = 0 := rfl
  have h1 : win0_0.index t (1 : Fin 2) = 0 := rfl
  unfold iblk0
  rw [View.read_apply]
  show V c main_arg0 _ = V c main_arg0 _
  congr 1
  funext a
  apply Fin.ext
  match a with
  | ⟨0, _⟩ => show win0_0.index t (0 : Fin 2) * 8192 + 1 * (x 0).val = (k 0).val; rw [h0, hk0]; omega
  | ⟨1, _⟩ => show win0_0.index t (1 : Fin 2) * 256 + 1 * (x 1).val = (k 1).val; rw [h1, hk1]; omega

theorem iblk0_1_apply (c : Dev nD) (t : Fin cfg0.N) (x : S256x128.Idx) (k : S256x128.Idx)
    (hk0 : (k 0).val = (x 0).val) (hk1 : (k 1).val = (x 1).val) :
    (iblk0 V c 1 t : Vec Ideal S256x128 .f32) x = (V c main_arg2 : S256x128.Idx → EReal) k := by
  have h0 : win0_1.index t (0 : Fin 2) = 0 := rfl
  have h1 : win0_1.index t (1 : Fin 2) = 0 := rfl
  unfold iblk0
  rw [View.read_apply]
  show V c main_arg2 _ = V c main_arg2 _
  congr 1
  funext a
  apply Fin.ext
  match a with
  | ⟨0, _⟩ => show win0_1.index t (0 : Fin 2) * 256 + 1 * (x 0).val = (k 0).val; rw [h0, hk0]; omega
  | ⟨1, _⟩ => show win0_1.index t (1 : Fin 2) * 128 + 1 * (x 1).val = (k 1).val; rw [h1, hk1]; omega

theorem iblk0_2_apply (c : Dev nD) (t : Fin cfg0.N) (x : S128x1.Idx) (k : S128x1.Idx)
    (hk0 : (k 0).val = (x 0).val) (hk1 : (k 1).val = (x 1).val) :
    (iblk0 V c 2 t : Vec Ideal S128x1 .f32) x = (V c main_v0 : S128x1.Idx → EReal) k := by
  have h0 : win0_2.index t (0 : Fin 2) = 0 := rfl
  have h1 : win0_2.index t (1 : Fin 2) = 0 := rfl
  unfold iblk0
  rw [View.read_apply]
  show V c main_v0 _ = V c main_v0 _
  congr 1
  funext a
  apply Fin.ext
  match a with
  | ⟨0, _⟩ => show win0_2.index t (0 : Fin 2) * 128 + 1 * (x 0).val = (k 0).val; rw [h0, hk0]; omega
  | ⟨1, _⟩ => show win0_2.index t (1 : Fin 2) * 1 + 1 * (x 1).val = (k 1).val; rw [h1, hk1]; omega

theorem iblk0_3_apply (c : Dev nD) (t : Fin cfg0.N) (x : S128x1.Idx) (k : S128x1.Idx)
    (hk0 : (k 0).val = (x 0).val) (hk1 : (k 1).val = (x 1).val) :
    (iblk0 V c 3 t : Vec Ideal S128x1 .f32) x = (V c main_v1 : S128x1.Idx → EReal) k := by
  have h0 : win0_3.index t (0 : Fin 2) = 0 := rfl
  have h1 : win0_3.index t (1 : Fin 2) = 0 := rfl
  unfold iblk0
  rw [View.read_apply]
  show V c main_v1 _ = V c main_v1 _
  congr 1
  funext a
  apply Fin.ext
  match a with
  | ⟨0, _⟩ => show win0_3.index t (0 : Fin 2) * 128 + 1 * (x 0).val = (k 0).val; rw [h0, hk0]; omega
  | ⟨1, _⟩ => show win0_3.index t (1 : Fin 2) * 1 + 1 * (x 1).val = (k 1).val; rw [h1, hk1]; omega

theorem emb0_4_0 (t : Fin cfg0.N) (p : Fin 8192) (q : Fin 128) :
    ((((cfg0.win 4).blk t).view.emb (ix2 p q)) 0).val = p.val := by
  show win0_4.index t (0 : Fin 2) * 8192 + 1 * p.val = p.val
  rw [show win0_4.index t (0 : Fin 2) = 0 from rfl]; omega
theorem emb0_4_1 (t : Fin cfg0.N) (p : Fin 8192) (q : Fin 128) :
    ((((cfg0.win 4).blk t).view.emb (ix2 p q)) 1).val = q.val := by
  show win0_4.index t (1 : Fin 2) * 128 + 1 * q.val = q.val
  rw [show win0_4.index t (1 : Fin 2) = 0 from rfl]; omega

theorem emb0_5_0 (t : Fin cfg0.N) (p : Fin 8192) (q : Fin 1) :
    ((((cfg0.win 5).blk t).view.emb (ix2 p q)) 0).val = p.val := by
  show win0_5.index t (0 : Fin 2) * 8192 + 1 * p.val = p.val
  rw [show win0_5.index t (0 : Fin 2) = 0 from rfl]; omega
theorem emb0_5_1 (t : Fin cfg0.N) (p : Fin 8192) (q : Fin 1) :
    ((((cfg0.win 5).blk t).view.emb (ix2 p q)) 1).val = q.val := by
  show win0_5.index t (1 : Fin 2) * 1 + 1 * q.val = q.val
  rw [show win0_5.index t (1 : Fin 2) = 0 from rfl]; omega

theorem emb0_6_0 (t : Fin cfg0.N) (p : Fin 8192) (q : Fin 1) :
    ((((cfg0.win 6).blk t).view.emb (ix2 p q)) 0).val = p.val := by
  show win0_6.index t (0 : Fin 2) * 8192 + 1 * p.val = p.val
  rw [show win0_6.index t (0 : Fin 2) = 0 from rfl]; omega
theorem emb0_6_1 (t : Fin cfg0.N) (p : Fin 8192) (q : Fin 1) :
    ((((cfg0.win 6).blk t).view.emb (ix2 p q)) 1).val = q.val := by
  show win0_6.index t (1 : Fin 2) * 1 + 1 * q.val = q.val
  rw [show win0_6.index t (1 : Fin 2) = 0 from rfl]; omega

/-- The one point's block of output window 4 is the whole array. -/
theorem mem_blk0_4 (t : Fin cfg0.N) (i : S8192x128.Idx) :
    i ∈ ((cfg0.win 4).blk t).view.set ↔ ∀ a : Fin 2, win0_4.index t a * S8192x128.size a ≤ (i a).val ∧ (i a).val < win0_4.index t a * S8192x128.size a + S8192x128.size a := by
  show i ∈ ((View.whole main_v2_0).slice (win0_4.rect t)).set ↔ _
  rw [View.set_slice_whole, Rect.mem_set_unit]
  exact Iff.rfl

theorem cover0_4 (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have h0 : win0_4.index t0_0 (0 : Fin 2) = 0 := rfl
  have h1 : win0_4.index t0_0 (1 : Fin 2) = 0 := rfl
  refine ⟨t0_0, flush0_4 t0_0, ?_⟩
  rw [mem_blk0_4]
  intro a
  match a with
  | ⟨0, _⟩ => show win0_4.index t0_0 (0 : Fin 2) * 8192 ≤ (i 0).val ∧ (i 0).val < win0_4.index t0_0 (0 : Fin 2) * 8192 + 8192; rw [h0]; omega
  | ⟨1, _⟩ => show win0_4.index t0_0 (1 : Fin 2) * 128 ≤ (i 1).val ∧ (i 1).val < win0_4.index t0_0 (1 : Fin 2) * 128 + 128; rw [h1]; omega

/-- The one point's block of output window 5 is the whole array. -/
theorem mem_blk0_5 (t : Fin cfg0.N) (i : S8192x1.Idx) :
    i ∈ ((cfg0.win 5).blk t).view.set ↔ ∀ a : Fin 2, win0_5.index t a * S8192x1.size a ≤ (i a).val ∧ (i a).val < win0_5.index t a * S8192x1.size a + S8192x1.size a := by
  show i ∈ ((View.whole main_v2_1).slice (win0_5.rect t)).set ↔ _
  rw [View.set_slice_whole, Rect.mem_set_unit]
  exact Iff.rfl

theorem cover0_5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have h0 : win0_5.index t0_0 (0 : Fin 2) = 0 := rfl
  have h1 : win0_5.index t0_0 (1 : Fin 2) = 0 := rfl
  refine ⟨t0_0, flush0_5 t0_0, ?_⟩
  rw [mem_blk0_5]
  intro a
  match a with
  | ⟨0, _⟩ => show win0_5.index t0_0 (0 : Fin 2) * 8192 ≤ (i 0).val ∧ (i 0).val < win0_5.index t0_0 (0 : Fin 2) * 8192 + 8192; rw [h0]; omega
  | ⟨1, _⟩ => show win0_5.index t0_0 (1 : Fin 2) * 1 ≤ (i 1).val ∧ (i 1).val < win0_5.index t0_0 (1 : Fin 2) * 1 + 1; rw [h1]; omega

/-- The one point's block of output window 6 is the whole array. -/
theorem mem_blk0_6 (t : Fin cfg0.N) (i : S8192x1.Idx) :
    i ∈ ((cfg0.win 6).blk t).view.set ↔ ∀ a : Fin 2, win0_6.index t a * S8192x1.size a ≤ (i a).val ∧ (i a).val < win0_6.index t a * S8192x1.size a + S8192x1.size a := by
  show i ∈ ((View.whole main_v2_2).slice (win0_6.rect t)).set ↔ _
  rw [View.set_slice_whole, Rect.mem_set_unit]
  exact Iff.rfl

theorem cover0_6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  have h0 : win0_6.index t0_0 (0 : Fin 2) = 0 := rfl
  have h1 : win0_6.index t0_0 (1 : Fin 2) = 0 := rfl
  refine ⟨t0_0, flush0_6 t0_0, ?_⟩
  rw [mem_blk0_6]
  intro a
  match a with
  | ⟨0, _⟩ => show win0_6.index t0_0 (0 : Fin 2) * 8192 ≤ (i 0).val ∧ (i 0).val < win0_6.index t0_0 (0 : Fin 2) * 8192 + 8192; rw [h0]; omega
  | ⟨1, _⟩ => show win0_6.index t0_0 (1 : Fin 2) * 1 ≤ (i 1).val ∧ (i 1).val < win0_6.index t0_0 (1 : Fin 2) * 1 + 1; rw [h1]; omega

theorem flushed0_4_eq (c : Dev nD) (t : Fin cfg0.N) :
    (dat0 (F := Ideal) V c).flushed 4 t = ((cfg0.win 4).blk t).view.read (Elt Ideal) (G0_4 (V c main_arg0) (V c main_arg2)) := by
  show (cfg0.win 4).cut (grid0.coords t) ((dat0 (F := Ideal) V c).after 4 t) = _
  rw [after0_4]
  unfold out0_4
  rw [View.canon_unit_zero hz0]
  simp only [View.ld_unit_zero (S := S8192x256) hz0, View.ld_unit_zero (S := S256x128) hz0]
  funext j
  obtain ⟨p, q, rfl⟩ : ∃ (p : Fin 8192) (q : Fin 128), j = ix2 p q := ⟨j 0, j 1, eq_ix2 j⟩
  show k0_pay1 (iblk0 V c 0 t) (iblk0 V c 1 t) (ix2 p q) = G0_4 (V c main_arg0) (V c main_arg2) (((cfg0.win 4).blk t).view.emb (ix2 p q))
  refine (pay0_1_apply (iblk0 V c 0 t) (iblk0 V c 1 t) p q).trans ?_
  refine Finset.sum_congr rfl fun d _ => ?_
  refine congrArg₂ (· * ·)
    (iblk0_0_apply V c t (ix2 p d) (ix2 ((((cfg0.win 4).blk t).view.emb (ix2 p q)) 0) d) ?_ ?_)
    (iblk0_1_apply V c t (ix2 d q) (ix2 d ((((cfg0.win 4).blk t).view.emb (ix2 p q)) 1)) ?_ ?_)
  · exact emb0_4_0 t p q
  · rfl
  · rfl
  · exact emb0_4_1 t p q

theorem flushed0_5_eq (c : Dev nD) (t : Fin cfg0.N) :
    (dat0 (F := Ideal) V c).flushed 5 t = ((cfg0.win 5).blk t).view.read (Elt Ideal) (G0_s (V c main_arg0) (V c main_arg2) (V c main_v0)) := by
  show (cfg0.win 5).cut (grid0.coords t) ((dat0 (F := Ideal) V c).after 5 t) = _
  rw [after0_5]
  unfold out0_5
  rw [View.canon_unit_zero hz0]
  simp only [View.ld_unit_zero (S := S8192x256) hz0, View.ld_unit_zero (S := S256x128) hz0, View.ld_unit_zero (S := S128x1) hz0]
  funext j
  obtain ⟨p, q, rfl⟩ : ∃ (p : Fin 8192) (q : Fin 1), j = ix2 p q := ⟨j 0, j 1, eq_ix2 j⟩
  obtain rfl : q = (0 : Fin 1) := Subsingleton.elim _ _
  show k0_pay2 (iblk0 V c 0 t) (iblk0 V c 1 t) (iblk0 V c 2 t) (ix2 p (0 : Fin 1))
    = G0_s (V c main_arg0) (V c main_arg2) (V c main_v0) (((cfg0.win 5).blk t).view.emb (ix2 p (0 : Fin 1)))
  refine (pay0_2_apply (iblk0 V c 0 t) (iblk0 V c 1 t) (iblk0 V c 2 t) p).trans ?_
  refine Finset.sum_congr rfl fun k _ => ?_
  refine congrArg₂ (· * ·) (Finset.sum_congr rfl fun d _ => ?_) (iblk0_2_apply V c t (ix2 k (0 : Fin 1)) (ix2 k (0 : Fin 1)) rfl rfl)
  refine congrArg₂ (· * ·)
    (iblk0_0_apply V c t (ix2 p d) (ix2 ((((cfg0.win 5).blk t).view.emb (ix2 p (0 : Fin 1))) 0) d) ?_ rfl)
    (iblk0_1_apply V c t (ix2 d k) (ix2 d k) rfl rfl)
  exact emb0_5_0 t p (0 : Fin 1)

theorem flushed0_6_eq (c : Dev nD) (t : Fin cfg0.N) :
    (dat0 (F := Ideal) V c).flushed 6 t = ((cfg0.win 6).blk t).view.read (Elt Ideal) (G0_s (V c main_arg0) (V c main_arg2) (V c main_v1)) := by
  show (cfg0.win 6).cut (grid0.coords t) ((dat0 (F := Ideal) V c).after 6 t) = _
  rw [after0_6]
  unfold out0_6
  rw [View.canon_unit_zero hz0]
  simp only [View.ld_unit_zero (S := S8192x256) hz0, View.ld_unit_zero (S := S256x128) hz0, View.ld_unit_zero (S := S128x1) hz0]
  funext j
  obtain ⟨p, q, rfl⟩ : ∃ (p : Fin 8192) (q : Fin 1), j = ix2 p q := ⟨j 0, j 1, eq_ix2 j⟩
  obtain rfl : q = (0 : Fin 1) := Subsingleton.elim _ _
  show k0_pay3 (iblk0 V c 0 t) (iblk0 V c 1 t) (iblk0 V c 3 t) (ix2 p (0 : Fin 1))
    = G0_s (V c main_arg0) (V c main_arg2) (V c main_v1) (((cfg0.win 6).blk t).view.emb (ix2 p (0 : Fin 1)))
  refine (pay0_3_apply (iblk0 V c 0 t) (iblk0 V c 1 t) (iblk0 V c 3 t) p).trans ?_
  refine Finset.sum_congr rfl fun k _ => ?_
  refine congrArg₂ (· * ·) (Finset.sum_congr rfl fun d _ => ?_) (iblk0_3_apply V c t (ix2 k (0 : Fin 1)) (ix2 k (0 : Fin 1)) rfl rfl)
  refine congrArg₂ (· * ·)
    (iblk0_0_apply V c t (ix2 p d) (ix2 ((((cfg0.win 6).blk t).view.emb (ix2 p (0 : Fin 1))) 0) d) ?_ rfl)
    (iblk0_1_apply V c t (ix2 d k) (ix2 d k) rfl rfl)
  exact emb0_6_0 t p (0 : Fin 1)

/-- The three output arrays after the call's one point, as whole-array functions of the input arrays. -/
theorem final0_4_fn (c : Dev nD) : (dat0 (F := Ideal) V c).arrAt 4 cfg0.N = G0_4 (V c main_arg0) (V c main_arg2) :=
  (dat0 (F := Ideal) V c).arrAt_eq_of_cover 4 (G0_4 (V c main_arg0) (V c main_arg2)) (fun t _ => flushed0_4_eq V c t) cover0_4
theorem final0_5_fn (c : Dev nD) : (dat0 (F := Ideal) V c).arrAt 5 cfg0.N = G0_s (V c main_arg0) (V c main_arg2) (V c main_v0) :=
  (dat0 (F := Ideal) V c).arrAt_eq_of_cover 5 (G0_s (V c main_arg0) (V c main_arg2) (V c main_v0)) (fun t _ => flushed0_5_eq V c t) cover0_5
theorem final0_6_fn (c : Dev nD) : (dat0 (F := Ideal) V c).arrAt 6 cfg0.N = G0_s (V c main_arg0) (V c main_arg2) (V c main_v1) :=
  (dat0 (F := Ideal) V c).arrAt_eq_of_cover 6 (G0_s (V c main_arg0) (V c main_arg2) (V c main_v1)) (fun t _ => flushed0_6_eq V c t) cover0_6

/-- The same, entry by entry. (The arrays' entries are extended reals; sums and products are written at that type.) -/
theorem final0_4 (c : Dev nD) (i : Fin 8192) (k : Fin 128) :
    ((dat0 (F := Ideal) V c).arrAt 4 cfg0.N : S8192x128.Idx → EReal) (ix2 i k)
      = ∑ d : Fin 256, (HMul.hMul (α := EReal) (β := EReal) (γ := EReal)
          ((V c main_arg0 : S8192x256.Idx → EReal) (ix2 i d)) ((V c main_arg2 : S256x128.Idx → EReal) (ix2 d k)) : EReal) := by
  rw [final0_4_fn]
theorem final0_5 (c : Dev nD) (i : Fin 8192) :
    ((dat0 (F := Ideal) V c).arrAt 5 cfg0.N : S8192x1.Idx → EReal) (ix2 i (0 : Fin 1))
      = ∑ k : Fin 128, (HMul.hMul (α := EReal) (β := EReal) (γ := EReal)
          (∑ d : Fin 256, (HMul.hMul (α := EReal) (β := EReal) (γ := EReal)
            ((V c main_arg0 : S8192x256.Idx → EReal) (ix2 i d)) ((V c main_arg2 : S256x128.Idx → EReal) (ix2 d k)) : EReal))
          ((V c main_v0 : S128x1.Idx → EReal) (ix2 k (0 : Fin 1))) : EReal) := by
  rw [final0_5_fn]
theorem final0_6 (c : Dev nD) (i : Fin 8192) :
    ((dat0 (F := Ideal) V c).arrAt 6 cfg0.N : S8192x1.Idx → EReal) (ix2 i (0 : Fin 1))
      = ∑ k : Fin 128, (HMul.hMul (α := EReal) (β := EReal) (γ := EReal)
          (∑ d : Fin 256, (HMul.hMul (α := EReal) (β := EReal) (γ := EReal)
            ((V c main_arg0 : S8192x256.Idx → EReal) (ix2 i d)) ((V c main_arg2 : S256x128.Idx → EReal) (ix2 d k)) : EReal))
          ((V c main_v1 : S128x1.Idx → EReal) (ix2 k (0 : Fin 1))) : EReal) := by
  rw [final0_6_fn]

end Cert.KernelIdeal.HandVal

end
-- ==== Proof.Att.Spec.lean ====
/-
  The attention row, as one function of a row's data. For a node `i` with adjacency row `adj i ·`, first score
  `s1 i`, second scores `s2 ·` and projected features `wh`:
    z j   = leaky (s1 i + s2 j)  where adj i j > 0,  the finite fill value elsewhere      (leaky e = max e (c · e))
    p j   = exp (z j − max_j z j)
    awh k = (Σ_j p j · wh j k) / Σ_j p j
    g k   = elu (elu (awh k))                                                       (elu v = v if v > 0, else exp v − 1)
  These are the kernel's operations in the kernel's order; the reference computes the same numbers with the
  quotient taken before the sum, which agrees when the features and scores are real.
-/
import Idealize.ShloMosaic.PureOps.Ideal
import Idealize.ShloMosaic.PureOps.Ideal.Laws

noncomputable section

namespace Cert.Hand.Att

open Idealize.ShloMosaic
open scoped BigOperators

/-- The leaky slope, the masked-out fill, minus infinity, one and zero, as the two programs spell them. -/
def c02 : EReal := Ideal.ofBits .f32 0x3E4CCCCD#32
def negBig : EReal := Ideal.ofBits .f32 0xD9FFCB9E#32
def ninf : EReal := Ideal.ofBits .f32 0xFF800000#32
def one : EReal := Ideal.ofBits .f32 0x3F800000#32
def zero : EReal := Ideal.ofBits .f32 0x00000000#32

/-- The leaky unit in the kernel's form. -/
def lrelu (e : EReal) : EReal := max e (c02 * e)

/-- A row's masked scores. -/
def z (adjRow : Fin 8192 → EReal) (s1i : EReal) (s2 : Fin 8192 → EReal) (j : Fin 8192) : EReal :=
  Scalar.select (Ideal.cmp .ogt (adjRow j) zero) (lrelu (s1i + s2 j)) negBig

/-- A row's maximum, folded from minus infinity. -/
def rmax (zr : Fin 8192 → EReal) : EReal := (Finset.univ : Finset (Fin 8192)).fold max ninf zr

/-- The unnormalised weights and their sum. -/
def p (zr : Fin 8192 → EReal) (j : Fin 8192) : EReal := Ideal.exp (zr j - rmax zr)
def den (zr : Fin 8192 → EReal) : EReal := ∑ j, p zr j

/-- The attended features: the weighted sum of the feature rows, divided by the weights' sum. -/
def awh (zr : Fin 8192 → EReal) (wh : Fin 8192 → Fin 128 → EReal) (k : Fin 128) : EReal :=
  Ideal.div (∑ j, p zr j * wh j k) (den zr)

/-- The exponential-linear unit in the kernel's form. -/
def elu (v : EReal) : EReal := Scalar.select (Ideal.cmp .ogt v zero) v (Ideal.exp v - one)

/-- The row's output before the last product with the weights. -/
def g (adjRow : Fin 8192 → EReal) (s1i : EReal) (s2 : Fin 8192 → EReal) (wh : Fin 8192 → Fin 128 → EReal) (k : Fin 128) : EReal :=
  elu (elu (awh (z adjRow s1i s2) wh k))

end Cert.Hand.Att

end
-- ==== Proof.KV.Val1.lean ====
/-
  The value of the attention call's output array after its whole grid has run, at an index, as an explicit sum over
  the arrays the call is entered with.

  The call walks the 8192 rows in 32 blocks of 256. On a block it holds the adjacency rows `adj` [256 × 8192], the first
  scores of those rows `s1` [256 × 1], the second scores as a row `s2` [1 × 8192], the projected features `wh`
  [8192 × 128] and the weights `w` [128 × 64], and computes, for a row `p` of the block:
    z j   = max e (c · e) with e = s1 p + s2 j  where adj p j > 0,  the finite fill value elsewhere,
    m     = max_j z j  folded from minus infinity,
    e j   = exp (z j − m),
    a k   = (Σ_j e j · wh j k) / Σ_j e j,
    g k   = elu (elu (a k)),
    out q = Σ_k g k · w k q.
  These are the operations of the attention row (`Att.g`) in the same order, so the block's payload at an index is
  that function with no algebra: each stage is read at an index (a keepdims cast or broadcast reads the column's row
  entry, a lane maximum is the fold of `max` over the row, a lane sum the sum over the row, a product into the zero
  block the sum over the contracted axis). A point's block of rows is read off the whole arrays at rows
  `256 t + p`; every row lies in the block of point `row / 256`; so the output array is one function of the five arrays.
-/
import proofs.«109506_g1580547973939_cont_week2b_922_2_alg».proof.Proof.KI.R1
import proofs.«109506_g1580547973939_cont_week2b_922_2_alg».proof.Proof.Att.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

namespace V1

/-! ## Keepdims layout steps read at an index -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The attention chain, stage by stage -/

section Stages
variable (v0 : Vec Ideal S256x1 .f32) (v2 : Vec Ideal S1x8192 .f32) (v10 : Vec Ideal S256x8192 .f32) (v22 : Vec Ideal S8192x128 .f32)

/-- The sum of a row's first score and a column's second score, over the block. -/
def sumV : FVec Ideal S256x8192 .f32 :=
  addf (broadcastTo S256x8192 (shapeCast S256x1 v0 shapeCasts_S256x1_S256x1) broadcasts_S256x1_S256x8192)
    (broadcastTo S256x8192 (shapeCast S1x8192 v2 shapeCasts_S1x8192_S1x8192) broadcasts_S1x8192_S256x8192)

/-- The masked leaky scores of the block. -/
def zV : FVec Ideal S256x8192 .f32 :=
  select (cmpf .ogt v10 (broadcast S256x8192 (Scalar.ofBits (F := Ideal) .f32 0x00000000#32)))
    (maximumf (sumV v0 v2) (mulf (broadcast S256x8192 (Scalar.ofBits (F := Ideal) .f32 0x3E4CCCCD#32)) (sumV v0 v2)))
    (broadcast S256x8192 (Scalar.ofBits (F := Ideal) .f32 0xD9FFCB9E#32))

/-- Each row's maximum. -/
def mxV (z : FVec Ideal S256x8192 .f32) : FVec Ideal S256 .f32 :=
  multiReduction .maximumf [1] S256 z 0xFF800000#32 reduces_S256x8192_S256 (.inl rfl) rfl

/-- The exponentials of the scores less their row's maximum. -/
def pV (z : FVec Ideal S256x8192 .f32) : FVec Ideal S256x8192 .f32 :=
  exp (subf z (broadcastTo S256x8192 (shapeCast S256x1 (mxV z) shapeCasts_S256_S256x1) broadcasts_S256x1_S256x8192))

/-- Each row's sum of exponentials. -/
def dnV (e : FVec Ideal S256x8192 .f32) : FVec Ideal S256 .f32 :=
  multiReduction .add [1] S256 e 0x00000000#32 reduces_S256x8192_S256 (.inl rfl) rfl

/-- The exponentials' product with the features. -/
def mmV (e : FVec Ideal S256x8192 .f32) : FVec Ideal S256x128 .f32 :=
  matmul dot_S256x8192_S8192x128_S256x128_1_0_0_1_n_n none e (shapeCast S8192x128 v22 shapeCasts_S8192x128_S8192x128 : FVec Ideal S8192x128 .f32)
    (constant S256x128 .f32 0x00000000#32)

/-- That product divided by the row sums. -/
def awV (e : FVec Ideal S256x8192 .f32) : FVec Ideal S256x128 .f32 :=
  divf (mmV v22 e) (broadcastTo S256x128 (shapeCast S256x1 (dnV e) shapeCasts_S256_S256x1) broadcasts_S256x1_S256x128)

/-- The exponential-linear unit over a block. -/
def eluV (v : FVec Ideal S256x128 .f32) : FVec Ideal S256x128 .f32 :=
  select (cmpf .ogt v (broadcast S256x128 (Scalar.ofBits (F := Ideal) .f32 0x00000000#32))) v
    (subf (exp v) (broadcast S256x128 (Scalar.ofBits (F := Ideal) .f32 0x3F800000#32)))

/-- The body's attention payload is the composition of these stages. -/
theorem pay2_eq : k1_pay2 v0 v2 v10 v22 = eluV (eluV (awV v22 (pV (zV v0 v2 v10)))) := rfl

end Stages

/-! ## Each stage read at an index -/

theorem exp_apply {s : Shape} {φ : FTy} (a : FVec Ideal s φ) (i : s.Idx) : exp a i = Ideal.exp (a i) := rfl

/-- The source index over row `p` of the reduced block with lane `k` put back is `(p, k)`. -/
theorem lift_row (h : S256x8192.Reduces [1] S256) (p : Fin 256) (k : Fin 8192) : h.lift (ix1 p) k = ix2 p k :=
  funext fun a => Fin.ext (by
    match a with
    | ⟨0, _⟩ => rfl
    | ⟨1, _⟩ => rfl)

section StagesAt
variable (v0 : Vec Ideal S256x1 .f32) (v2 : Vec Ideal S1x8192 .f32) (v10 : Vec Ideal S256x8192 .f32) (v22 : Vec Ideal S8192x128 .f32)

theorem sumV_apply (p : Fin 256) (j : Fin 8192) :
    sumV v0 v2 (ix2 p j) = v0 (ix2 p (0 : Fin 1)) + v2 (ix2 (0 : Fin 1) j) := by
  unfold sumV
  rw [addf_apply, shapeCast_self, shapeCast_self, broadcastTo_a1_ab_apply, broadcastTo_1b_ab_apply]

theorem zV_apply (p : Fin 256) (j : Fin 8192) :
    zV v0 v2 v10 (ix2 p j)
      = Cert.Hand.Att.z (fun j => v10 (ix2 p j)) (v0 (ix2 p (0 : Fin 1))) (fun j => v2 (ix2 (0 : Fin 1) j)) j := by
  unfold zV Cert.Hand.Att.z Cert.Hand.Att.lrelu Cert.Hand.Att.zero Cert.Hand.Att.c02 Cert.Hand.Att.negBig
  rw [select_apply, cmpf_apply, maximumf_apply, mulf_apply, broadcast_apply, broadcast_apply, broadcast_apply, sumV_apply]
  rfl

theorem mxV_apply (z : FVec Ideal S256x8192 .f32) (zr : Fin 8192 → EReal) (p : Fin 256) (hz : ∀ j, z (ix2 p j) = zr j) :
    mxV z (ix1 p) = Cert.Hand.Att.rmax zr := by
  unfold mxV Cert.Hand.Att.rmax Cert.Hand.Att.ninf
  refine (Ideal.multiReduction_maximumf_single z 0xFF800000#32 reduces_S256x8192_S256 (.inl rfl) rfl (ix1 p)).trans ?_
  show (Finset.univ : Finset (Fin 8192)).fold max (Ideal.ofBits .f32 0xFF800000#32)
      (fun k => z (reduces_S256x8192_S256.lift (ix1 p) k)) = _
  exact congrArg (fun f => (Finset.univ : Finset (Fin 8192)).fold max (Ideal.ofBits .f32 0xFF800000#32) f)
    (funext fun (k : Fin 8192) => (congrArg z (lift_row reduces_S256x8192_S256 p k)).trans (hz k))

theorem pV_apply (z : FVec Ideal S256x8192 .f32) (zr : Fin 8192 → EReal) (p : Fin 256) (hz : ∀ j, z (ix2 p j) = zr j) (j : Fin 8192) :
    pV z (ix2 p j) = Cert.Hand.Att.p zr j := by
  unfold pV Cert.Hand.Att.p
  rw [exp_apply, subf_apply, broadcastTo_a1_ab_apply, shapeCast_a_a1_apply, mxV_apply z zr p hz, hz]

theorem dnV_apply (e : FVec Ideal S256x8192 .f32) (p : Fin 256) : dnV e (ix1 p) = ∑ j : Fin 8192, e (ix2 p j) := by
  unfold dnV
  refine (Ideal.multiReduction_add_single e 0x00000000#32 reduces_S256x8192_S256 (.inl rfl) rfl (ix1 p)).trans ?_
  exact Finset.sum_congr rfl fun k _ => congrArg e (lift_row _ p k)

end StagesAt

/-! ## The two matrix products read at an index

Each contracts the left operand's columns against the right operand's rows; the result's row is the left operand's,
its column the right operand's. -/

theorem lhs_att_0 (i : S256x128.Idx) (q : dot_S256x8192_S8192x128_S256x128_1_0_0_1_n_n.contr.Idx) :
    (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
theorem lhs_att_1 (i : S256x128.Idx) (q : dot_S256x8192_S8192x128_S256x128_1_0_0_1_n_n.contr.Idx) :
    (dot_S256x8192_S8192x128_S256x128_1_0_0_1_n_n.lhsIdx i q 1).val = (q ⟨0, by decide⟩).val :=
  dot_S256x8192_S8192x128_S256x128_1_0_0_1_n_n.lhsIdx_val_of_single rfl i q
theorem rhs_att_0 (i : S256x128.Idx) (q : dot_S256x8192_S8192x128_S256x128_1_0_0_1_n_n.contr.Idx) :
    (dot_S256x8192_S8192x128_S256x128_1_0_0_1_n_n.rhsIdx i q 0).val = (q ⟨0, by decide⟩).val :=
  dot_S256x8192_S8192x128_S256x128_1_0_0_1_n_n.rhsIdx_val_of_single rfl i q
theorem rhs_att_1 (i : S256x128.Idx) (q : dot_S256x8192_S8192x128_S256x128_1_0_0_1_n_n.contr.Idx) :
    (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

/-- A product into the zero block, at `(p, k)`: the sum over the 8192 columns. -/
theorem matmul_att_apply (e : FVec Ideal S256x8192 .f32) (w : FVec Ideal S8192x128 .f32) (p : Fin 256) (k : Fin 128) :
    matmul dot_S256x8192_S8192x128_S256x128_1_0_0_1_n_n none e w (constant (F := Ideal) S256x128 .f32 0x00000000#32) (ix2 p k)
      = ∑ j : Fin 8192, e (ix2 p j) * w (ix2 j k) := by
  simp only [matmul]
  rw [Ideal.matmul_constant_zero_apply, ← Equiv.sum_comp (contrEquiv1 dot_S256x8192_S8192x128_S256x128_1_0_0_1_n_n 8192 rfl rfl).symm]
  refine Finset.sum_congr rfl fun j _ => ?_
  have hk := contrEquiv1_symm_val dot_S256x8192_S8192x128_S256x128_1_0_0_1_n_n 8192 rfl rfl j
  have el : dot_S256x8192_S8192x128_S256x128_1_0_0_1_n_n.lhsIdx (ix2 p k) ((contrEquiv1 dot_S256x8192_S8192x128_S256x128_1_0_0_1_n_n 8192 rfl rfl).symm j) = ix2 p j := funext fun a => Fin.ext (by
    match a with
    | ⟨0, _⟩ => exact lhs_att_0 _ _
    | ⟨1, _⟩ => exact (lhs_att_1 _ _).trans hk)
  have er : dot_S256x8192_S8192x128_S256x128_1_0_0_1_n_n.rhsIdx (ix2 p k) ((contrEquiv1 dot_S256x8192_S8192x128_S256x128_1_0_0_1_n_n 8192 rfl rfl).symm j) = ix2 j k := funext fun a => Fin.ext (by
    match a with
    | ⟨0, _⟩ => exact (rhs_att_0 _ _).trans hk
    | ⟨1, _⟩ => exact rhs_att_1 _ _)
  rw [el, er]

theorem lhs_out_0 (i : S256x64.Idx) (q : dot_S256x128_S128x64_S256x64_1_0_0_1_n_n.contr.Idx) :
    (dot_S256x128_S128x64_S256x64_1_0_0_1_n_n.lhsIdx i q 0).val = (i 0).val := by
  unfold DotDims.lhsIdx
  rw [dif_neg (show ¬(0 : Fin S256x128.rank) ∈ dot_S256x128_S128x64_S256x64_1_0_0_1_n_n.lhsBatch by decide), dif_pos (show (0 : Fin S256x128.rank) ∈ dot_S256x128_S128x64_S256x64_1_0_0_1_n_n.lhsNonContracting by decide)]
  rfl
theorem lhs_out_1 (i : S256x64.Idx) (q : dot_S256x128_S128x64_S256x64_1_0_0_1_n_n.contr.Idx) :
    (dot_S256x128_S128x64_S256x64_1_0_0_1_n_n.lhsIdx i q 1).val = (q ⟨0, by decide⟩).val :=
  dot_S256x128_S128x64_S256x64_1_0_0_1_n_n.lhsIdx_val_of_single rfl i q
theorem rhs_out_0 (i : S256x64.Idx) (q : dot_S256x128_S128x64_S256x64_1_0_0_1_n_n.contr.Idx) :
    (dot_S256x128_S128x64_S256x64_1_0_0_1_n_n.rhsIdx i q 0).val = (q ⟨0, by decide⟩).val :=
  dot_S256x128_S128x64_S256x64_1_0_0_1_n_n.rhsIdx_val_of_single rfl i q
theorem rhs_out_1 (i : S256x64.Idx) (q : dot_S256x128_S128x64_S256x64_1_0_0_1_n_n.contr.Idx) :
    (dot_S256x128_S128x64_S256x64_1_0_0_1_n_n.rhsIdx i q 1).val = (i 1).val := by
  unfold DotDims.rhsIdx
  rw [dif_neg (show ¬(1 : Fin S128x64.rank) ∈ dot_S256x128_S128x64_S256x64_1_0_0_1_n_n.rhsBatch by decide), dif_pos (show (1 : Fin S128x64.rank) ∈ dot_S256x128_S128x64_S256x64_1_0_0_1_n_n.rhsNonContracting by decide)]
  rfl

/-- The last product, at `(p, q)`: the sum over the 128 feature columns. -/
theorem matmul_out_apply (g : FVec Ideal S256x128 .f32) (w : FVec Ideal S128x64 .f32) (p : Fin 256) (q : Fin 64) :
    matmul dot_S256x128_S128x64_S256x64_1_0_0_1_n_n none g w (constant (F := Ideal) S256x64 .f32 0x00000000#32) (ix2 p q)
      = ∑ k : Fin 128, g (ix2 p k) * w (ix2 k q) := by
  simp only [matmul]
  rw [Ideal.matmul_constant_zero_apply, ← Equiv.sum_comp (contrEquiv1 dot_S256x128_S128x64_S256x64_1_0_0_1_n_n 128 rfl rfl).symm]
  refine Finset.sum_congr rfl fun k _ => ?_
  have hk := contrEquiv1_symm_val dot_S256x128_S128x64_S256x64_1_0_0_1_n_n 128 rfl rfl k
  have el : dot_S256x128_S128x64_S256x64_1_0_0_1_n_n.lhsIdx (ix2 p q) ((contrEquiv1 dot_S256x128_S128x64_S256x64_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S256x128_S128x64_S256x64_1_0_0_1_n_n.rhsIdx (ix2 p q) ((contrEquiv1 dot_S256x128_S128x64_S256x64_1_0_0_1_n_n 128 rfl rfl).symm k) = ix2 k q := funext fun a => Fin.ext (by
    match a with
    | ⟨0, _⟩ => exact (rhs_out_0 _ _).trans hk
    | ⟨1, _⟩ => exact rhs_out_1 _ _)
  rw [el, er]

section Payloads
variable (v0 : Vec Ideal S256x1 .f32) (v2 : Vec Ideal S1x8192 .f32) (v10 : Vec Ideal S256x8192 .f32) (v22 : Vec Ideal S8192x128 .f32)

theorem mmV_apply (e : FVec Ideal S256x8192 .f32) (p : Fin 256) (k : Fin 128) :
    mmV v22 e (ix2 p k) = ∑ j : Fin 8192, e (ix2 p j) * v22 (ix2 j k) := by
  unfold mmV
  rw [shapeCast_self]
  exact matmul_att_apply e v22 p k

theorem awV_apply (e : FVec Ideal S256x8192 .f32) (p : Fin 256) (k : Fin 128) :
    awV v22 e (ix2 p k) = Ideal.div (∑ j : Fin 8192, e (ix2 p j) * v22 (ix2 j k)) (∑ j : Fin 8192, e (ix2 p j)) := by
  unfold awV
  rw [divf_apply, mmV_apply, broadcastTo_a1_ab_apply, shapeCast_a_a1_apply, dnV_apply]

theorem eluV_apply (v : FVec Ideal S256x128 .f32) (i : S256x128.Idx) : eluV v i = Cert.Hand.Att.elu (v i) := rfl

/-- THE ATTENTION PAYLOAD AT AN INDEX: row `p` of the block, feature `k`, is the attention row's result on that row's
    adjacency entries and first score, the second scores and the features. -/
theorem pay2_apply (p : Fin 256) (k : Fin 128) :
    k1_pay2 v0 v2 v10 v22 (ix2 p k)
      = Cert.Hand.Att.g (fun j => v10 (ix2 p j)) (v0 (ix2 p (0 : Fin 1))) (fun j => v2 (ix2 (0 : Fin 1) j)) (fun j k => v22 (ix2 j k)) k := by
  have hp : ∀ j, pV (zV v0 v2 v10) (ix2 p j)
      = Cert.Hand.Att.p (Cert.Hand.Att.z (fun j => v10 (ix2 p j)) (v0 (ix2 p (0 : Fin 1))) (fun j => v2 (ix2 (0 : Fin 1) j))) j :=
    fun j => pV_apply (zV v0 v2 v10) _ p (zV_apply v0 v2 v10 p) j
  rw [pay2_eq, eluV_apply, eluV_apply, awV_apply]
  simp only [hp]
  rfl

/-- THE BODY'S RESULT AT AN INDEX: the attention row's result times the weights, summed over the 128 features. -/
theorem pay1_apply (g : FVec Ideal S256x128 .f32) (w : Vec Ideal S128x64 .f32) (p : Fin 256) (q : Fin 64) :
    k1_pay1 g w (ix2 p q) = ∑ k : Fin 128, g (ix2 p k) * w (ix2 k q) := by
  unfold k1_pay1
  exact matmul_out_apply g w p q

end Payloads

/-! ## From blocks to the array

Grid point `t` works on rows `256 t … 256 t + 255`: it reads those rows of the adjacency and of the first scores, and the
whole of the features, the second scores and the weights; what it writes back is those rows of one function of the
five arrays. -/

section Final

/-- Row `r`, column `q` of the call's result from the five whole arrays: the attention row's result on row `r` of the
    adjacency and of the first scores, times column `q` of the weights, summed over the 128 features. -/
def rowOut (A : S8192x8192.Idx → EReal) (WH : S8192x128.Idx → EReal) (S1 : S8192x1.Idx → EReal) (S2 : S1x8192.Idx → EReal)
    (W : S128x64.Idx → EReal) (r : Fin 8192) (q : Fin 64) : EReal :=
  ∑ k : Fin 128, Cert.Hand.Att.g (fun j => A (ix2 r j)) (S1 (ix2 r (0 : Fin 1))) (fun j => S2 (ix2 (0 : Fin 1) j))
    (fun j k => WH (ix2 j k)) k * W (ix2 k q)

/-- The whole result array. -/
def G1 (A : S8192x8192.Idx → EReal) (WH : S8192x128.Idx → EReal) (S1 : S8192x1.Idx → EReal) (S2 : S1x8192.Idx → EReal)
    (W : S128x64.Idx → EReal) : S8192x64.Idx → EReal :=
  fun i => rowOut A WH S1 S2 W ⟨(i 0).val, idx2_lt0 i⟩ ⟨(i 1).val, idx2_lt1 i⟩

theorem G1_apply_of (A : S8192x8192.Idx → EReal) (WH : S8192x128.Idx → EReal) (S1 : S8192x1.Idx → EReal) (S2 : S1x8192.Idx → EReal)
    (W : S128x64.Idx → EReal) (i : S8192x64.Idx) (r : Fin 8192) (q : Fin 64) (h0 : (i 0).val = r.val) (h1 : (i 1).val = q.val) :
    G1 A WH S1 S2 W i = rowOut A WH S1 S2 W r q := by
  have e0 : (⟨(i 0).val, idx2_lt0 i⟩ : Fin 8192) = r := Fin.ext h0
  have e1 : (⟨(i 1).val, idx2_lt1 i⟩ : Fin 64) = q := Fin.ext h1
  show rowOut A WH S1 S2 W ⟨(i 0).val, idx2_lt0 i⟩ ⟨(i 1).val, idx2_lt1 i⟩ = _
  rw [e0, e1]

theorem hz : (![0, 0] : Fin 2 → Nat) = fun _ => 0 := funext fun a => by fin_cases a <;> rfl

/-- The body's one store of the whole block, at `(p, q)`, from the five loaded blocks. -/
theorem out1_5_apply (x0 : Vec Ideal S256x8192 .f32) (x1 : Vec Ideal S8192x128 .f32) (x2 : Vec Ideal S256x1 .f32)
    (x3 : Vec Ideal S1x8192 .f32) (x4 : Vec Ideal S128x64 .f32) (p : Fin 256) (q : Fin 64) :
    out1_5 x0 x1 x2 x3 x4 (ix2 p q)
      = ∑ k : Fin 128, Cert.Hand.Att.g (fun j => x0 (ix2 p j)) (x2 (ix2 p (0 : Fin 1))) (fun j => x3 (ix2 (0 : Fin 1) j))
          (fun j k => x1 (ix2 j k)) k * x4 (ix2 k q) := by
  unfold out1_5
  rw [View.canon_unit_zero hz]
  simp only [View.ld_unit_zero (S := S256x8192) hz, View.ld_unit_zero (S := S8192x128) hz, View.ld_unit_zero (S := S256x1) hz,
    View.ld_unit_zero (S := S1x8192) hz, View.ld_unit_zero (S := S128x64) hz]
  rw [pay1_apply]
  simp only [pay2_apply]

/-- The same with each block's entries named as entries of whole arrays. -/
theorem out1_5_apply_of (x0 : Vec Ideal S256x8192 .f32) (x1 : Vec Ideal S8192x128 .f32) (x2 : Vec Ideal S256x1 .f32)
    (x3 : Vec Ideal S1x8192 .f32) (x4 : Vec Ideal S128x64 .f32)
    (A : S8192x8192.Idx → EReal) (WH : S8192x128.Idx → EReal) (S1 : S8192x1.Idx → EReal) (S2 : S1x8192.Idx → EReal)
    (W : S128x64.Idx → EReal) (p : Fin 256) (q : Fin 64) (r : Fin 8192)
    (h0 : ∀ j : Fin 8192, x0 (ix2 p j) = A (ix2 r j)) (h1 : ∀ (j : Fin 8192) (k : Fin 128), x1 (ix2 j k) = WH (ix2 j k))
    (h2 : x2 (ix2 p (0 : Fin 1)) = S1 (ix2 r (0 : Fin 1))) (h3 : ∀ j : Fin 8192, x3 (ix2 (0 : Fin 1) j) = S2 (ix2 (0 : Fin 1) j))
    (h4 : ∀ k : Fin 128, x4 (ix2 k q) = W (ix2 k q)) :
    out1_5 x0 x1 x2 x3 x4 (ix2 p q) = rowOut A WH S1 S2 W r q := by
  rw [out1_5_apply]
  unfold rowOut
  simp only [h0, h1, h2, h3, h4]

variable (V : (c : Dev nD) → (b : Ref sig .tc) → Buf (Elt Ideal) ((c : Thread nD τ).loc b))

/-- The index maps over the grid: the adjacency's, the first scores' and the output's blocks move down one block of
    rows per point; the features, the second scores and the weights stay whole. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The adjacency block at point `t` holds rows `256 t …` of the adjacency. -/
theorem iblk1_0_apply (c : Dev nD) (t : Fin cfg1.N) (p : Fin 256) (r : Fin 8192) (hr : r.val = 256 * t.val + p.val) (j : Fin 8192) :
    (iblk1 V c 0 t : Vec Ideal S256x8192 .f32) (ix2 p j) = (V c main_arg1 : S8192x8192.Idx → EReal) (ix2 r j) := by
  obtain ⟨e0, e1, -⟩ := idx_facts1 t
  unfold iblk1
  rw [View.read_apply]
  show V c main_arg1 _ = V c main_arg1 _
  congr 1
  funext a; apply Fin.ext
  match a with
  | ⟨0, _⟩ => show win1_0.index t (0 : Fin 2) * 256 + 1 * p.val = r.val; rw [e0, hr]; omega
  | ⟨1, _⟩ => show win1_0.index t (1 : Fin 2) * 8192 + 1 * j.val = j.val; rw [e1]; omega

/-- The feature block is the whole feature array. -/
theorem iblk1_1_apply (c : Dev nD) (t : Fin cfg1.N) (j : Fin 8192) (k : Fin 128) :
    (iblk1 V c 1 t : Vec Ideal S8192x128 .f32) (ix2 j k) = (V c main_v2_0 : S8192x128.Idx → EReal) (ix2 j k) := by
  obtain ⟨-, -, e0, e1, -⟩ := idx_facts1 t
  unfold iblk1
  rw [View.read_apply]
  show V c main_v2_0 _ = V c main_v2_0 _
  congr 1
  funext a; apply Fin.ext
  match a with
  | ⟨0, _⟩ => show win1_1.index t (0 : Fin 2) * 8192 + 1 * j.val = j.val; rw [e0]; omega
  | ⟨1, _⟩ => show win1_1.index t (1 : Fin 2) * 128 + 1 * k.val = k.val; rw [e1]; omega

/-- The first-score block at point `t` holds rows `256 t …` of the first scores. -/
theorem iblk1_2_apply (c : Dev nD) (t : Fin cfg1.N) (p : Fin 256) (r : Fin 8192) (hr : r.val = 256 * t.val + p.val) (u : Fin 1) :
    (iblk1 V c 2 t : Vec Ideal S256x1 .f32) (ix2 p u) = (V c main_v2_1 : S8192x1.Idx → EReal) (ix2 r u) := by
  obtain ⟨-, -, -, -, e0, e1, -⟩ := idx_facts1 t
  unfold iblk1
  rw [View.read_apply]
  show V c main_v2_1 _ = V c main_v2_1 _
  congr 1
  funext a; apply Fin.ext
  match a with
  | ⟨0, _⟩ => show win1_2.index t (0 : Fin 2) * 256 + 1 * p.val = r.val; rw [e0, hr]; omega
  | ⟨1, _⟩ => show win1_2.index t (1 : Fin 2) * 1 + 1 * u.val = u.val; rw [e1]; omega

/-- The second-score block is the whole second-score row. -/
theorem iblk1_3_apply (c : Dev nD) (t : Fin cfg1.N) (u : Fin 1) (j : Fin 8192) :
    (iblk1 V c 3 t : Vec Ideal S1x8192 .f32) (ix2 u j) = (V c main_v3 : S1x8192.Idx → EReal) (ix2 u j) := by
  obtain ⟨-, -, -, -, -, -, e0, e1, -⟩ := idx_facts1 t
  unfold iblk1
  rw [View.read_apply]
  show V c main_v3 _ = V c main_v3 _
  congr 1
  funext a; apply Fin.ext
  match a with
  | ⟨0, _⟩ => show win1_3.index t (0 : Fin 2) * 1 + 1 * u.val = u.val; rw [e0]; omega
  | ⟨1, _⟩ => show win1_3.index t (1 : Fin 2) * 8192 + 1 * j.val = j.val; rw [e1]; omega

/-- The weight block is the whole weight array. -/
theorem iblk1_4_apply (c : Dev nD) (t : Fin cfg1.N) (k : Fin 128) (q : Fin 64) :
    (iblk1 V c 4 t : Vec Ideal S128x64 .f32) (ix2 k q) = (V c main_arg4 : S128x64.Idx → EReal) (ix2 k q) := by
  obtain ⟨-, -, -, -, -, -, -, -, e0, e1, -⟩ := idx_facts1 t
  unfold iblk1
  rw [View.read_apply]
  show V c main_arg4 _ = V c main_arg4 _
  congr 1
  funext a; apply Fin.ext
  match a with
  | ⟨0, _⟩ => show win1_4.index t (0 : Fin 2) * 128 + 1 * k.val = k.val; rw [e0]; omega
  | ⟨1, _⟩ => show win1_4.index t (1 : Fin 2) * 64 + 1 * q.val = q.val; rw [e1]; omega

/-- The result array as a function of the arrays the call is entered with. -/
abbrev res1 (c : Dev nD) : S8192x64.Idx → EReal :=
  G1 (V c main_arg1) (V c main_v2_0) (V c main_v2_1) (V c main_v3) (V c main_arg4)

/-- WHAT POINT `t` WRITES BACK is block `t` of that function. -/
theorem flushed1_5_eq (c : Dev nD) (t : Fin cfg1.N) :
    (dat1 (F := Ideal) V c).flushed 5 t = ((cfg1.win 5).blk t).view.read (Elt Ideal) (res1 V c) := by
  show (cfg1.win 5).cut (grid1.coords t) ((dat1 (F := Ideal) V c).after 5 t) = _
  rw [after1_5]
  funext y
  obtain ⟨p, q, rfl⟩ : ∃ (p : Fin 256) (q : Fin 64), y = ix2 p q := ⟨y 0, y 1, eq_ix2 y⟩
  have ht : t.val < grid1.N := t.isLt
  rw [N_1] at ht
  obtain ⟨-, -, -, -, -, -, -, -, -, -, e0, e1⟩ := idx_facts1 t
  have hr : 256 * t.val + p.val < 8192 := by have := p.isLt; omega
  show out1_5 (iblk1 V c 0 t) (iblk1 V c 1 t) (iblk1 V c 2 t) (iblk1 V c 3 t) (iblk1 V c 4 t) (ix2 p q)
    = res1 V c (((cfg1.win 5).blk t).view.emb (ix2 p q))
  refine (out1_5_apply_of (iblk1 V c 0 t) (iblk1 V c 1 t) (iblk1 V c 2 t) (iblk1 V c 3 t) (iblk1 V c 4 t)
    (V c main_arg1) (V c main_v2_0) (V c main_v2_1) (V c main_v3) (V c main_arg4) p q ⟨256 * t.val + p.val, hr⟩
    (iblk1_0_apply V c t p ⟨256 * t.val + p.val, hr⟩ rfl) (iblk1_1_apply V c t)
    (iblk1_2_apply V c t p ⟨256 * t.val + p.val, hr⟩ rfl 0) (iblk1_3_apply V c t 0) (fun k => iblk1_4_apply V c t k q)).trans ?_
  refine (G1_apply_of (V c main_arg1) (V c main_v2_0) (V c main_v2_1) (V c main_v3) (V c main_arg4)
    (((cfg1.win 5).blk t).view.emb (ix2 p q)) ⟨256 * t.val + p.val, hr⟩ q ?_ ?_).symm
  · show win1_5.index t (0 : Fin 2) * 256 + 1 * p.val = 256 * t.val + p.val
    rw [e0]; omega
  · show win1_5.index t (1 : Fin 2) * 64 + 1 * q.val = q.val
    rw [e1]; omega

/-- An index of the array is in point `t`'s block iff each coordinate is in the block's range on its axis. -/
theorem mem_blk1_5 (t : Fin cfg1.N) (i : S8192x64.Idx) :
    i ∈ ((cfg1.win 5).blk t).view.set ↔ ∀ a : Fin 2, win1_5.index t a * S256x64.size a ≤ (i a).val ∧ (i a).val < win1_5.index t a * S256x64.size a + S256x64.size a := by
  show i ∈ ((View.whole main_v4).slice (win1_5.rect t)).set ↔ _
  rw [View.set_slice_whole, Rect.mem_set_unit]
  exact Iff.rfl

/-- Row `r` is in the block of point `r / 256`, and every point writes its block back. -/
theorem covered1_5 (i : S8192x64.Idx) :
    ∃ t : Fin cfg1.N, (cfg1.win 5).flush t = true ∧ i ∈ ((cfg1.win 5).blk t).view.set := by
  have hi0 : (i 0).val < 8192 := idx2_lt0 i
  have hi1 : (i 1).val < 64 := idx2_lt1 i
  have hN : grid1.N = 32 := N_1
  have htN : (i 0).val / 256 < grid1.N := by rw [hN]; omega
  obtain ⟨-, -, -, -, -, -, -, -, -, -, e0, e1⟩ := idx_facts1 ⟨(i 0).val / 256, htN⟩
  refine ⟨⟨(i 0).val / 256, htN⟩, flush1_5 _, ?_⟩
  rw [mem_blk1_5]
  intro a
  match a with
  | ⟨0, _⟩ =>
    show win1_5.index ⟨(i 0).val / 256, htN⟩ (0 : Fin 2) * 256 ≤ (i 0).val ∧ (i 0).val < win1_5.index ⟨(i 0).val / 256, htN⟩ (0 : Fin 2) * 256 + 256
    rw [e0]; show (i 0).val / 256 * 256 ≤ (i 0).val ∧ (i 0).val < (i 0).val / 256 * 256 + 256; omega
  | ⟨1, _⟩ =>
    show win1_5.index ⟨(i 0).val / 256, htN⟩ (1 : Fin 2) * 64 ≤ (i 1).val ∧ (i 1).val < win1_5.index ⟨(i 0).val / 256, htN⟩ (1 : Fin 2) * 64 + 64
    rw [e1]; omega

/-- THE ARRAY after the whole grid has run. -/
theorem arr1_5_eq (c : Dev nD) : (dat1 (F := Ideal) V c).arrAt 5 cfg1.N = res1 V c :=
  (dat1 (F := Ideal) V c).arrAt_eq_of_cover 5 (res1 V c) (fun t _ => flushed1_5_eq V c t) covered1_5

end Final

end V1

/-- THE CALL'S OUTPUT AT AN INDEX: row `i`, column `q` is the attention row's result on row `i` of the adjacency and of the
    first scores, with the second scores and the features, times column `q` of the weights, summed over the 128 features. -/
theorem final1_5 (V : (c : Dev nD) → (b : Ref sig .tc) → Buf (Elt Ideal) ((c : Thread nD τ).loc b)) (c : Dev nD)
    (i : Fin 8192) (q : Fin 64) :
    (dat1 (F := Ideal) V c).arrAt 5 cfg1.N (ix2 i q)
      = ∑ k : Fin 128, Cert.Hand.Att.g (fun j => (V c main_arg1) (ix2 i j)) ((V c main_v2_1) (ix2 i (0 : Fin 1)))
          (fun j => (V c main_v3) (ix2 (0 : Fin 1) j)) (fun j k => (V c main_v2_0) (ix2 j k)) k * (V c main_arg4) (ix2 k q) := by
  rw [V1.arr1_5_eq]
  rfl

end Cert.KernelIdeal.HandVal

end
-- ==== Proof.KV.Val2.lean ====
/-
  The value of the first graph-convolution call's output array after its whole grid has run, at the exact
  (extended-real) reading of the floats.  The call walks the 8192 rows of the adjacency A in 16 blocks of 512
  rows; at row block t it multiplies rows 512 t … 512 t + 511 of A by the whole 8192 × 64 support S, takes the
  maximum with 0 entry by entry, multiplies the 512 × 64 result by the whole 64 × 128 weights W and stores the
  512 × 128 block.  Read here: each of the two products entry by entry, the block's entry
  ∑ k, max (∑ j, A[p, j] · S[j, k]) 0 · W[k, q], the block each point writes back as the corresponding rows of the
  one array  max(A S, 0) W,  the sixteen row blocks tiling the output, and so the output array after the last
  point: it is max(A S, 0) W.
-/
import proofs.«109506_g1580547973939_cont_week2b_922_2_alg».proof.Proof.KI.R2
import Idealize.ShloMosaic.Lib.ValueIdx
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-- The zero offsets of a whole-block rectangle. -/
theorem hz2 : (![0, 0] : Fin 2 → Nat) = fun _ => 0 := funext fun a => by fin_cases a <;> rfl

/-! ## The first product's operand indices (adjacency block times support), axis by axis -/

/-- Left operand of the first product, row axis: the output's row. -/
theorem lhs2a_0 (i : S512x64.Idx) (q : dot_S512x8192_S8192x64_S512x64_1_0_0_1_n_n.contr.Idx) :
    (dot_S512x8192_S8192x64_S512x64_1_0_0_1_n_n.lhsIdx i q 0).val = (i 0).val := by
  unfold DotDims.lhsIdx
  rw [dif_neg (show ¬(0 : Fin S512x8192.rank) ∈ dot_S512x8192_S8192x64_S512x64_1_0_0_1_n_n.lhsBatch by decide), dif_pos (show (0 : Fin S512x8192.rank) ∈ dot_S512x8192_S8192x64_S512x64_1_0_0_1_n_n.lhsNonContracting by decide)]
  rfl
/-- Left operand of the first product, column axis: the summation index. -/
theorem lhs2a_1 (i : S512x64.Idx) (q : dot_S512x8192_S8192x64_S512x64_1_0_0_1_n_n.contr.Idx) :
    (dot_S512x8192_S8192x64_S512x64_1_0_0_1_n_n.lhsIdx i q 1).val = (q ⟨0, by decide⟩).val :=
  dot_S512x8192_S8192x64_S512x64_1_0_0_1_n_n.lhsIdx_val_of_single rfl i q
/-- Right operand of the first product, row axis: the summation index. -/
theorem rhs2a_0 (i : S512x64.Idx) (q : dot_S512x8192_S8192x64_S512x64_1_0_0_1_n_n.contr.Idx) :
    (dot_S512x8192_S8192x64_S512x64_1_0_0_1_n_n.rhsIdx i q 0).val = (q ⟨0, by decide⟩).val :=
  dot_S512x8192_S8192x64_S512x64_1_0_0_1_n_n.rhsIdx_val_of_single rfl i q
/-- Right operand of the first product, column axis: the output's column. -/
theorem rhs2a_1 (i : S512x64.Idx) (q : dot_S512x8192_S8192x64_S512x64_1_0_0_1_n_n.contr.Idx) :
    (dot_S512x8192_S8192x64_S512x64_1_0_0_1_n_n.rhsIdx i q 1).val = (i 1).val := by
  unfold DotDims.rhsIdx
  rw [dif_neg (show ¬(1 : Fin S8192x64.rank) ∈ dot_S512x8192_S8192x64_S512x64_1_0_0_1_n_n.rhsBatch by decide), dif_pos (show (1 : Fin S8192x64.rank) ∈ dot_S512x8192_S8192x64_S512x64_1_0_0_1_n_n.rhsNonContracting by decide)]
  rfl

/-! ## The second product's operand indices (hidden block times weights), axis by axis -/

/-- Left operand of the second product, row axis: the output's row. -/
theorem lhs2b_0 (i : S512x128.Idx) (q : dot_S512x64_S64x128_S512x128_1_0_0_1_n_n.contr.Idx) :
    (dot_S512x64_S64x128_S512x128_1_0_0_1_n_n.lhsIdx i q 0).val = (i 0).val := by
  unfold DotDims.lhsIdx
  rw [dif_neg (show ¬(0 : Fin S512x64.rank) ∈ dot_S512x64_S64x128_S512x128_1_0_0_1_n_n.lhsBatch by decide), dif_pos (show (0 : Fin S512x64.rank) ∈ dot_S512x64_S64x128_S512x128_1_0_0_1_n_n.lhsNonContracting by decide)]
  rfl
/-- Left operand of the second product, column axis: the summation index. -/
theorem lhs2b_1 (i : S512x128.Idx) (q : dot_S512x64_S64x128_S512x128_1_0_0_1_n_n.contr.Idx) :
    (dot_S512x64_S64x128_S512x128_1_0_0_1_n_n.lhsIdx i q 1).val = (q ⟨0, by decide⟩).val :=
  dot_S512x64_S64x128_S512x128_1_0_0_1_n_n.lhsIdx_val_of_single rfl i q
/-- Right operand of the second product, row axis: the summation index. -/
theorem rhs2b_0 (i : S512x128.Idx) (q : dot_S512x64_S64x128_S512x128_1_0_0_1_n_n.contr.Idx) :
    (dot_S512x64_S64x128_S512x128_1_0_0_1_n_n.rhsIdx i q 0).val = (q ⟨0, by decide⟩).val :=
  dot_S512x64_S64x128_S512x128_1_0_0_1_n_n.rhsIdx_val_of_single rfl i q
/-- Right operand of the second product, column axis: the output's column. -/
theorem rhs2b_1 (i : S512x128.Idx) (q : dot_S512x64_S64x128_S512x128_1_0_0_1_n_n.contr.Idx) :
    (dot_S512x64_S64x128_S512x128_1_0_0_1_n_n.rhsIdx i q 1).val = (i 1).val := by
  unfold DotDims.rhsIdx
  rw [dif_neg (show ¬(1 : Fin S64x128.rank) ∈ dot_S512x64_S64x128_S512x128_1_0_0_1_n_n.rhsBatch by decide), dif_pos (show (1 : Fin S64x128.rank) ∈ dot_S512x64_S64x128_S512x128_1_0_0_1_n_n.rhsNonContracting by decide)]
  rfl

/-- The first product at row p, column q: row p of the adjacency block times column q of the support. -/
theorem mm2a_apply (x : FVec Ideal S512x8192 .f32) (y : FVec Ideal S8192x64 .f32) (p : Fin 512) (q : Fin 64) :
    FloatOps.matmul dot_S512x8192_S8192x64_S512x64_1_0_0_1_n_n none x y (constant S512x64 .f32 0x00000000#32) (ix2 p q)
      = ∑ k : Fin 8192, x (ix2 p k) * y (ix2 k q) := by
  rw [Ideal.matmul_constant_zero_apply, ← Equiv.sum_comp (contrEquiv1 dot_S512x8192_S8192x64_S512x64_1_0_0_1_n_n 8192 rfl rfl).symm]
  refine Finset.sum_congr rfl fun k _ => ?_
  have hk := contrEquiv1_symm_val dot_S512x8192_S8192x64_S512x64_1_0_0_1_n_n 8192 rfl rfl k
  have el : dot_S512x8192_S8192x64_S512x64_1_0_0_1_n_n.lhsIdx (ix2 p q) ((contrEquiv1 dot_S512x8192_S8192x64_S512x64_1_0_0_1_n_n 8192 rfl rfl).symm k) = ix2 p k := funext fun a => Fin.ext (by
    match a with
    | ⟨0, _⟩ => exact lhs2a_0 _ _
    | ⟨1, _⟩ => exact (lhs2a_1 _ _).trans hk)
  have er : dot_S512x8192_S8192x64_S512x64_1_0_0_1_n_n.rhsIdx (ix2 p q) ((contrEquiv1 dot_S512x8192_S8192x64_S512x64_1_0_0_1_n_n 8192 rfl rfl).symm k) = ix2 k q := funext fun a => Fin.ext (by
    match a with
    | ⟨0, _⟩ => exact (rhs2a_0 _ _).trans hk
    | ⟨1, _⟩ => exact rhs2a_1 _ _)
  rw [el, er]

/-- The second product at row p, column q: row p of the hidden block times column q of the weights. -/
theorem mm2b_apply (x : FVec Ideal S512x64 .f32) (y : FVec Ideal S64x128 .f32) (p : Fin 512) (q : Fin 128) :
    FloatOps.matmul dot_S512x64_S64x128_S512x128_1_0_0_1_n_n none x y (constant S512x128 .f32 0x00000000#32) (ix2 p q)
      = ∑ k : Fin 64, x (ix2 p k) * y (ix2 k q) := by
  rw [Ideal.matmul_constant_zero_apply, ← Equiv.sum_comp (contrEquiv1 dot_S512x64_S64x128_S512x128_1_0_0_1_n_n 64 rfl rfl).symm]
  refine Finset.sum_congr rfl fun k _ => ?_
  have hk := contrEquiv1_symm_val dot_S512x64_S64x128_S512x128_1_0_0_1_n_n 64 rfl rfl k
  have el : dot_S512x64_S64x128_S512x128_1_0_0_1_n_n.lhsIdx (ix2 p q) ((contrEquiv1 dot_S512x64_S64x128_S512x128_1_0_0_1_n_n 64 rfl rfl).symm k) = ix2 p k := funext fun a => Fin.ext (by
    match a with
    | ⟨0, _⟩ => exact lhs2b_0 _ _
    | ⟨1, _⟩ => exact (lhs2b_1 _ _).trans hk)
  have er : dot_S512x64_S64x128_S512x128_1_0_0_1_n_n.rhsIdx (ix2 p q) ((contrEquiv1 dot_S512x64_S64x128_S512x128_1_0_0_1_n_n 64 rfl rfl).symm k) = ix2 k q := funext fun a => Fin.ext (by
    match a with
    | ⟨0, _⟩ => exact (rhs2b_0 _ _).trans hk
    | ⟨1, _⟩ => exact rhs2b_1 _ _)
  rw [el, er]

/-- The body's result block at row p, column q: the rectified product of the adjacency block and the support,
    times the weights. -/
theorem k2_pay1_apply (x0 : Vec Ideal S512x8192 .f32) (x1 : Vec Ideal S8192x64 .f32) (x2 : Vec Ideal S64x128 .f32)
    (p : Fin 512) (q : Fin 128) :
    k2_pay1 (F := Ideal) x0 x1 x2 (ix2 p q)
      = ∑ k : Fin 64, max (∑ j : Fin 8192, x0 (ix2 p j) * x1 (ix2 j k)) 0 * x2 (ix2 k q) := by
  unfold k2_pay1
  simp only [matmul, shapeCast_self]
  refine (mm2b_apply _ x2 p q).trans ?_
  refine Finset.sum_congr rfl fun k _ => ?_
  rw [maximumf_apply, broadcast_apply, mm2a_apply x0 x1 p k]
  show max _ (Ideal.ofBits .f32 0x00000000#32) * _ = _
  rw [Ideal.ofBits_zero_f32]

/-! ## From the blocks to the array -/

variable (V : (c : Dev nD) → (b : Ref sig .tc) → Buf (Elt Ideal) ((c : Thread nD τ).loc b))

/-- The adjacency, as the call finds it. -/
abbrev adj2 (c : Dev nD) : Vec Ideal S8192x8192 .f32 := V c main_arg1
/-- The first layer's support, as the call finds it. -/
abbrev sup2 (c : Dev nD) : Vec Ideal S8192x64 .f32 := V c main_v4
/-- The second layer's joined weights, as the call finds them. -/
abbrev wts2 (c : Dev nD) : Vec Ideal S64x128 .f32 := V c main_v5

/-- What the call leaves in its output array: max(A S, 0) W, entry by entry. -/
abbrev G2 (a : Vec Ideal S8192x8192 .f32) (s : Vec Ideal S8192x64 .f32) (w : Vec Ideal S64x128 .f32) :
    Vec Ideal S8192x128 .f32 :=
  fun i => ∑ k : Fin 64, max (∑ j : Fin 8192, a (ix2 (⟨(i 0).val, idx2_lt0 i⟩ : Fin 8192) j) * s (ix2 j k)) 0
    * w (ix2 k (⟨(i 1).val, idx2_lt1 i⟩ : Fin 128))

/-- The block indices over the grid: the adjacency's and the output's row block is the point, every column block
    and the blocks of the support and of the weights are block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Point t writes back rows 512 t … 512 t + 511 of max(A S, 0) W. -/
theorem flushed2_eq (c : Dev nD) (t : Fin cfg2.N) :
    (dat2 (F := Ideal) V c).flushed 3 t
      = ((cfg2.win 3).blk t).view.read (Elt Ideal) (G2 (adj2 V c) (sup2 V c) (wts2 V c)) := by
  show (cfg2.win 3).cut (grid2.coords t) ((dat2 (F := Ideal) V c).after 3 t) = _
  rw [after2_3]
  unfold out2_3
  rw [View.canon_unit_zero hz2]
  simp only [View.ld_unit_zero (S := S512x8192) hz2, View.ld_unit_zero (S := S8192x64) hz2, View.ld_unit_zero (S := S64x128) hz2]
  obtain ⟨e00, e01, e10, e11, e20, e21, e30, e31⟩ := idx_facts2 t
  funext y
  obtain ⟨p, q, rfl⟩ : ∃ (p : Fin 512) (q : Fin 128), y = ix2 p q := ⟨y 0, y 1, eq_ix2 y⟩
  refine (k2_pay1_apply (iblk2 V c 0 t) (iblk2 V c 1 t) (iblk2 V c 2 t) p q).trans ?_
  show _ = ∑ k : Fin 64, max (∑ j : Fin 8192, adj2 V c (ix2 (⟨((((cfg2.win 3).blk t).view.emb (ix2 p q)) 0).val, idx2_lt0 _⟩ : Fin 8192) j) * sup2 V c (ix2 j k)) 0
      * wts2 V c (ix2 k (⟨((((cfg2.win 3).blk t).view.emb (ix2 p q)) 1).val, idx2_lt1 _⟩ : Fin 128))
  refine Finset.sum_congr rfl fun k _ => ?_
  have h0 : ∀ j : Fin 8192, (((cfg2.win 0).blk t).view.emb (ix2 p j) : S8192x8192.Idx) = ix2 (⟨((((cfg2.win 3).blk t).view.emb (ix2 p q)) 0).val, idx2_lt0 _⟩ : Fin 8192) j :=
    fun j => funext fun a => Fin.ext (by
      match a with
      | ⟨0, _⟩ => show win2_0.index t (0 : Fin 2) * 512 + 1 * p.val = win2_3.index t (0 : Fin 2) * 512 + 1 * p.val; omega
      | ⟨1, _⟩ => show win2_0.index t (1 : Fin 2) * 8192 + 1 * j.val = j.val; omega)
  have h1 : ∀ j : Fin 8192, (((cfg2.win 1).blk t).view.emb (ix2 j k) : S8192x64.Idx) = ix2 j k :=
    fun j => funext fun a => Fin.ext (by
      match a with
      | ⟨0, _⟩ => show win2_1.index t (0 : Fin 2) * 8192 + 1 * j.val = j.val; omega
      | ⟨1, _⟩ => show win2_1.index t (1 : Fin 2) * 64 + 1 * k.val = k.val; omega)
  have h2 : (((cfg2.win 2).blk t).view.emb (ix2 k q) : S64x128.Idx) = ix2 k (⟨((((cfg2.win 3).blk t).view.emb (ix2 p q)) 1).val, idx2_lt1 _⟩ : Fin 128) :=
    funext fun a => Fin.ext (by
      match a with
      | ⟨0, _⟩ => show win2_2.index t (0 : Fin 2) * 64 + 1 * k.val = k.val; omega
      | ⟨1, _⟩ => show win2_2.index t (1 : Fin 2) * 128 + 1 * q.val = win2_3.index t (1 : Fin 2) * 128 + 1 * q.val; omega)
  have hs : (∑ j : Fin 8192, adj2 V c (((cfg2.win 0).blk t).view.emb (ix2 p j)) * sup2 V c (((cfg2.win 1).blk t).view.emb (ix2 j k)))
      = ∑ j : Fin 8192, adj2 V c (ix2 (⟨((((cfg2.win 3).blk t).view.emb (ix2 p q)) 0).val, idx2_lt0 _⟩ : Fin 8192) j) * sup2 V c (ix2 j k) :=
    Finset.sum_congr rfl fun j _ => by rw [h0 j, h1 j]
  show max (∑ j : Fin 8192, adj2 V c (((cfg2.win 0).blk t).view.emb (ix2 p j)) * sup2 V c (((cfg2.win 1).blk t).view.emb (ix2 j k))) 0
      * wts2 V c (((cfg2.win 2).blk t).view.emb (ix2 k q)) = _
  rw [hs, h2]

/-- An index of the output array lies in point t's block iff each coordinate lies in the block's range on its axis. -/
theorem mem_blk2 (t : Fin cfg2.N) (i : S8192x128.Idx) :
    i ∈ ((cfg2.win 3).blk t).view.set ↔ ∀ a : Fin 2, win2_3.index t a * S512x128.size a ≤ (i a).val ∧ (i a).val < win2_3.index t a * S512x128.size a + S512x128.size a := by
  show i ∈ ((View.whole main_v6).slice (win2_3.rect t)).set ↔ _
  rw [View.set_slice_whole, Rect.mem_set_unit]
  exact Iff.rfl

/-- Every row r lies in the block of point r / 512: the sixteen row blocks tile the array. -/
theorem cover2 (i : S8192x128.Idx) :
    ∃ t : Fin cfg2.N, (cfg2.win 3).flush t = true ∧ i ∈ ((cfg2.win 3).blk t).view.set := by
  have hi0 : (i 0).val < 8192 := idx2_lt0 i
  have hi1 : (i 1).val < 128 := idx2_lt1 i
  have hN : cfg2.N = 16 := by decide
  let t : Fin cfg2.N := ⟨(i 0).val / 512, by rw [hN]; omega⟩
  obtain ⟨-, -, -, -, -, -, e30, e31⟩ := idx_facts2 t
  have ht : t.val = (i 0).val / 512 := rfl
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 128 ≤ (i 1).val ∧ (i 1).val < win2_3.index t (1 : Fin 2) * 128 + 128; omega

/-- The output array after the whole grid is max(A S, 0) W. -/
theorem arr2_3 (c : Dev nD) : (dat2 (F := Ideal) V c).arrAt 3 cfg2.N = G2 (adj2 V c) (sup2 V c) (wts2 V c) :=
  (dat2 (F := Ideal) V c).arrAt_eq_of_cover 3 (G2 (adj2 V c) (sup2 V c) (wts2 V c)) (fun t _ => flushed2_eq V c t) cover2

/-- The output array after the whole grid, entry (i, q): row i of max(A S, 0) times column q of the weights. -/
theorem final2_3 (c : Dev nD) (i : Fin 8192) (q : Fin 128) :
    ((dat2 (F := Ideal) V c).arrAt 3 cfg2.N : Vec Ideal S8192x128 .f32) (ix2 i q)
      = ∑ k : Fin 64, max (∑ j : Fin 8192, adj2 V c (ix2 i j) * sup2 V c (ix2 j k)) 0 * wts2 V c (ix2 k q) := by
  rw [arr2_3]

end Cert.KernelIdeal.HandVal

end
-- ==== Proof.KV.Val3.lean ====
/-
  The value of the second graph-convolution call's output array after its whole grid has run, at the exact
  (extended-real) reading of the floats.  The call walks the 8192 rows of the adjacency A in 16 blocks of 512
  rows; at row block t it multiplies rows 512 t … 512 t + 511 of A by the whole 8192 × 128 array B and stores the
  512 × 128 product block.  Read here: the product block entry by entry (row p of the adjacency block times column
  q of B, summed over the 8192 columns of A), the block each point writes back as the corresponding rows of the
  one array  (A B)[i, q] = ∑ j, A[i, j] · B[j, q],  the sixteen row blocks tiling the output, and so the output
  array after the last point: it is A B.
-/
import proofs.«109506_g1580547973939_cont_week2b_922_2_alg».proof.Proof.KI.R3
import Idealize.ShloMosaic.Lib.ValueIdx
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-- The zero offsets of a whole-block rectangle. -/
theorem hz3 : (![0, 0] : Fin 2 → Nat) = fun _ => 0 := funext fun a => by fin_cases a <;> rfl

/-! ## The product's operand indices, axis by axis -/

/-- Left operand, row axis: the output's row. -/
theorem lhs3_0 (i : S512x128.Idx) (q : dot_S512x8192_S8192x128_S512x128_1_0_0_1_n_n.contr.Idx) :
    (dot_S512x8192_S8192x128_S512x128_1_0_0_1_n_n.lhsIdx i q 0).val = (i 0).val := by
  unfold DotDims.lhsIdx
  rw [dif_neg (show ¬(0 : Fin S512x8192.rank) ∈ dot_S512x8192_S8192x128_S512x128_1_0_0_1_n_n.lhsBatch by decide), dif_pos (show (0 : Fin S512x8192.rank) ∈ dot_S512x8192_S8192x128_S512x128_1_0_0_1_n_n.lhsNonContracting by decide)]
  rfl
/-- Left operand, column axis: the summation index. -/
theorem lhs3_1 (i : S512x128.Idx) (q : dot_S512x8192_S8192x128_S512x128_1_0_0_1_n_n.contr.Idx) :
    (dot_S512x8192_S8192x128_S512x128_1_0_0_1_n_n.lhsIdx i q 1).val = (q ⟨0, by decide⟩).val :=
  dot_S512x8192_S8192x128_S512x128_1_0_0_1_n_n.lhsIdx_val_of_single rfl i q
/-- Right operand, row axis: the summation index. -/
theorem rhs3_0 (i : S512x128.Idx) (q : dot_S512x8192_S8192x128_S512x128_1_0_0_1_n_n.contr.Idx) :
    (dot_S512x8192_S8192x128_S512x128_1_0_0_1_n_n.rhsIdx i q 0).val = (q ⟨0, by decide⟩).val :=
  dot_S512x8192_S8192x128_S512x128_1_0_0_1_n_n.rhsIdx_val_of_single rfl i q
/-- Right operand, column axis: the output's column. -/
theorem rhs3_1 (i : S512x128.Idx) (q : dot_S512x8192_S8192x128_S512x128_1_0_0_1_n_n.contr.Idx) :
    (dot_S512x8192_S8192x128_S512x128_1_0_0_1_n_n.rhsIdx i q 1).val = (i 1).val := by
  unfold DotDims.rhsIdx
  rw [dif_neg (show ¬(1 : Fin S8192x128.rank) ∈ dot_S512x8192_S8192x128_S512x128_1_0_0_1_n_n.rhsBatch by decide), dif_pos (show (1 : Fin S8192x128.rank) ∈ dot_S512x8192_S8192x128_S512x128_1_0_0_1_n_n.rhsNonContracting by decide)]
  rfl

/-- The body's result block at row p, column q: row p of the adjacency block times column q of the right array. -/
theorem k3_pay1_apply (x0 : Vec Ideal S512x8192 .f32) (x1 : Vec Ideal S8192x128 .f32) (p : Fin 512) (q : Fin 128) :
    k3_pay1 (F := Ideal) x0 x1 (ix2 p q) = ∑ j : Fin 8192, x0 (ix2 p j) * x1 (ix2 j q) := by
  unfold k3_pay1
  simp only [matmul, shapeCast_self]
  rw [Ideal.matmul_constant_zero_apply, ← Equiv.sum_comp (contrEquiv1 dot_S512x8192_S8192x128_S512x128_1_0_0_1_n_n 8192 rfl rfl).symm]
  refine Finset.sum_congr rfl fun k _ => ?_
  have hk := contrEquiv1_symm_val dot_S512x8192_S8192x128_S512x128_1_0_0_1_n_n 8192 rfl rfl k
  have el : dot_S512x8192_S8192x128_S512x128_1_0_0_1_n_n.lhsIdx (ix2 p q) ((contrEquiv1 dot_S512x8192_S8192x128_S512x128_1_0_0_1_n_n 8192 rfl rfl).symm k) = ix2 p k := funext fun a => Fin.ext (by
    match a with
    | ⟨0, _⟩ => exact lhs3_0 _ _
    | ⟨1, _⟩ => exact (lhs3_1 _ _).trans hk)
  have er : dot_S512x8192_S8192x128_S512x128_1_0_0_1_n_n.rhsIdx (ix2 p q) ((contrEquiv1 dot_S512x8192_S8192x128_S512x128_1_0_0_1_n_n 8192 rfl rfl).symm k) = ix2 k q := funext fun a => Fin.ext (by
    match a with
    | ⟨0, _⟩ => exact (rhs3_0 _ _).trans hk
    | ⟨1, _⟩ => exact rhs3_1 _ _)
  rw [el, er]

/-! ## From the blocks to the array -/

variable (V : (c : Dev nD) → (b : Ref sig .tc) → Buf (Elt Ideal) ((c : Thread nD τ).loc b))

/-- The adjacency, as the call finds it. -/
abbrev adj3 (c : Dev nD) : Vec Ideal S8192x8192 .f32 := V c main_arg1
/-- The array the adjacency multiplies, as the call finds it. -/
abbrev feat3 (c : Dev nD) : Vec Ideal S8192x128 .f32 := V c main_v6

/-- What the call leaves in its output array: the adjacency times the right array, entry by entry. -/
abbrev G3 (a : Vec Ideal S8192x8192 .f32) (b : Vec Ideal S8192x128 .f32) : Vec Ideal S8192x128 .f32 :=
  fun i => ∑ j : Fin 8192, a (ix2 (⟨(i 0).val, idx2_lt0 i⟩ : Fin 8192) j) * b (ix2 j (⟨(i 1).val, idx2_lt1 i⟩ : Fin 128))

/-- The block indices over the grid: the adjacency's and the output's row block is the point, every column block
    and the right array's block are block 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Point t writes back rows 512 t … 512 t + 511 of the product. -/
theorem flushed3_eq (c : Dev nD) (t : Fin cfg3.N) :
    (dat3 (F := Ideal) V c).flushed 2 t
      = ((cfg3.win 2).blk t).view.read (Elt Ideal) (G3 (adj3 V c) (feat3 V c)) := by
  show (cfg3.win 2).cut (grid3.coords t) ((dat3 (F := Ideal) V c).after 2 t) = _
  rw [after3_2]
  unfold out3_2
  rw [View.canon_unit_zero hz3]
  simp only [View.ld_unit_zero (S := S512x8192) hz3, View.ld_unit_zero (S := S8192x128) hz3]
  obtain ⟨e00, e01, e10, e11, e20, e21⟩ := idx_facts3 t
  funext y
  obtain ⟨p, q, rfl⟩ : ∃ (p : Fin 512) (q : Fin 128), y = ix2 p q := ⟨y 0, y 1, eq_ix2 y⟩
  refine (k3_pay1_apply (iblk3 V c 0 t) (iblk3 V c 1 t) p q).trans ?_
  show _ = ∑ j : Fin 8192,
      adj3 V c (ix2 (⟨((((cfg3.win 2).blk t).view.emb (ix2 p q)) 0).val, idx2_lt0 _⟩ : Fin 8192) j)
        * feat3 V c (ix2 j (⟨((((cfg3.win 2).blk t).view.emb (ix2 p q)) 1).val, idx2_lt1 _⟩ : Fin 128))
  refine Finset.sum_congr rfl fun j _ => ?_
  have h0 : (((cfg3.win 0).blk t).view.emb (ix2 p j) : S8192x8192.Idx)
      = ix2 (⟨((((cfg3.win 2).blk t).view.emb (ix2 p q)) 0).val, idx2_lt0 _⟩ : Fin 8192) j := funext fun a => Fin.ext (by
    match a with
    | ⟨0, _⟩ => show win3_0.index t (0 : Fin 2) * 512 + 1 * p.val = win3_2.index t (0 : Fin 2) * 512 + 1 * p.val; omega
    | ⟨1, _⟩ => show win3_0.index t (1 : Fin 2) * 8192 + 1 * j.val = j.val; omega)
  have h1 : (((cfg3.win 1).blk t).view.emb (ix2 j q) : S8192x128.Idx)
      = ix2 j (⟨((((cfg3.win 2).blk t).view.emb (ix2 p q)) 1).val, idx2_lt1 _⟩ : Fin 128) := funext fun a => Fin.ext (by
    match a with
    | ⟨0, _⟩ => show win3_1.index t (0 : Fin 2) * 8192 + 1 * j.val = j.val; omega
    | ⟨1, _⟩ => show win3_1.index t (1 : Fin 2) * 128 + 1 * q.val = win3_2.index t (1 : Fin 2) * 128 + 1 * q.val; omega)
  show adj3 V c (((cfg3.win 0).blk t).view.emb (ix2 p j)) * feat3 V c (((cfg3.win 1).blk t).view.emb (ix2 j q)) = _
  rw [h0, h1]

/-- An index of the output array lies in point t's block iff each coordinate lies in the block's range on its axis. -/
theorem mem_blk3 (t : Fin cfg3.N) (i : S8192x128.Idx) :
    i ∈ ((cfg3.win 2).blk t).view.set ↔ ∀ a : Fin 2, win3_2.index t a * S512x128.size a ≤ (i a).val ∧ (i a).val < win3_2.index t a * S512x128.size a + S512x128.size a := by
  show i ∈ ((View.whole main_v7).slice (win3_2.rect t)).set ↔ _
  rw [View.set_slice_whole, Rect.mem_set_unit]
  exact Iff.rfl

/-- Every row r lies in the block of point r / 512: the sixteen row blocks tile the array. -/
theorem cover3 (i : S8192x128.Idx) :
    ∃ t : Fin cfg3.N, (cfg3.win 2).flush t = true ∧ i ∈ ((cfg3.win 2).blk t).view.set := by
  have hi0 : (i 0).val < 8192 := idx2_lt0 i
  have hi1 : (i 1).val < 128 := idx2_lt1 i
  have hN : cfg3.N = 16 := by decide
  let t : Fin cfg3.N := ⟨(i 0).val / 512, by rw [hN]; omega⟩
  obtain ⟨-, -, -, -, e20, e21⟩ := idx_facts3 t
  have ht : t.val = (i 0).val / 512 := rfl
  refine ⟨t, flush3_2 t, ?_⟩
  rw [mem_blk3]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 128 ≤ (i 1).val ∧ (i 1).val < win3_2.index t (1 : Fin 2) * 128 + 128; omega

/-- The output array after the whole grid is the product. -/
theorem arr3_2 (c : Dev nD) : (dat3 (F := Ideal) V c).arrAt 2 cfg3.N = G3 (adj3 V c) (feat3 V c) :=
  (dat3 (F := Ideal) V c).arrAt_eq_of_cover 2 (G3 (adj3 V c) (feat3 V c)) (fun t _ => flushed3_eq V c t) cover3

/-- The output array after the whole grid, entry (i, q): row i of the adjacency times column q of the right array. -/
theorem final3_2 (c : Dev nD) (i : Fin 8192) (q : Fin 128) :
    ((dat3 (F := Ideal) V c).arrAt 2 cfg3.N : Vec Ideal S8192x128 .f32) (ix2 i q)
      = ∑ j : Fin 8192, adj3 V c (ix2 i j) * feat3 V c (ix2 j q) := by
  rw [arr3_2]

end Cert.KernelIdeal.HandVal

end
-- ==== Proof.KV.Val4.lean ====
/-
  The value of the inner-product decoder's output array after its whole 8 × 8 grid has run, at the ideal values.
  The call reads ONE 8192 × 64 array `a` through two windows, rows `1024 i …` and rows `1024 j …` at grid point
  (i, j), and writes the 1024 × 1024 tile (i, j) of an 8192 × 8192 array. The body's product contracts the second
  axis of both operands, so the tile's entry (p, q) is `∑ l, a (1024 i + p, l) · a (1024 j + q, l)`: the tile (i, j) of
  the one whole-array function `G4 a (r, s) = ∑ l, a (r, l) · a (s, l)`. The 64 tiles cover the array (the point that
  covers entry (r, s) has block indices (r / 1024, s / 1024)), so the array ends holding `G4 a`.
-/
import proofs.«109506_g1580547973939_cont_week2b_922_2_alg».proof.Proof.KI.R4
import Idealize.ShloMosaic.Lib.ValueIdx
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz4 : (![0, 0] : Fin 2 → Nat) = fun _ => 0 := funext fun a => by fin_cases a <;> rfl

theorem lhs4_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs4_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs4_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs4_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

theorem pay4_apply (x0 x1 : Vec Ideal S1024x64 .f32) (p q : Fin 1024) :
    k4_pay1 x0 x1 (ix2 p q) = ∑ l : Fin 64, x0 (ix2 p l) * x1 (ix2 q l) := by
  unfold k4_pay1
  simp only [matmul, shapeCast_self]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k := funext fun a => Fin.ext (by
    match a with
    | ⟨0, _⟩ => exact lhs4_0 _ _
    | ⟨1, _⟩ => exact (lhs4_1 _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k := funext fun a => Fin.ext (by
    match a with
    | ⟨0, _⟩ => exact rhs4_0 _ _
    | ⟨1, _⟩ => exact (rhs4_1 _ _).trans hk)
  rw [el, er]

/-- The products of rows of one 8192 × 64 array, contracted over its 64 columns. -/
abbrev G4 (a : S8192x64.Idx → EReal) : S8192x8192.Idx → EReal :=
  fun i => ∑ l : Fin 64, a (ix2 (i 0) l) * a (ix2 (i 1) l)

theorem idx_facts4 : ∀ t : Fin cfg4.N, win4_0.index t (0 : Fin 2) = win4_2.index t (0 : Fin 2)
    ∧ win4_0.index t (1 : Fin 2) = 0
    ∧ win4_1.index t (0 : Fin 2) = win4_2.index t (1 : Fin 2)
    ∧ win4_1.index t (1 : Fin 2) = 0
    ∧ win4_2.index t (0 : Fin 2) ≤ 7 ∧ win4_2.index t (1 : Fin 2) ≤ 7 :=
  (by decide +kernel : ∀ t : Fin grid4.N, _)

theorem idx_onto4 : ∀ (q0 : Fin 8) (q1 : Fin 8), ∃ t : Fin cfg4.N, win4_2.index t = ![q0.val, q1.val] :=
  (by decide +kernel : ∀ (q0 : Fin 8) (q1 : Fin 8), ∃ t : Fin grid4.N, win4_2.index t = ![q0.val, q1.val])

theorem iblk4_0_apply (c : Dev nD) (t : Fin cfg4.N) (x : S1024x64.Idx) (k : S8192x64.Idx)
    (hk0 : (k 0).val = win4_0.index t (0 : Fin 2) * 1024 + (x 0).val) (hk1 : (k 1).val = win4_0.index t (1 : Fin 2) * 64 + (x 1).val) :
    (iblk4 V c 0 t : Vec Ideal S1024x64 .f32) x = (V c main_v8 : S8192x64.Idx → EReal) k := by
  unfold iblk4
  rw [View.read_apply]
  show V c main_v8 _ = V c main_v8 _
  congr 1
  funext a
  apply Fin.ext
  match a with
  | ⟨0, _⟩ => show win4_0.index t (0 : Fin 2) * 1024 + 1 * (x 0).val = (k 0).val; rw [hk0]; omega
  | ⟨1, _⟩ => show win4_0.index t (1 : Fin 2) * 64 + 1 * (x 1).val = (k 1).val; rw [hk1]; omega

theorem iblk4_1_apply (c : Dev nD) (t : Fin cfg4.N) (x : S1024x64.Idx) (k : S8192x64.Idx)
    (hk0 : (k 0).val = win4_1.index t (0 : Fin 2) * 1024 + (x 0).val) (hk1 : (k 1).val = win4_1.index t (1 : Fin 2) * 64 + (x 1).val) :
    (iblk4 V c 1 t : Vec Ideal S1024x64 .f32) x = (V c main_v8 : S8192x64.Idx → EReal) k := by
  unfold iblk4
  rw [View.read_apply]
  show V c main_v8 _ = V c main_v8 _
  congr 1
  funext a
  apply Fin.ext
  match a with
  | ⟨0, _⟩ => show win4_1.index t (0 : Fin 2) * 1024 + 1 * (x 0).val = (k 0).val; rw [hk0]; omega
  | ⟨1, _⟩ => show win4_1.index t (1 : Fin 2) * 64 + 1 * (x 1).val = (k 1).val; rw [hk1]; omega

/-- What point `t` writes back is its tile of `G4` of the array the two input windows read. -/
theorem flushed4_eq (c : Dev nD) (t : Fin cfg4.N) :
    (dat4 (F := Ideal) V c).flushed 2 t = ((cfg4.win 2).blk t).view.read (Elt Ideal) (G4 (V c main_v8)) := by
  show (cfg4.win 2).cut (grid4.coords t) ((dat4 (F := Ideal) V c).after 2 t) = _
  rw [after4_2]
  unfold out4_2
  rw [View.canon_unit_zero hz4]
  simp only [View.ld_unit_zero (S := S1024x64) hz4]
  obtain ⟨e0, e1, e2, e3, e4, e5⟩ := idx_facts4 t
  funext j
  obtain ⟨p, q, rfl⟩ : ∃ (p : Fin 1024) (q : Fin 1024), j = ix2 p q := ⟨j 0, j 1, eq_ix2 j⟩
  show k4_pay1 (iblk4 V c 0 t) (iblk4 V c 1 t) (ix2 p q) = G4 (V c main_v8) (((cfg4.win 2).blk t).view.emb (ix2 p q))
  refine (pay4_apply (iblk4 V c 0 t) (iblk4 V c 1 t) p q).trans ?_
  refine Finset.sum_congr rfl fun l _ => ?_
  have E0 : ((((cfg4.win 2).blk t).view.emb (ix2 p q)) 0).val = win4_2.index t (0 : Fin 2) * 1024 + 1 * p.val := rfl
  have E1 : ((((cfg4.win 2).blk t).view.emb (ix2 p q)) 1).val = win4_2.index t (1 : Fin 2) * 1024 + 1 * q.val := rfl
  refine congrArg₂ (· * ·)
    (iblk4_0_apply V c t (ix2 p l) (ix2 ((((cfg4.win 2).blk t).view.emb (ix2 p q)) 0) l) ?_ ?_)
    (iblk4_1_apply V c t (ix2 q l) (ix2 ((((cfg4.win 2).blk t).view.emb (ix2 p q)) 1) l) ?_ ?_)
  · show ((((cfg4.win 2).blk t).view.emb (ix2 p q)) 0).val = win4_0.index t (0 : Fin 2) * 1024 + p.val
    rw [E0, e0]; omega
  · show l.val = win4_0.index t (1 : Fin 2) * 64 + l.val
    rw [e1]; omega
  · show ((((cfg4.win 2).blk t).view.emb (ix2 p q)) 1).val = win4_1.index t (0 : Fin 2) * 1024 + q.val
    rw [E1, e2]; omega
  · show l.val = win4_1.index t (1 : Fin 2) * 64 + l.val
    rw [e3]; omega

/-- An index of the array is in point `t`'s tile iff each coordinate is in the tile's range on its axis. -/
theorem mem_blk4 (t : Fin cfg4.N) (i : S8192x8192.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v10).slice (win4_2.rect t)).set ↔ _
  rw [View.set_slice_whole, Rect.mem_set_unit]
  exact Iff.rfl

/-- Every index lies in the tile of the point whose block indices are its coordinates' quotients by 1024. -/
theorem cover4 (i : S8192x8192.Idx) : ∃ t : Fin cfg4.N, (cfg4.win 2).flush t = true ∧ i ∈ ((cfg4.win 2).blk t).view.set := by
  have hi0 : (i 0).val < 8192 := (i 0).isLt
  have hi1 : (i 1).val < 8192 := (i 1).isLt
  obtain ⟨t, ht⟩ := idx_onto4 ⟨(i 0).val / 1024, by omega⟩ ⟨(i 1).val / 1024, by omega⟩
  have q0 : win4_2.index t (0 : Fin 2) = (i 0).val / 1024 := congrFun ht 0
  have q1 : win4_2.index t (1 : Fin 2) = (i 1).val / 1024 := congrFun ht 1
  refine ⟨t, flush4_2 t, ?_⟩
  rw [mem_blk4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 1024 ≤ (i 1).val ∧ (i 1).val < win4_2.index t (1 : Fin 2) * 1024 + 1024; omega

/-- The output array after the whole grid: every entry the product of two rows of the input array, contracted
    over its 64 columns. -/
theorem final4 (c : Dev nD) : (dat4 (F := Ideal) V c).arrAt 2 cfg4.N = G4 (V c main_v8) :=
  (dat4 (F := Ideal) V c).arrAt_eq_of_cover 2 (G4 (V c main_v8)) (fun t _ => flushed4_eq V c t) cover4

/-- The same, entry by entry. (The arrays' entries are extended reals; the product is written at that type.) -/
theorem final4_2 (c : Dev nD) (i j : Fin 8192) :
    ((dat4 (F := Ideal) V c).arrAt 2 cfg4.N : S8192x8192.Idx → EReal) (ix2 i j)
      = ∑ l : Fin 64, (HMul.hMul (α := EReal) (β := EReal) (γ := EReal)
          ((V c main_v8 : S8192x64.Idx → EReal) (ix2 i l)) ((V c main_v8 : S8192x64.Idx → EReal) (ix2 j l)) : EReal) := by
  rw [final4]

end Cert.KernelIdeal.HandVal

end
-- ==== Proof.KV.Layout.lean ====
/-
  The host operations of the kernel's program between its calls, read at an index: the two halves of the attention
  vector are rows 0…127 and 128…255 of `a`; the two weight arrays side by side have `W2` in columns 0…63 and `W3`
  in columns 64…127; the column of second scores reshaped to a row has the same entries; the two results `mu` and
  `logvar` are columns 0…63 and 64…127 of the last product.
-/
import proofs.«109506_g1580547973939_cont_week2b_922_2_alg».proof.Proof.Gen.KernelIdeal
import Idealize.ShloMosaic.Lib.ValueIdx
import Idealize.ShloMosaic.Lib.Pipeline.Value
import Idealize.ShloMosaic.Lib.ValueLayout

noncomputable section

namespace Cert.KernelIdeal.HandVal

open Cert.KernelIdeal Cert.KernelIdeal.Gen
open Idealize.ShloMosaic Idealize.ShloMosaic.ValueIdx

theorem sliceA_lo (a : S256x1.Idx → EReal) (k : Fin 128) :
    extractStridedSlice S128x1 ![0, 0] a slices_S256x1_S128x1_0_0 (ix2 k (0 : Fin 1)) = a (ix2 (⟨k.val, by omega⟩ : Fin 256) (0 : Fin 1)) := by
  refine extractStridedSlice_apply _ a _ _ _ fun b => ?_
  match b with
  | ⟨0, _⟩ => show k.val = 0 + k.val; omega
  | ⟨1, _⟩ => rfl

theorem sliceA_hi (a : S256x1.Idx → EReal) (k : Fin 128) :
    extractStridedSlice S128x1 ![128, 0] a slices_S256x1_S128x1_128_0 (ix2 k (0 : Fin 1)) = a (ix2 (⟨128 + k.val, by omega⟩ : Fin 256) (0 : Fin 1)) := by
  refine extractStridedSlice_apply _ a _ _ _ fun b => ?_
  match b with
  | ⟨0, _⟩ => rfl
  | ⟨1, _⟩ => rfl

theorem concat_lo (w2 w3 : S64x64.Idx → EReal) (k q : Fin 64) :
    concatenate S64x128 1 [⟨S64x64, w2⟩, ⟨S64x64, w3⟩] concatenates_S64x64_S64x64_S64x128_d1 (ix2 k (⟨q.val, by omega⟩ : Fin 128)) = w2 (ix2 k q) := by
  refine concatenate_pair_apply_left (1 : Fin S64x128.rank) w2 w3 _ _ rfl (ix2 k q) fun b => ?_
  match b with
  | ⟨0, _⟩ => rfl
  | ⟨1, _⟩ => rfl

theorem concat_hi (w2 w3 : S64x64.Idx → EReal) (k q : Fin 64) :
    concatenate S64x128 1 [⟨S64x64, w2⟩, ⟨S64x64, w3⟩] concatenates_S64x64_S64x64_S64x128_d1 (ix2 k (⟨64 + q.val, by omega⟩ : Fin 128)) = w3 (ix2 k q) := by
  refine concatenate_pair_apply_right (1 : Fin S64x128.rank) w2 w3 _ _ rfl rfl (ix2 k q) (fun b hb => ?_) ?_
  · match b with
    | ⟨0, _⟩ => rfl
    | ⟨1, _⟩ => exact absurd rfl hb
  · show q.val + 64 = 64 + q.val
    omega

theorem reshape_row (s : S8192x1.Idx → EReal) (j : Fin 8192) :
    shapeCast S1x8192 s shapeCasts_S8192x1_S1x8192 (ix2 (0 : Fin 1) j) = s (ix2 j (0 : Fin 1)) := by
  refine shapeCast_apply s _ _ (ix2 j (0 : Fin 1)) ?_
  rw [Shape.rowMajor_val_two, Shape.rowMajor_val_two]
  show j.val * 1 + 0 = 0 * 8192 + j.val
  omega

theorem sliceC_lo (v : S8192x128.Idx → EReal) (i : Fin 8192) (q : Fin 64) :
    extractStridedSlice S8192x64 ![0, 0] v slices_S8192x128_S8192x64_0_0 (ix2 i q) = v (ix2 i (⟨q.val, by omega⟩ : Fin 128)) := by
  refine extractStridedSlice_apply _ v _ _ _ fun b => ?_
  match b with
  | ⟨0, _⟩ => show i.val = 0 + i.val; omega
  | ⟨1, _⟩ => show q.val = 0 + q.val; omega

theorem sliceC_hi (v : S8192x128.Idx → EReal) (i : Fin 8192) (q : Fin 64) :
    extractStridedSlice S8192x64 ![0, 64] v slices_S8192x128_S8192x64_0_64 (ix2 i q) = v (ix2 i (⟨64 + q.val, by omega⟩ : Fin 128)) := by
  refine extractStridedSlice_apply _ v _ _ _ fun b => ?_
  match b with
  | ⟨0, _⟩ => show i.val = 0 + i.val; omega
  | ⟨1, _⟩ => rfl

end Cert.KernelIdeal.HandVal

end
-- ==== Proof.Bridge.Spec.lean ====
/-
  The common value of the two programs, index by index, as a function of the seven argument arrays (extended
  reals; sums over finite index ranges):
    Wh i k   = Σ_d x i d · W_att d k                       the projected features
    s1 i     = Σ_k Wh i k · a k,   s2 i = Σ_k Wh i k · a (128 + k)      the two attention scores
    G i k    = the attention row of node i (Att.g: masked leaky scores, exponentials against the row maximum, the
               weighted feature sum divided by the weights' sum, the exponential-linear unit twice)
    sup i q  = Σ_k G i k · W1 k q
    hid i k  = max (Σ_j adj i j · sup j k) 0
    agg W i q = Σ_j adj i j · Σ_k hid j k · W k q          (mu for W2, logvar for W3)
    recon i j = Σ_l mu i l · mu j l
-/
import proofs.«109506_g1580547973939_cont_week2b_922_2_alg».proof.Proof.Att.Spec
import Idealize.ShloMosaic.Lib.ValueIdx

noncomputable section

namespace Cert.Hand.Spec

open Idealize.ShloMosaic Idealize.ShloMosaic.ValueIdx
open scoped BigOperators

/-- A rank-2 array of extended reals. -/
abbrev A2 (n k : ℕ) : Type := (⟨2, ![n, k]⟩ : Shape).Idx → EReal

variable (x : A2 8192 256) (adj : A2 8192 8192) (wa : A2 256 128) (a : A2 256 1) (w1 : A2 128 64)

def Wh (i : Fin 8192) (k : Fin 128) : EReal := ∑ d : Fin 256, x (ix2 i d) * wa (ix2 d k)

def s1 (i : Fin 8192) : EReal := ∑ k : Fin 128, Wh x wa i k * a (ix2 (⟨k.val, by omega⟩ : Fin 256) (0 : Fin 1))

def s2 (i : Fin 8192) : EReal := ∑ k : Fin 128, Wh x wa i k * a (ix2 (⟨128 + k.val, by omega⟩ : Fin 256) (0 : Fin 1))

def G (i : Fin 8192) (k : Fin 128) : EReal :=
  Cert.Hand.Att.g (fun j => adj (ix2 i j)) (s1 x wa a i) (s2 x wa a) (Wh x wa) k

def sup (i : Fin 8192) (q : Fin 64) : EReal := ∑ k : Fin 128, G x adj wa a i k * w1 (ix2 k q)

def hid (i : Fin 8192) (k : Fin 64) : EReal := max (∑ j : Fin 8192, adj (ix2 i j) * sup x adj wa a w1 j k) 0

def lin (w : A2 64 64) (i : Fin 8192) (q : Fin 64) : EReal := ∑ k : Fin 64, hid x adj wa a w1 i k * w (ix2 k q)

def agg (w : A2 64 64) (i : Fin 8192) (q : Fin 64) : EReal := ∑ j : Fin 8192, adj (ix2 i j) * lin x adj wa a w1 w j q

def recon (w2 : A2 64 64) (i j : Fin 8192) : EReal := ∑ l : Fin 64, agg x adj wa a w1 w2 i l * agg x adj wa a w1 w2 j l

end Cert.Hand.Spec

end
-- ==== Proof.Bridge.Kernel.lean ====
/-
  The kernel's three results are the common specification, index by index. Bottom-up through the five calls: call 0
  leaves the projected features and the two score columns; call 1, reading those (the second scores reshaped to a
  row), leaves the support array; call 2, reading the support and the two weight arrays side by side, leaves the two
  hidden-layer products side by side; call 3 multiplies them by the adjacency, still side by side; the two column
  halves are `mu` and `logvar`; call 4 leaves the products of `mu`'s rows. Each step is the call's value at an index
  and what the fold says the call found in its windows' arrays.
-/
import proofs.«109506_g1580547973939_cont_week2b_922_2_alg».proof.Proof.KI.FoldVal
import proofs.«109506_g1580547973939_cont_week2b_922_2_alg».proof.Proof.KV.Val0
import proofs.«109506_g1580547973939_cont_week2b_922_2_alg».proof.Proof.KV.Val1
import proofs.«109506_g1580547973939_cont_week2b_922_2_alg».proof.Proof.KV.Val2
import proofs.«109506_g1580547973939_cont_week2b_922_2_alg».proof.Proof.KV.Val3
import proofs.«109506_g1580547973939_cont_week2b_922_2_alg».proof.Proof.KV.Val4
import proofs.«109506_g1580547973939_cont_week2b_922_2_alg».proof.Proof.KV.Layout
import proofs.«109506_g1580547973939_cont_week2b_922_2_alg».proof.Proof.Bridge.Spec

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Cert.Hand
open scoped BigOperators

variable (m : (ℓ : Loc nD τ sig) → Buf (Elt Ideal) ℓ) (c : Dev nD)

/-- The seven argument arrays of core `c` in the launch memory, as arrays of extended reals. -/
abbrev ax : Spec.A2 8192 256 := m ((c : Thread nD τ).loc main_arg0)
abbrev aadj : Spec.A2 8192 8192 := m ((c : Thread nD τ).loc main_arg1)
abbrev awa : Spec.A2 256 128 := m ((c : Thread nD τ).loc main_arg2)
abbrev aa : Spec.A2 256 1 := m ((c : Thread nD τ).loc main_arg3)
abbrev aw1 : Spec.A2 128 64 := m ((c : Thread nD τ).loc main_arg4)
abbrev aw2 : Spec.A2 64 64 := m ((c : Thread nD τ).loc main_arg5)
abbrev aw3 : Spec.A2 64 64 := m ((c : Thread nD τ).loc main_arg6)

/-! ## Call 0: the projected features and the two scores -/

theorem k0_wh (i : Fin 8192) (k : Fin 128) :
    ((dat0 (F := Ideal) (Vr1 m) c).arrAt 4 cfg0.N : S8192x128.Idx → EReal) (ix2 i k) = Spec.Wh (ax m c) (awa m c) i k := by
  rw [final0_4 (Vr1 m) c i k, Vr1_arg0, Vr1_arg2]
  rfl

theorem k0_s1 (i : Fin 8192) :
    ((dat0 (F := Ideal) (Vr1 m) c).arrAt 5 cfg0.N : S8192x1.Idx → EReal) (ix2 i (0 : Fin 1)) = Spec.s1 (ax m c) (awa m c) (aa m c) i := by
  rw [final0_5 (Vr1 m) c i, Vr1_arg0, Vr1_arg2, Vr1_v0]
  unfold Spec.s1 Spec.Wh
  show (_ : EReal) = _
  refine Finset.sum_congr rfl fun k _ => ?_
  rw [sliceA_lo]

theorem k0_s2 (i : Fin 8192) :
    ((dat0 (F := Ideal) (Vr1 m) c).arrAt 6 cfg0.N : S8192x1.Idx → EReal) (ix2 i (0 : Fin 1)) = Spec.s2 (ax m c) (awa m c) (aa m c) i := by
  rw [final0_6 (Vr1 m) c i, Vr1_arg0, Vr1_arg2, Vr1_v1]
  unfold Spec.s2 Spec.Wh
  show (_ : EReal) = _
  refine Finset.sum_congr rfl fun k _ => ?_
  rw [sliceA_hi]

/-! ## Call 1: the support array -/

theorem k1_sup (i : Fin 8192) (q : Fin 64) :
    ((dat1 (F := Ideal) (Vr3 m) c).arrAt 5 cfg1.N : S8192x64.Idx → EReal) (ix2 i q)
      = Spec.sup (ax m c) (aadj m c) (awa m c) (aa m c) (aw1 m c) i q := by
  have h2 : (Vr3 m c main_v2_1 : S8192x1.Idx → EReal) (ix2 i (0 : Fin 1)) = Spec.s1 (ax m c) (awa m c) (aa m c) i := by
    rw [Vr3_v2_1]; exact k0_s1 m c i
  have h3 : (fun j : Fin 8192 => (Vr3 m c main_v3 : S1x8192.Idx → EReal) (ix2 (0 : Fin 1) j)) = Spec.s2 (ax m c) (awa m c) (aa m c) :=
    funext fun j => by
      rw [Vr3_v3]
      show shapeCast S1x8192 ((dat0 (F := Ideal) (Vr1 m) c).arrAt 6 cfg0.N : S8192x1.Idx → EReal) shapeCasts_S8192x1_S1x8192 (ix2 (0 : Fin 1) j) = _
      rw [reshape_row]; exact k0_s2 m c j
  have h4 : (fun (j : Fin 8192) (k : Fin 128) => (Vr3 m c main_v2_0 : S8192x128.Idx → EReal) (ix2 j k)) = Spec.Wh (ax m c) (awa m c) :=
    funext fun j => funext fun k => by rw [Vr3_v2_0]; exact k0_wh m c j k
  rw [final1_5 (Vr3 m) c i q, Vr3_arg1, Vr3_arg4]
  unfold Spec.sup Spec.G
  show (_ : EReal) = _
  refine Finset.sum_congr rfl fun k _ => ?_
  rw [← h2, ← h3, ← h4]

/-! ## Call 2: the two hidden-layer products side by side -/

theorem k2_lo (i : Fin 8192) (q : Fin 64) :
    ((dat2 (F := Ideal) (Vr5 m) c).arrAt 3 cfg2.N : S8192x128.Idx → EReal) (ix2 i (⟨q.val, by omega⟩ : Fin 128))
      = Spec.lin (ax m c) (aadj m c) (awa m c) (aa m c) (aw1 m c) (aw2 m c) i q := by
  rw [final2_3 (Vr5 m) c i ⟨q.val, by omega⟩]
  simp only [adj2, sup2, wts2]
  rw [Vr5_arg1, Vr5_v4, Vr5_v5]
  unfold Spec.lin Spec.hid
  show (_ : EReal) = _
  refine Finset.sum_congr rfl fun k _ => ?_
  rw [concat_lo]
  refine congrArg (fun t => max t 0 * (aw2 m c) (ix2 k q)) ?_
  exact Finset.sum_congr rfl fun j _ => by rw [k1_sup m c j k]

theorem k2_hi (i : Fin 8192) (q : Fin 64) :
    ((dat2 (F := Ideal) (Vr5 m) c).arrAt 3 cfg2.N : S8192x128.Idx → EReal) (ix2 i (⟨64 + q.val, by omega⟩ : Fin 128))
      = Spec.lin (ax m c) (aadj m c) (awa m c) (aa m c) (aw1 m c) (aw3 m c) i q := by
  rw [final2_3 (Vr5 m) c i ⟨64 + q.val, by omega⟩]
  simp only [adj2, sup2, wts2]
  rw [Vr5_arg1, Vr5_v4, Vr5_v5]
  unfold Spec.lin Spec.hid
  show (_ : EReal) = _
  refine Finset.sum_congr rfl fun k _ => ?_
  rw [concat_hi]
  refine congrArg (fun t => max t 0 * (aw3 m c) (ix2 k q)) ?_
  exact Finset.sum_congr rfl fun j _ => by rw [k1_sup m c j k]

/-! ## Call 3: the adjacency times those, still side by side -/

theorem k3_lo (i : Fin 8192) (q : Fin 64) :
    ((dat3 (F := Ideal) (Vr6 m) c).arrAt 2 cfg3.N : S8192x128.Idx → EReal) (ix2 i (⟨q.val, by omega⟩ : Fin 128))
      = Spec.agg (ax m c) (aadj m c) (awa m c) (aa m c) (aw1 m c) (aw2 m c) i q := by
  rw [final3_2 (Vr6 m) c i ⟨q.val, by omega⟩]
  simp only [adj3, feat3]
  rw [Vr6_arg1, Vr6_v6]
  unfold Spec.agg
  show (_ : EReal) = _
  exact Finset.sum_congr rfl fun j _ => by rw [k2_lo m c j q]

theorem k3_hi (i : Fin 8192) (q : Fin 64) :
    ((dat3 (F := Ideal) (Vr6 m) c).arrAt 2 cfg3.N : S8192x128.Idx → EReal) (ix2 i (⟨64 + q.val, by omega⟩ : Fin 128))
      = Spec.agg (ax m c) (aadj m c) (awa m c) (aa m c) (aw1 m c) (aw3 m c) i q := by
  rw [final3_2 (Vr6 m) c i ⟨64 + q.val, by omega⟩]
  simp only [adj3, feat3]
  rw [Vr6_arg1, Vr6_v6]
  unfold Spec.agg
  show (_ : EReal) = _
  exact Finset.sum_congr rfl fun j _ => by rw [k2_hi m c j q]

/-! ## The three results at the last boundary -/

theorem kernel_mu (i : Fin 8192) (q : Fin 64) :
    (W9 m c (Proc.devRef .tc main_v8) : S8192x64.Idx → EReal) (ix2 i q)
      = Spec.agg (ax m c) (aadj m c) (awa m c) (aa m c) (aw1 m c) (aw2 m c) i q := by
  rw [W9_v8, Vr8_v8, sliceC_lo]
  exact k3_lo m c i q

theorem kernel_lv (i : Fin 8192) (q : Fin 64) :
    (W9 m c (Proc.devRef .tc main_v9) : S8192x64.Idx → EReal) (ix2 i q)
      = Spec.agg (ax m c) (aadj m c) (awa m c) (aa m c) (aw1 m c) (aw3 m c) i q := by
  rw [W9_v9, Vr8_v9, sliceC_hi]
  exact k3_hi m c i q

theorem kernel_recon (i j : Fin 8192) :
    (W9 m c (Proc.devRef .tc main_v10) : S8192x8192.Idx → EReal) (ix2 i j)
      = Spec.recon (ax m c) (aadj m c) (awa m c) (aa m c) (aw1 m c) (aw2 m c) i j := by
  rw [W9_v10, final4_2 (Vr8 m) c i j]
  unfold Spec.recon
  show (_ : EReal) = _
  refine Finset.sum_congr rfl fun l _ => ?_
  rw [Vr8_v8, sliceC_lo, sliceC_lo]
  rw [k3_lo m c i l, k3_lo m c j l]

end Cert.KernelIdeal.HandVal

end
-- ==== Proof.Ref.Dots.lean ====
import proofs.«109506_g1580547973939_cont_week2b_922_2_alg».proof.Proof.Ref.Run
import Idealize.ShloMosaic.Lib.ValueIdx
import Idealize.ShloMosaic.PureOps.Ideal.Laws
import Idealize.ShloMosaic.Lib.Pipeline.Value

noncomputable section

open scoped BigOperators

namespace Cert.ReferenceIdeal.HandVal

open Cert.ReferenceIdeal Cert.ReferenceIdeal.Gen Cert.ReferenceIdeal.Hand Idealize.ShloMosaic Idealize.ShloMosaic.ValueIdx

/-! ## The products' operand indices

Every product of the program contracts the left operand's columns against the right operand's rows, with no batch
axis: at result index (r, c) and contraction coordinate k the left operand is read at (r, k), the right at (k, c). -/

/-- The operand indices of the product `dot_S8192x256_S256x128_S8192x128_1_0_0_1_n_n` at a result index and a contraction index, axis by axis: the left
    operand reads the result's row and the contraction coordinate, the right operand the contraction coordinate and
    the result's column. -/
theorem lhs_wh_0 (i : S8192x128.Idx) (q : dot_S8192x256_S256x128_S8192x128_1_0_0_1_n_n.contr.Idx) :
    (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl
theorem lhs_wh_1 (i : S8192x128.Idx) (q : dot_S8192x256_S256x128_S8192x128_1_0_0_1_n_n.contr.Idx) :
    (dot_S8192x256_S256x128_S8192x128_1_0_0_1_n_n.lhsIdx i q 1).val = (q ⟨0, by decide⟩).val :=
  dot_S8192x256_S256x128_S8192x128_1_0_0_1_n_n.lhsIdx_val_of_single rfl i q
theorem rhs_wh_0 (i : S8192x128.Idx) (q : dot_S8192x256_S256x128_S8192x128_1_0_0_1_n_n.contr.Idx) :
    (dot_S8192x256_S256x128_S8192x128_1_0_0_1_n_n.rhsIdx i q 0).val = (q ⟨0, by decide⟩).val :=
  dot_S8192x256_S256x128_S8192x128_1_0_0_1_n_n.rhsIdx_val_of_single rfl i q
theorem rhs_wh_1 (i : S8192x128.Idx) (q : dot_S8192x256_S256x128_S8192x128_1_0_0_1_n_n.contr.Idx) :
    (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl

/-- The operand indices of the product `dot_S8192x128_S128x1_S8192x1_1_0_0_1_n_n` at a result index and a contraction index, axis by axis: the left
    operand reads the result's row and the contraction coordinate, the right operand the contraction coordinate and
    the result's column. -/
theorem lhs_s_0 (i : S8192x1.Idx) (q : dot_S8192x128_S128x1_S8192x1_1_0_0_1_n_n.contr.Idx) :
    (dot_S8192x128_S128x1_S8192x1_1_0_0_1_n_n.lhsIdx i q 0).val = (i 0).val := by
  unfold DotDims.lhsIdx
  rw [dif_neg (show ¬(0 : Fin S8192x128.rank) ∈ dot_S8192x128_S128x1_S8192x1_1_0_0_1_n_n.lhsBatch by decide), dif_pos (show (0 : Fin S8192x128.rank) ∈ dot_S8192x128_S128x1_S8192x1_1_0_0_1_n_n.lhsNonContracting by decide)]
  rfl
theorem lhs_s_1 (i : S8192x1.Idx) (q : dot_S8192x128_S128x1_S8192x1_1_0_0_1_n_n.contr.Idx) :
    (dot_S8192x128_S128x1_S8192x1_1_0_0_1_n_n.lhsIdx i q 1).val = (q ⟨0, by decide⟩).val :=
  dot_S8192x128_S128x1_S8192x1_1_0_0_1_n_n.lhsIdx_val_of_single rfl i q
theorem rhs_s_0 (i : S8192x1.Idx) (q : dot_S8192x128_S128x1_S8192x1_1_0_0_1_n_n.contr.Idx) :
    (dot_S8192x128_S128x1_S8192x1_1_0_0_1_n_n.rhsIdx i q 0).val = (q ⟨0, by decide⟩).val :=
  dot_S8192x128_S128x1_S8192x1_1_0_0_1_n_n.rhsIdx_val_of_single rfl i q
theorem rhs_s_1 (i : S8192x1.Idx) (q : dot_S8192x128_S128x1_S8192x1_1_0_0_1_n_n.contr.Idx) :
    (dot_S8192x128_S128x1_S8192x1_1_0_0_1_n_n.rhsIdx i q 1).val = (i 1).val := by
  unfold DotDims.rhsIdx
  rw [dif_neg (show ¬(1 : Fin S128x1.rank) ∈ dot_S8192x128_S128x1_S8192x1_1_0_0_1_n_n.rhsBatch by decide), dif_pos (show (1 : Fin S128x1.rank) ∈ dot_S8192x128_S128x1_S8192x1_1_0_0_1_n_n.rhsNonContracting by decide)]
  rfl

/-- The operand indices of the product `dot_S8192x8192_S8192x128_S8192x128_1_0_0_1_n_n` at a result index and a contraction index, axis by axis: the left
    operand reads the result's row and the contraction coordinate, the right operand the contraction coordinate and
    the result's column. -/
theorem lhs_awh_0 (i : S8192x128.Idx) (q : dot_S8192x8192_S8192x128_S8192x128_1_0_0_1_n_n.contr.Idx) :
    (dot_S8192x8192_S8192x128_S8192x128_1_0_0_1_n_n.lhsIdx i q 0).val = (i 0).val := by
  unfold DotDims.lhsIdx
  rw [dif_neg (show ¬(0 : Fin S8192x8192.rank) ∈ dot_S8192x8192_S8192x128_S8192x128_1_0_0_1_n_n.lhsBatch by decide), dif_pos (show (0 : Fin S8192x8192.rank) ∈ dot_S8192x8192_S8192x128_S8192x128_1_0_0_1_n_n.lhsNonContracting by decide)]
  rfl
theorem lhs_awh_1 (i : S8192x128.Idx) (q : dot_S8192x8192_S8192x128_S8192x128_1_0_0_1_n_n.contr.Idx) :
    (dot_S8192x8192_S8192x128_S8192x128_1_0_0_1_n_n.lhsIdx i q 1).val = (q ⟨0, by decide⟩).val :=
  dot_S8192x8192_S8192x128_S8192x128_1_0_0_1_n_n.lhsIdx_val_of_single rfl i q
theorem rhs_awh_0 (i : S8192x128.Idx) (q : dot_S8192x8192_S8192x128_S8192x128_1_0_0_1_n_n.contr.Idx) :
    (dot_S8192x8192_S8192x128_S8192x128_1_0_0_1_n_n.rhsIdx i q 0).val = (q ⟨0, by decide⟩).val :=
  dot_S8192x8192_S8192x128_S8192x128_1_0_0_1_n_n.rhsIdx_val_of_single rfl i q
theorem rhs_awh_1 (i : S8192x128.Idx) (q : dot_S8192x8192_S8192x128_S8192x128_1_0_0_1_n_n.contr.Idx) :
    (dot_S8192x8192_S8192x128_S8192x128_1_0_0_1_n_n.rhsIdx i q 1).val = (i 1).val := by
  unfold DotDims.rhsIdx
  rw [dif_neg (show ¬(1 : Fin S8192x128.rank) ∈ dot_S8192x8192_S8192x128_S8192x128_1_0_0_1_n_n.rhsBatch by decide), dif_pos (show (1 : Fin S8192x128.rank) ∈ dot_S8192x8192_S8192x128_S8192x128_1_0_0_1_n_n.rhsNonContracting by decide)]
  rfl

/-- The operand indices of the product `dot_S8192x128_S128x64_S8192x64_1_0_0_1_n_n` at a result index and a contraction index, axis by axis: the left
    operand reads the result's row and the contraction coordinate, the right operand the contraction coordinate and
    the result's column. -/
theorem lhs_sup_0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem lhs_sup_1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem rhs_sup_0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem rhs_sup_1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- The operand indices of the product `dot_S8192x8192_S8192x64_S8192x64_1_0_0_1_n_n` at a result index and a contraction index, axis by axis: the left
    operand reads the result's row and the contraction coordinate, the right operand the contraction coordinate and
    the result's column. -/
theorem lhs_agg_0 (i : S8192x64.Idx) (q : dot_S8192x8192_S8192x64_S8192x64_1_0_0_1_n_n.contr.Idx) :
    (dot_S8192x8192_S8192x64_S8192x64_1_0_0_1_n_n.lhsIdx i q 0).val = (i 0).val := by
  unfold DotDims.lhsIdx
  rw [dif_neg (show ¬(0 : Fin S8192x8192.rank) ∈ dot_S8192x8192_S8192x64_S8192x64_1_0_0_1_n_n.lhsBatch by decide), dif_pos (show (0 : Fin S8192x8192.rank) ∈ dot_S8192x8192_S8192x64_S8192x64_1_0_0_1_n_n.lhsNonContracting by decide)]
  rfl
theorem lhs_agg_1 (i : S8192x64.Idx) (q : dot_S8192x8192_S8192x64_S8192x64_1_0_0_1_n_n.contr.Idx) :
    (dot_S8192x8192_S8192x64_S8192x64_1_0_0_1_n_n.lhsIdx i q 1).val = (q ⟨0, by decide⟩).val :=
  dot_S8192x8192_S8192x64_S8192x64_1_0_0_1_n_n.lhsIdx_val_of_single rfl i q
theorem rhs_agg_0 (i : S8192x64.Idx) (q : dot_S8192x8192_S8192x64_S8192x64_1_0_0_1_n_n.contr.Idx) :
    (dot_S8192x8192_S8192x64_S8192x64_1_0_0_1_n_n.rhsIdx i q 0).val = (q ⟨0, by decide⟩).val :=
  dot_S8192x8192_S8192x64_S8192x64_1_0_0_1_n_n.rhsIdx_val_of_single rfl i q
theorem rhs_agg_1 (i : S8192x64.Idx) (q : dot_S8192x8192_S8192x64_S8192x64_1_0_0_1_n_n.contr.Idx) :
    (dot_S8192x8192_S8192x64_S8192x64_1_0_0_1_n_n.rhsIdx i q 1).val = (i 1).val := by
  unfold DotDims.rhsIdx
  rw [dif_neg (show ¬(1 : Fin S8192x64.rank) ∈ dot_S8192x8192_S8192x64_S8192x64_1_0_0_1_n_n.rhsBatch by decide), dif_pos (show (1 : Fin S8192x64.rank) ∈ dot_S8192x8192_S8192x64_S8192x64_1_0_0_1_n_n.rhsNonContracting by decide)]
  rfl

/-- The operand indices of the product `dot_S8192x64_S64x64_S8192x64_1_0_0_1_n_n` at a result index and a contraction index, axis by axis: the left
    operand reads the result's row and the contraction coordinate, the right operand the contraction coordinate and
    the result's column. -/
theorem lhs_lin_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs_lin_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs_lin_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs_lin_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The operand indices of the product `dot_S8192x64_S64x8192_S8192x8192_1_0_0_1_n_n` at a result index and a contraction index, axis by axis: the left
    operand reads the result's row and the contraction coordinate, the right operand the contraction coordinate and
    the result's column. -/
theorem lhs_rec_0 (i : S8192x8192.Idx) (q : dot_S8192x64_S64x8192_S8192x8192_1_0_0_1_n_n.contr.Idx) :
    (dot_S8192x64_S64x8192_S8192x8192_1_0_0_1_n_n.lhsIdx i q 0).val = (i 0).val := by
  unfold DotDims.lhsIdx
  rw [dif_neg (show ¬(0 : Fin S8192x64.rank) ∈ dot_S8192x64_S64x8192_S8192x8192_1_0_0_1_n_n.lhsBatch by decide), dif_pos (show (0 : Fin S8192x64.rank) ∈ dot_S8192x64_S64x8192_S8192x8192_1_0_0_1_n_n.lhsNonContracting by decide)]
  rfl
theorem lhs_rec_1 (i : S8192x8192.Idx) (q : dot_S8192x64_S64x8192_S8192x8192_1_0_0_1_n_n.contr.Idx) :
    (dot_S8192x64_S64x8192_S8192x8192_1_0_0_1_n_n.lhsIdx i q 1).val = (q ⟨0, by decide⟩).val :=
  dot_S8192x64_S64x8192_S8192x8192_1_0_0_1_n_n.lhsIdx_val_of_single rfl i q
theorem rhs_rec_0 (i : S8192x8192.Idx) (q : dot_S8192x64_S64x8192_S8192x8192_1_0_0_1_n_n.contr.Idx) :
    (dot_S8192x64_S64x8192_S8192x8192_1_0_0_1_n_n.rhsIdx i q 0).val = (q ⟨0, by decide⟩).val :=
  dot_S8192x64_S64x8192_S8192x8192_1_0_0_1_n_n.rhsIdx_val_of_single rfl i q
theorem rhs_rec_1 (i : S8192x8192.Idx) (q : dot_S8192x64_S64x8192_S8192x8192_1_0_0_1_n_n.contr.Idx) :
    (dot_S8192x64_S64x8192_S8192x8192_1_0_0_1_n_n.rhsIdx i q 1).val = (i 1).val := by
  unfold DotDims.rhsIdx
  rw [dif_neg (show ¬(1 : Fin S64x8192.rank) ∈ dot_S8192x64_S64x8192_S8192x8192_1_0_0_1_n_n.rhsBatch by decide), dif_pos (show (1 : Fin S64x8192.rank) ∈ dot_S8192x64_S64x8192_S8192x8192_1_0_0_1_n_n.rhsNonContracting by decide)]
  rfl

/-! ## The stages at an index, over the extended reals

Each product is the plain sum over its contraction coordinate; a slice reads its operand at the offset row; the
rectifier is the maximum with zero; the reconstruction sums the products of two rows of `mu`. -/

/-- `x · wa` at (i, k): the sum over the 256 features. -/
theorem rWh_apply (x : FVec Ideal S8192x256 .f32) (wa : FVec Ideal S256x128 .f32) (i : Fin 8192) (k : Fin 128) :
    rWh (F := Ideal) x wa (ix2 i k) = ∑ d : Fin 256, x (ix2 i d) * wa (ix2 d k) := by
  unfold rWh
  simp only [Host.dotGeneral]
  rw [Ideal.dotGeneral_apply, ← Equiv.sum_comp (contrEquiv1 dot_S8192x256_S256x128_S8192x128_1_0_0_1_n_n 256 rfl rfl).symm]
  refine Finset.sum_congr rfl fun d _ => ?_
  have hk := contrEquiv1_symm_val dot_S8192x256_S256x128_S8192x128_1_0_0_1_n_n 256 rfl rfl d
  have el : dot_S8192x256_S256x128_S8192x128_1_0_0_1_n_n.lhsIdx (ix2 i k) ((contrEquiv1 dot_S8192x256_S256x128_S8192x128_1_0_0_1_n_n 256 rfl rfl).symm d) = ix2 i d :=
    funext fun a => Fin.ext (by
      match a with
      | ⟨0, _⟩ => exact lhs_wh_0 _ _
      | ⟨1, _⟩ => exact (lhs_wh_1 _ _).trans hk)
  have er : dot_S8192x256_S256x128_S8192x128_1_0_0_1_n_n.rhsIdx (ix2 i k) ((contrEquiv1 dot_S8192x256_S256x128_S8192x128_1_0_0_1_n_n 256 rfl rfl).symm d) = ix2 d k :=
    funext fun a => Fin.ext (by
      match a with
      | ⟨0, _⟩ => exact (rhs_wh_0 _ _).trans hk
      | ⟨1, _⟩ => exact rhs_wh_1 _ _)
  rw [el, er]

/-- The upper half of `a` at row k is `a` at row k. -/
theorem rA1_apply (a : FVec Ideal S256x1 .f32) (k : Fin 128) :
    rA1 (F := Ideal) a (ix2 k (0 : Fin 1)) = a (ix2 (⟨k.val, by omega⟩ : Fin 256) (0 : Fin 1)) := by
  unfold rA1
  refine extractStridedSlice_apply _ a _ (ix2 k (0 : Fin 1)) (ix2 (⟨k.val, by omega⟩ : Fin 256) (0 : Fin 1)) fun b => ?_
  match b with
  | ⟨0, _⟩ => exact (Nat.zero_add _).symm
  | ⟨1, _⟩ => rfl

/-- The lower half of `a` at row k is `a` at row 128 + k. -/
theorem rA2_apply (a : FVec Ideal S256x1 .f32) (k : Fin 128) :
    rA2 (F := Ideal) a (ix2 k (0 : Fin 1)) = a (ix2 (⟨128 + k.val, by omega⟩ : Fin 256) (0 : Fin 1)) := by
  unfold rA2
  refine extractStridedSlice_apply _ a _ (ix2 k (0 : Fin 1)) (ix2 (⟨128 + k.val, by omega⟩ : Fin 256) (0 : Fin 1)) fun b => ?_
  match b with
  | ⟨0, _⟩ => rfl
  | ⟨1, _⟩ => rfl

/-- `wh · av` at row i: the sum over the 128 transformed features. -/
theorem rS_apply (wh : FVec Ideal S8192x128 .f32) (av : FVec Ideal S128x1 .f32) (i : Fin 8192) :
    rS (F := Ideal) wh av (ix2 i (0 : Fin 1)) = ∑ k : Fin 128, wh (ix2 i k) * av (ix2 k (0 : Fin 1)) := by
  unfold rS
  simp only [Host.dotGeneral]
  rw [Ideal.dotGeneral_apply, ← Equiv.sum_comp (contrEquiv1 dot_S8192x128_S128x1_S8192x1_1_0_0_1_n_n 128 rfl rfl).symm]
  refine Finset.sum_congr rfl fun k _ => ?_
  have hk := contrEquiv1_symm_val dot_S8192x128_S128x1_S8192x1_1_0_0_1_n_n 128 rfl rfl k
  have el : dot_S8192x128_S128x1_S8192x1_1_0_0_1_n_n.lhsIdx (ix2 i (0 : Fin 1)) ((contrEquiv1 dot_S8192x128_S128x1_S8192x1_1_0_0_1_n_n 128 rfl rfl).symm k) = ix2 i k :=
    funext fun a => Fin.ext (by
      match a with
      | ⟨0, _⟩ => exact lhs_s_0 _ _
      | ⟨1, _⟩ => exact (lhs_s_1 _ _).trans hk)
  have er : dot_S8192x128_S128x1_S8192x1_1_0_0_1_n_n.rhsIdx (ix2 i (0 : Fin 1)) ((contrEquiv1 dot_S8192x128_S128x1_S8192x1_1_0_0_1_n_n 128 rfl rfl).symm k) = ix2 k (0 : Fin 1) :=
    funext fun a => Fin.ext (by
      match a with
      | ⟨0, _⟩ => exact (rhs_s_0 _ _).trans hk
      | ⟨1, _⟩ => exact rhs_s_1 _ _)
  rw [el, er]

/-- `att · wh` at (i, k): the sum over the 8192 nodes. -/
theorem rAwh_apply (att : FVec Ideal S8192x8192 .f32) (wh : FVec Ideal S8192x128 .f32) (i : Fin 8192) (k : Fin 128) :
    rAwh (F := Ideal) att wh (ix2 i k) = ∑ j : Fin 8192, att (ix2 i j) * wh (ix2 j k) := by
  unfold rAwh
  simp only [Host.dotGeneral]
  rw [Ideal.dotGeneral_apply, ← Equiv.sum_comp (contrEquiv1 dot_S8192x8192_S8192x128_S8192x128_1_0_0_1_n_n 8192 rfl rfl).symm]
  refine Finset.sum_congr rfl fun j _ => ?_
  have hk := contrEquiv1_symm_val dot_S8192x8192_S8192x128_S8192x128_1_0_0_1_n_n 8192 rfl rfl j
  have el : dot_S8192x8192_S8192x128_S8192x128_1_0_0_1_n_n.lhsIdx (ix2 i k) ((contrEquiv1 dot_S8192x8192_S8192x128_S8192x128_1_0_0_1_n_n 8192 rfl rfl).symm j) = ix2 i j :=
    funext fun a => Fin.ext (by
      match a with
      | ⟨0, _⟩ => exact lhs_awh_0 _ _
      | ⟨1, _⟩ => exact (lhs_awh_1 _ _).trans hk)
  have er : dot_S8192x8192_S8192x128_S8192x128_1_0_0_1_n_n.rhsIdx (ix2 i k) ((contrEquiv1 dot_S8192x8192_S8192x128_S8192x128_1_0_0_1_n_n 8192 rfl rfl).symm j) = ix2 j k :=
    funext fun a => Fin.ext (by
      match a with
      | ⟨0, _⟩ => exact (rhs_awh_0 _ _).trans hk
      | ⟨1, _⟩ => exact rhs_awh_1 _ _)
  rw [el, er]

/-- `g · w1` at (i, q): the sum over the 128 features. -/
theorem rSup_apply (g : FVec Ideal S8192x128 .f32) (w1 : FVec Ideal S128x64 .f32) (i : Fin 8192) (q : Fin 64) :
    rSup (F := Ideal) g w1 (ix2 i q) = ∑ k : Fin 128, g (ix2 i k) * w1 (ix2 k q) := by
  unfold rSup
  simp only [Host.dotGeneral]
  rw [Ideal.dotGeneral_apply, ← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 i q) ((contrEquiv1 dot_S8192x128_S128x64_S8192x64_1_0_0_1_n_n 128 rfl rfl).symm k) = ix2 i k :=
    funext fun a => Fin.ext (by
      match a with
      | ⟨0, _⟩ => exact lhs_sup_0 _ _
      | ⟨1, _⟩ => exact (lhs_sup_1 _ _).trans hk)
  have er : dot_S8192x128_S128x64_S8192x64_1_0_0_1_n_n.rhsIdx (ix2 i q) ((contrEquiv1 dot_S8192x128_S128x64_S8192x64_1_0_0_1_n_n 128 rfl rfl).symm k) = ix2 k q :=
    funext fun a => Fin.ext (by
      match a with
      | ⟨0, _⟩ => exact (rhs_sup_0 _ _).trans hk
      | ⟨1, _⟩ => exact rhs_sup_1 _ _)
  rw [el, er]

/-- `adj · s` at (i, q): the sum over the 8192 nodes. -/
theorem rAgg_apply (adj : FVec Ideal S8192x8192 .f32) (s : FVec Ideal S8192x64 .f32) (i : Fin 8192) (q : Fin 64) :
    rAgg (F := Ideal) adj s (ix2 i q) = ∑ j : Fin 8192, adj (ix2 i j) * s (ix2 j q) := by
  unfold rAgg
  simp only [Host.dotGeneral]
  rw [Ideal.dotGeneral_apply, ← Equiv.sum_comp (contrEquiv1 dot_S8192x8192_S8192x64_S8192x64_1_0_0_1_n_n 8192 rfl rfl).symm]
  refine Finset.sum_congr rfl fun j _ => ?_
  have hk := contrEquiv1_symm_val dot_S8192x8192_S8192x64_S8192x64_1_0_0_1_n_n 8192 rfl rfl j
  have el : dot_S8192x8192_S8192x64_S8192x64_1_0_0_1_n_n.lhsIdx (ix2 i q) ((contrEquiv1 dot_S8192x8192_S8192x64_S8192x64_1_0_0_1_n_n 8192 rfl rfl).symm j) = ix2 i j :=
    funext fun a => Fin.ext (by
      match a with
      | ⟨0, _⟩ => exact lhs_agg_0 _ _
      | ⟨1, _⟩ => exact (lhs_agg_1 _ _).trans hk)
  have er : dot_S8192x8192_S8192x64_S8192x64_1_0_0_1_n_n.rhsIdx (ix2 i q) ((contrEquiv1 dot_S8192x8192_S8192x64_S8192x64_1_0_0_1_n_n 8192 rfl rfl).symm j) = ix2 j q :=
    funext fun a => Fin.ext (by
      match a with
      | ⟨0, _⟩ => exact (rhs_agg_0 _ _).trans hk
      | ⟨1, _⟩ => exact rhs_agg_1 _ _)
  rw [el, er]

/-- The rectifier at (i, q): the maximum of the entry and zero. -/
theorem rRelu_apply (v : FVec Ideal S8192x64 .f32) (i : Fin 8192) (q : Fin 64) :
    rRelu (F := Ideal) v (ix2 i q) = max (v (ix2 i q)) 0 := by
  unfold rRelu
  rw [maximumf_apply, broadcastInDim_apply _ _ _ (ix2 i q) ix0 (fun a => a.elim0), constant_apply, Ideal.ofBits_zero_f32]

/-- `h · w` at (i, q): the sum over the 64 hidden features. -/
theorem rLin_apply (h : FVec Ideal S8192x64 .f32) (w : FVec Ideal S64x64 .f32) (i : Fin 8192) (q : Fin 64) :
    rLin (F := Ideal) h w (ix2 i q) = ∑ k : Fin 64, h (ix2 i k) * w (ix2 k q) := by
  unfold rLin
  simp only [Host.dotGeneral]
  rw [Ideal.dotGeneral_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 i q) ((contrEquiv1 dot_S8192x64_S64x64_S8192x64_1_0_0_1_n_n 64 rfl rfl).symm k) = ix2 i k :=
    funext fun a => Fin.ext (by
      match a with
      | ⟨0, _⟩ => exact lhs_lin_0 _ _
      | ⟨1, _⟩ => exact (lhs_lin_1 _ _).trans hk)
  have er : dot_S8192x64_S64x64_S8192x64_1_0_0_1_n_n.rhsIdx (ix2 i q) ((contrEquiv1 dot_S8192x64_S64x64_S8192x64_1_0_0_1_n_n 64 rfl rfl).symm k) = ix2 k q :=
    funext fun a => Fin.ext (by
      match a with
      | ⟨0, _⟩ => exact (rhs_lin_0 _ _).trans hk
      | ⟨1, _⟩ => exact rhs_lin_1 _ _)
  rw [el, er]

/-- `mu · muᵀ` at (i, j): the sum over the 64 latent coordinates of the products of rows i and j of `mu` — the right
    operand is the transpose, which at (l, j) reads `mu` at (j, l). -/
theorem rRecon_apply (mu : FVec Ideal S8192x64 .f32) (i j : Fin 8192) :
    rRecon (F := Ideal) mu (ix2 i j) = ∑ l : Fin 64, mu (ix2 i l) * mu (ix2 j l) := by
  unfold rRecon
  simp only [Host.dotGeneral]
  rw [Ideal.dotGeneral_apply, ← Equiv.sum_comp (contrEquiv1 dot_S8192x64_S64x8192_S8192x8192_1_0_0_1_n_n 64 rfl rfl).symm]
  refine Finset.sum_congr rfl fun l _ => ?_
  have hk := contrEquiv1_symm_val dot_S8192x64_S64x8192_S8192x8192_1_0_0_1_n_n 64 rfl rfl l
  have el : dot_S8192x64_S64x8192_S8192x8192_1_0_0_1_n_n.lhsIdx (ix2 i j) ((contrEquiv1 dot_S8192x64_S64x8192_S8192x8192_1_0_0_1_n_n 64 rfl rfl).symm l) = ix2 i l :=
    funext fun a => Fin.ext (by
      match a with
      | ⟨0, _⟩ => exact lhs_rec_0 _ _
      | ⟨1, _⟩ => exact (lhs_rec_1 _ _).trans hk)
  have er : dot_S8192x64_S64x8192_S8192x8192_1_0_0_1_n_n.rhsIdx (ix2 i j) ((contrEquiv1 dot_S8192x64_S64x8192_S8192x8192_1_0_0_1_n_n 64 rfl rfl).symm l) = ix2 l j :=
    funext fun a => Fin.ext (by
      match a with
      | ⟨0, _⟩ => exact (rhs_rec_0 _ _).trans hk
      | ⟨1, _⟩ => exact rhs_rec_1 _ _)
  rw [el, er]
  rw [transpose_apply [1, 0] mu _ (ix2 l j) (ix2 j l) (fun b => by
    match b with
    | ⟨0, _⟩ => rfl
    | ⟨1, _⟩ => rfl)]

end Cert.ReferenceIdeal.HandVal

end
-- ==== Proof.Att.Law.lean ====
/-
  The attention row in the reference's order, and its agreement with the kernel's.

  For one node the reference computes, from the adjacency row, the two scores and the projected features:
    zR j   = (e if e ≥ 0 else c · e) at e = s1 i + s2 j  where adj i j > 0, the fill value elsewhere
    pR j   = exp (zR j − max (−∞) (max_j zR j))
    attR j = pR j / (0 + Σ_j pR j)
    awhR k = Σ_j attR j · wh j k
    gR k   = eluR (eluR (awhR k)),   eluR v = v if v > 0, else 1 · expm1 (0 if v > 0 else v)
  The kernel's row (the other file of this directory) takes max e (c · e) for the leaky unit, divides once after the sum,
  and spells expm1 as exp − 1. The two agree when the scores and the features are real numbers:
    • 0 < c ≤ 1 is real, so for real e: max e (c · e) is e when e ≥ 0 and c · e when e < 0;
    • every masked score is then real (the fill is a real number), the maximum of 8192 reals folded from −∞ is
      real, each exponential is a positive real and so is their sum d;
    • for reals p_j, w_j and d > 0:  Σ_j (p_j / d) · w_j = (Σ_j p_j · w_j) / d;
    • max (−∞) x = x, 0 + x = x, 1 · x = x, expm1 x = exp x − 1 hold for every extended real.
-/
import proofs.«109506_g1580547973939_cont_week2b_922_2_alg».proof.Proof.Att.Spec
import proofs.«109506_g1580547973939_cont_week2b_922_2_alg».proof.Proof.LibIdealFinite
import Mathlib.Data.Finset.Fold
import Mathlib.Algebra.BigOperators.Field
import Mathlib.Algebra.Order.BigOperators.Group.Finset

noncomputable section

namespace Cert.Hand.Att

open Idealize.ShloMosaic IdealFinite
open scoped BigOperators

/-! ### The reference's row, in its own order -/

/-- The leaky unit as the reference spells it: a choice on e ≥ 0 between e and slope · e. -/
def lreluR (e : EReal) : EReal := Scalar.select (Ideal.cmp .oge e zero) e (c02 * e)

/-- A row's masked scores. -/
def zR (adjRow : Fin 8192 → EReal) (s1i : EReal) (s2 : Fin 8192 → EReal) (j : Fin 8192) : EReal :=
  Scalar.select (Ideal.cmp .ogt (adjRow j) zero) (lreluR (s1i + s2 j)) negBig

/-- The row maximum folded from minus infinity, then once more joined with minus infinity. -/
def rmaxR (zr : Fin 8192 → EReal) : EReal := max ninf ((Finset.univ : Finset (Fin 8192)).fold max ninf zr)

/-- The unnormalised weights, their sum from the initial value zero, and the normalised weights. -/
def pR (zr : Fin 8192 → EReal) (j : Fin 8192) : EReal := Ideal.exp (zr j - rmaxR zr)
def denR (zr : Fin 8192 → EReal) : EReal := zero + ∑ j, pR zr j
def attR (zr : Fin 8192 → EReal) (j : Fin 8192) : EReal := Ideal.div (pR zr j) (denR zr)

/-- The attended features: the normalised weights against the feature rows. -/
def awhR (zr : Fin 8192 → EReal) (wh : Fin 8192 → Fin 128 → EReal) (k : Fin 128) : EReal :=
  ∑ j, attR zr j * wh j k

/-- The exponential-linear unit as the reference spells it. -/
def eluR (v : EReal) : EReal :=
  Scalar.select (Ideal.cmp .ogt v zero) v
    (one * Ideal.expm1 (Scalar.select (Ideal.cmp .ogt v zero) zero v))

/-- The row's output before the last product with the weights, in the reference's order. -/
def gR (adjRow : Fin 8192 → EReal) (s1i : EReal) (s2 : Fin 8192 → EReal) (wh : Fin 8192 → Fin 128 → EReal)
    (k : Fin 128) : EReal :=
  eluR (eluR (awhR (zR adjRow s1i s2) wh k))

/-! ### The literals -/

theorem zero_eq : zero = 0 := by
  unfold zero; rw [ofBits_00000000]; rfl

theorem one_eq : one = 1 := by
  unfold one; rw [ofBits_3F800000]; rfl

theorem ninf_eq : ninf = ⊥ := by
  simp [ninf, Ideal.ofBits, Ideal.ieee]

/-- The slope is the binary32 number nearest 0.2: 13421773 · 2^(-26). -/
theorem c02_eq : c02 = ((13421773 / 67108864 : ℝ) : EReal) := by
  simp [c02, Ideal.ofBits, Ideal.ieee, -EReal.coe_mul]; norm_num

/-- The fill is the real number −16763806 · 2^29. -/
theorem negBig_eq : negBig = ((-(16763806 * 536870912) : ℝ) : EReal) := by
  simp [negBig, Ideal.ofBits, Ideal.ieee, -EReal.coe_mul]; norm_num

/-! ### Choices on a comparison -/

/-- A choice on x > y. -/
theorem select_ogt {α : Type} (x y : EReal) (a b : α) :
    Scalar.select (Ideal.cmp .ogt x y) a b = if y < x then a else b := by
  unfold Scalar.select Ideal.cmp
  by_cases h : y < x <;> simp [h]

/-- A choice on x ≥ y. -/
theorem select_oge {α : Type} (x y : EReal) (a b : α) :
    Scalar.select (Ideal.cmp .oge x y) a b = if y ≤ x then a else b := by
  unfold Scalar.select Ideal.cmp
  by_cases h : y ≤ x <;> simp [h]

/-! ### The leaky unit -/

/-- The embedding of the reals in the extended reals is monotone, so it commutes with the maximum. -/
theorem coe_max (a b : ℝ) : ((max a b : ℝ) : EReal) = max (a : EReal) (b : EReal) :=
  EReal.coe_strictMono.monotone.map_max

/-- At a real e the kernel's leaky unit is the real number max e (c · e). -/
theorem lrelu_coe (e : ℝ) : lrelu (e : EReal) = ((max e (13421773 / 67108864 * e) : ℝ) : EReal) := by
  unfold lrelu
  rw [c02_eq, ← EReal.coe_mul, ← coe_max]

/-- With slope c ≤ 1: e ≥ c · e when e ≥ 0, and c · e ≥ e when e < 0; so the choice is the maximum. -/
theorem lreluR_coe (e : ℝ) : lreluR (e : EReal) = lrelu (e : EReal) := by
  rw [lrelu_coe]
  unfold lreluR
  rw [select_oge, zero_eq, c02_eq, ← EReal.coe_mul]
  split_ifs with h
  · have h' : 0 ≤ e := by exact_mod_cast h
    rw [max_eq_left (by nlinarith)]
  · have h' : e < 0 := by exact_mod_cast (not_le.mp h)
    rw [max_eq_right (by nlinarith)]

/-! ### The masked scores -/

theorem zR_eq (adjRow : Fin 8192 → EReal) {s1i : EReal} {s2 : Fin 8192 → EReal} (hs1 : IsFin s1i)
    (hs2 : ∀ j, IsFin (s2 j)) (j : Fin 8192) : zR adjRow s1i s2 j = z adjRow s1i s2 j := by
  obtain ⟨a, rfl⟩ := hs1
  obtain ⟨b, hb⟩ := hs2 j
  unfold zR z
  rw [hb, ← EReal.coe_add, lreluR_coe]

/-- Every masked score is real: a leaky unit of a real, or the fill. -/
theorem z_isFin (adjRow : Fin 8192 → EReal) {s1i : EReal} {s2 : Fin 8192 → EReal} (hs1 : IsFin s1i)
    (hs2 : ∀ j, IsFin (s2 j)) (j : Fin 8192) : IsFin (z adjRow s1i s2 j) := by
  obtain ⟨a, rfl⟩ := hs1
  obtain ⟨b, hb⟩ := hs2 j
  unfold z
  rw [select_ogt, hb, ← EReal.coe_add, lrelu_coe]
  split_ifs
  · exact ⟨_, rfl⟩
  · exact ⟨_, negBig_eq⟩

/-! ### The row maximum -/

/-- Joining once more with −∞ changes nothing. -/
theorem rmaxR_eq (zr : Fin 8192 → EReal) : rmaxR zr = rmax zr := by
  unfold rmaxR rmax
  rw [ninf_eq]
  exact max_bot_left _

/-- The maximum of 8192 reals folded from −∞ is real: below +∞ as every term is, above −∞ as the first term is. -/
theorem rmax_isFin {zr : Fin 8192 → EReal} (h : ∀ j, IsFin (zr j)) : IsFin (rmax zr) := by
  have hlt : rmax zr < ⊤ := by
    unfold rmax
    rw [Finset.fold_max_lt]
    refine ⟨by rw [ninf_eq]; exact bot_lt_top, fun j _ => ?_⟩
    obtain ⟨r, hr⟩ := h j
    rw [hr]; exact EReal.coe_lt_top r
  have hgt : ⊥ < rmax zr := by
    unfold rmax
    rw [Finset.lt_fold_max]
    refine Or.inr ⟨⟨0, by norm_num⟩, Finset.mem_univ _, ?_⟩
    obtain ⟨r, hr⟩ := h ⟨0, by norm_num⟩
    rw [hr]; exact EReal.bot_lt_coe r
  exact ⟨(rmax zr).toReal, (EReal.coe_toReal hlt.ne hgt.ne').symm⟩

/-! ### The weights and their sum -/

theorem pR_eq (zr : Fin 8192 → EReal) (j : Fin 8192) : pR zr j = p zr j := by
  unfold pR p; rw [rmaxR_eq]

theorem denR_eq (zr : Fin 8192 → EReal) : denR zr = den zr := by
  unfold denR den
  rw [zero_eq, zero_add]
  simp only [pR_eq]

/-- Each weight is the exponential of a real, a positive real. -/
theorem p_pos {zr : Fin 8192 → EReal} (h : ∀ j, IsFin (zr j)) (j : Fin 8192) :
    ∃ r : ℝ, 0 < r ∧ p zr j = (r : EReal) := by
  obtain ⟨a, ha⟩ := h j
  obtain ⟨m, hm⟩ := rmax_isFin h
  exact ⟨Real.exp (a - m), Real.exp_pos _, by unfold p; rw [ha, hm, ← EReal.coe_sub, Ideal.exp_coe]⟩

/-! ### The quotient before or after the sum -/

/-- For real weights p_j with positive real sum d and real features: Σ_j (p_j / d) · w_j = (Σ_j p_j · w_j) / d. -/
theorem awhR_eq {zr : Fin 8192 → EReal} {wh : Fin 8192 → Fin 128 → EReal} (hz : ∀ j, IsFin (zr j))
    (hwh : ∀ j k, IsFin (wh j k)) (k : Fin 128) : awhR zr wh k = awh zr wh k := by
  choose P hP0 hP using p_pos hz
  choose W hW using hwh
  have hD : den zr = ((∑ j, P j : ℝ) : EReal) := by
    unfold den; simp only [hP]; rw [coe_finset_sum]
  have hD0 : 0 < ∑ j, P j := Finset.sum_pos (fun j _ => hP0 j) ⟨⟨0, by norm_num⟩, Finset.mem_univ _⟩
  unfold awhR attR awh
  simp only [pR_eq, denR_eq, hD, hP, hW, div_coe_coe _ hD0.ne', ← EReal.coe_mul]
  rw [← coe_finset_sum, ← coe_finset_sum, div_coe_coe _ hD0.ne', Finset.sum_div]
  congr 1
  refine Finset.sum_congr rfl fun j _ => ?_
  rw [div_mul_eq_mul_div]

/-! ### The exponential-linear unit -/

/-- Where v > 0 both give v; elsewhere the inner choice gives v, and 1 · expm1 v = exp v − 1. -/
theorem eluR_eq (v : EReal) : eluR v = elu v := by
  unfold eluR elu
  simp only [select_ogt]
  split_ifs with h
  · rfl
  · rw [one_eq, one_mul]; rfl

/-! ### The row -/

/-- With real scores and real features the reference's row is the kernel's. -/
theorem gR_eq_g (adjRow : Fin 8192 → EReal) (s1i : EReal) (s2 : Fin 8192 → EReal) (wh : Fin 8192 → Fin 128 → EReal)
    (k : Fin 128) (hs1 : IdealFinite.IsFin s1i) (hs2 : ∀ j, IdealFinite.IsFin (s2 j))
    (hwh : ∀ j k, IdealFinite.IsFin (wh j k)) : gR adjRow s1i s2 wh k = g adjRow s1i s2 wh k := by
  unfold gR g
  have hz : zR adjRow s1i s2 = z adjRow s1i s2 := funext fun j => zR_eq adjRow hs1 hs2 j
  rw [eluR_eq, eluR_eq, hz, awhR_eq (fun j => z_isFin adjRow hs1 hs2 j) hwh]

end Cert.Hand.Att

end
-- ==== Proof.Ref.Att.lean ====
/-
  The reference's attention stages read at an index.

  Each stage of the reference program is an array operation; read at one entry (i, ·) it involves row i of its operands
  only. Entry (i, j) of the pairwise sums is s1 i + s2 j (a column spread along rows plus a transposed column spread along
  columns); the leaky unit, the mask and the exponential-linear unit act entry by entry; the row maximum at i is the
  fold of max over row i from −∞, joined once more with −∞; the row sum at i is the initial value plus the sum over row i;
  the attention product at (i, k) is the sum over j of the weights' entry (i, j) times the features' entry (j, k).
  Composed, entry (i, k) of the twice-rectified attention product is the row function of the reference's order applied to
  row i of the adjacency, the score s1 i, all scores s2 and the features.
-/
import proofs.«109506_g1580547973939_cont_week2b_922_2_alg».proof.Proof.Ref.Run
import proofs.«109506_g1580547973939_cont_week2b_922_2_alg».proof.Proof.Ref.Dots
import proofs.«109506_g1580547973939_cont_week2b_922_2_alg».proof.Proof.Att.Law
import Idealize.ShloMosaic.Lib.ValueIdx
import Idealize.ShloMosaic.Lib.ValueLayout
import Idealize.ShloMosaic.PureOps.Ideal.Laws

noncomputable section

namespace Cert.ReferenceIdeal.HandVal

open Cert.ReferenceIdeal Cert.ReferenceIdeal.Hand Idealize.ShloMosaic Idealize.ShloMosaic.ValueIdx
open scoped BigOperators

/-! ### The entrywise stages -/

/-- Entry (i, j) of the pairwise sums: the first column at i plus the second column at j. -/
theorem rSum_apply (s1 s2 : FVec Ideal S8192x1 .f32) (i j : Fin 8192) :
    rSum (F := Ideal) s1 s2 (ix2 i j) = s1 (ix2 i (0 : Fin 1)) + s2 (ix2 j (0 : Fin 1)) := by
  unfold rSum
  rw [addf_apply]
  congr 1
  · exact broadcastInDim_apply _ _ _ _ (ix2 i (0 : Fin 1)) fun a => by
      match a with
      | ⟨0, _⟩ => rfl
      | ⟨1, _⟩ => rfl
  · refine (broadcastInDim_apply _ _ _ _ (ix2 (0 : Fin 1) j) fun a => by
      match a with
      | ⟨0, _⟩ => rfl
      | ⟨1, _⟩ => rfl).trans ?_
    exact transpose_ix2_apply s2 _ (0 : Fin 1) j

/-- The leaky unit acts entry by entry. -/
theorem rLeaky_apply (e : FVec Ideal S8192x8192 .f32) (y : S8192x8192.Idx) :
    rLeaky (F := Ideal) e y = Cert.Hand.Att.lreluR (e y) := rfl

/-- The mask acts entry by entry. -/
theorem rMask_apply (adj e : FVec Ideal S8192x8192 .f32) (y : S8192x8192.Idx) :
    rMask (F := Ideal) adj e y
      = Scalar.select (Ideal.cmp .ogt (adj y) Cert.Hand.Att.zero) (e y) Cert.Hand.Att.negBig := rfl

/-- The exponential-linear unit acts entry by entry. -/
theorem rElu_apply (v : FVec Ideal S8192x128 .f32) (y : S8192x128.Idx) :
    rElu (F := Ideal) v y = Cert.Hand.Att.eluR (v y) := rfl

/-- Row i of the masked logits is the reference's row of masked scores. -/
theorem rMask_rE_row (adj : FVec Ideal S8192x8192 .f32) (s1 s2 : FVec Ideal S8192x1 .f32) (i : Fin 8192) :
    (fun j => rMask (F := Ideal) adj (rE s1 s2) (ix2 i j))
      = Cert.Hand.Att.zR (fun j => adj (ix2 i j)) (s1 (ix2 i (0 : Fin 1))) (fun j => s2 (ix2 j (0 : Fin 1))) := by
  funext j
  rw [rMask_apply]
  unfold rE Cert.Hand.Att.zR
  rw [rLeaky_apply, rSum_apply]

/-! ### The row maximum and the row sum -/

/-- The source index over row i at column k: the index (i, k). -/
theorem lift_row (h : S8192x8192.Reduces [1] S8192) (i : Fin 8192) (k : Fin 8192) :
    h.lift (ix1 i) k = ix2 i k :=
  funext fun a => Fin.ext (by match a with | ⟨0, _⟩ => rfl | ⟨1, _⟩ => rfl)

/-- A column spread over the rows, from a vector: entry (i, j) reads the vector at i. -/
theorem spread_apply (v : S8192.Idx → EReal) (i j : Fin 8192) :
    broadcastInDim S8192x8192 ![0, 1] Gen.bcast_S8192x1_S8192x8192_0_1
      (broadcastInDim S8192x1 ![0] Gen.bcast_S8192_S8192x1_0 v) (ix2 i j) = v (ix1 i) := by
  refine (broadcastInDim_apply _ _ _ _ (ix2 i (0 : Fin 1)) fun a => by
    match a with
    | ⟨0, _⟩ => rfl
    | ⟨1, _⟩ => rfl).trans ?_
  exact broadcastInDim_apply _ _ _ _ (ix1 i) fun a => by
    match a with
    | ⟨0, _⟩ => rfl

/-- Entry (i, j) of the shifted logits: the entry less the reference's maximum of row i. -/
theorem rShift_apply (z : FVec Ideal S8192x8192 .f32) (i j : Fin 8192) :
    rShift (F := Ideal) z (ix2 i j) = z (ix2 i j) - Cert.Hand.Att.rmaxR (fun j => z (ix2 i j)) := by
  unfold rShift
  rw [subf_apply, spread_apply, maximumf_apply,
    Host.reduce_eq_fold_single FloatOps.maximumf z _ Gen.reducesTo_S8192x8192_S8192_d1 (by decide) Gen.h_S_ (ix1 i)]
  have hrow : (z ∘ (by decide : S8192x8192.Reduces [1] S8192).lift (ix1 i)) = fun j : Fin 8192 => z (ix2 i j) :=
    funext fun k => congrArg z (lift_row _ i k)
  rw [hrow]
  rfl

/-- Entry (i, j) of the normalised weights: the entry divided by zero plus the sum of row i. -/
theorem rNorm_apply (p : FVec Ideal S8192x8192 .f32) (i j : Fin 8192) :
    rNorm (F := Ideal) p (ix2 i j) = Ideal.div (p (ix2 i j)) (Cert.Hand.Att.zero + ∑ j' : Fin 8192, p (ix2 i j')) := by
  unfold rNorm
  show Ideal.div (p (ix2 i j)) _ = _
  refine congrArg (Ideal.div (p (ix2 i j))) ?_
  rw [spread_apply]
  show Ideal.hostReduceAdd Gen.reducesTo_S8192x8192_S8192_d1 p Cert.Hand.Att.zero (ix1 i) = _
  rw [Ideal.hostReduceAdd_single Gen.reducesTo_S8192x8192_S8192_d1 (by decide)]
  refine congrArg (_ + ·) (Finset.sum_congr rfl fun k _ => ?_)
  exact congrArg p (lift_row _ i k)

/-- Entry (i, j) of the row softmax: the reference's normalised weight j of row i. -/
theorem rSoft_apply (z : FVec Ideal S8192x8192 .f32) (i j : Fin 8192) :
    rSoft (F := Ideal) z (ix2 i j) = Cert.Hand.Att.attR (fun j => z (ix2 i j)) j := by
  unfold rSoft
  rw [rNorm_apply]
  unfold Cert.Hand.Att.attR Cert.Hand.Att.denR Cert.Hand.Att.pR
  have hexp : ∀ j' : Fin 8192, Host.exp (F := Ideal) (rShift z) (ix2 i j')
      = Ideal.exp (z (ix2 i j') - Cert.Hand.Att.rmaxR (fun j => z (ix2 i j))) := fun j' => by
    show Ideal.exp (rShift (F := Ideal) z (ix2 i j')) = _
    rw [rShift_apply]
  simp only [hexp]

/-! ### The composition -/

/-- Entry (i, k) of the twice-rectified attention product is the reference's row function at row i's data. -/
theorem rAtt_apply (adj : FVec Ideal S8192x8192 .f32) (s1 s2 : FVec Ideal S8192x1 .f32) (wh : FVec Ideal S8192x128 .f32)
    (i : Fin 8192) (k : Fin 128) :
    rElu (F := Ideal) (rElu (rAwh (rSoft (rMask adj (rE s1 s2))) wh)) (ix2 i k)
      = Cert.Hand.Att.gR (fun j => adj (ix2 i j)) (s1 (ix2 i (0 : Fin 1))) (fun j => s2 (ix2 j (0 : Fin 1)))
          (fun j k => wh (ix2 j k)) k := by
  rw [rElu_apply, rElu_apply, rAwh_apply]
  unfold Cert.Hand.Att.gR Cert.Hand.Att.awhR
  simp only [rSoft_apply, rMask_rE_row]

end Cert.ReferenceIdeal.HandVal

end
-- ==== Proof.Bridge.Ref.lean ====
import proofs.«109506_g1580547973939_cont_week2b_922_2_alg».proof.Proof.Ref.Dots
import proofs.«109506_g1580547973939_cont_week2b_922_2_alg».proof.Proof.Ref.Att
import proofs.«109506_g1580547973939_cont_week2b_922_2_alg».proof.Proof.Att.Law
import proofs.«109506_g1580547973939_cont_week2b_922_2_alg».proof.Proof.Bridge.Spec
import proofs.«109506_g1580547973939_cont_week2b_922_2_alg».proof.Proof.LibIdealFinite

noncomputable section

open scoped BigOperators

namespace Cert.ReferenceIdeal.HandVal

open Cert.ReferenceIdeal Cert.ReferenceIdeal.Gen Cert.ReferenceIdeal.Hand Idealize.ShloMosaic Idealize.ShloMosaic.ValueIdx
open Cert.Hand IdealFinite

/-! ## The reference's stages against the common specification, index by index -/

/-- The projected features are the specification's. -/
theorem ref_Wh (x : FVec Ideal S8192x256 .f32) (wa : FVec Ideal S256x128 .f32) (i : Fin 8192) (k : Fin 128) :
    rWh (F := Ideal) x wa (ix2 i k) = Spec.Wh x wa i k := by
  rw [rWh_apply]; rfl

/-- The first score: the projected features against the upper half of the attention vector. -/
theorem ref_s1 (x : FVec Ideal S8192x256 .f32) (wa : FVec Ideal S256x128 .f32) (a : FVec Ideal S256x1 .f32) (i : Fin 8192) :
    rS (F := Ideal) (rWh x wa) (rA1 a) (ix2 i (0 : Fin 1)) = Spec.s1 x wa a i := by
  rw [rS_apply]
  unfold Spec.s1
  exact Finset.sum_congr rfl fun k _ => by rw [ref_Wh, rA1_apply]

/-- The second score: the projected features against the lower half of the attention vector. -/
theorem ref_s2 (x : FVec Ideal S8192x256 .f32) (wa : FVec Ideal S256x128 .f32) (a : FVec Ideal S256x1 .f32) (i : Fin 8192) :
    rS (F := Ideal) (rWh x wa) (rA2 a) (ix2 i (0 : Fin 1)) = Spec.s2 x wa a i := by
  rw [rS_apply]
  unfold Spec.s2
  exact Finset.sum_congr rfl fun k _ => by rw [ref_Wh, rA2_apply]

/-- With real features, weights and attention vector, the projected features are real: finite sums of products. -/
theorem allFin_rWh {x : FVec Ideal S8192x256 .f32} {wa : FVec Ideal S256x128 .f32} (hx : AllFin x) (hwa : AllFin wa) :
    AllFin (rWh (F := Ideal) x wa) := AllFin.dotGeneral hx hwa

/-- Either half of a real attention vector is real: its entries are entries of the vector. -/
theorem allFin_rA1 {a : FVec Ideal S256x1 .f32} (ha : AllFin a) : AllFin (rA1 (F := Ideal) a) := fun _ => ha _
theorem allFin_rA2 {a : FVec Ideal S256x1 .f32} (ha : AllFin a) : AllFin (rA2 (F := Ideal) a) := fun _ => ha _

/-- The attention block — masked leaky scores, row softmax, the weighted feature sum, the exponential linear unit
    twice — at (i, k) is the specification's row function at node i's data: the reference's order of operations
    agrees with the specification's because the scores and the projected features are real. -/
theorem ref_G (x : FVec Ideal S8192x256 .f32) (adj : FVec Ideal S8192x8192 .f32) (wa : FVec Ideal S256x128 .f32)
    (a : FVec Ideal S256x1 .f32)
    (hx : IdealFinite.AllFin x) (hwa : IdealFinite.AllFin wa) (ha : IdealFinite.AllFin a) (i : Fin 8192) (k : Fin 128) :
    rElu (F := Ideal) (rElu (rAwh (rSoft (rMask adj (rE (rS (rWh x wa) (rA1 a)) (rS (rWh x wa) (rA2 a)))))
        (rWh x wa))) (ix2 i k) = Spec.G x adj wa a i k := by
  have hWh : AllFin (rWh (F := Ideal) x wa) := allFin_rWh hx hwa
  have hS1 : AllFin (rS (F := Ideal) (rWh x wa) (rA1 a)) := AllFin.dotGeneral hWh (allFin_rA1 ha)
  have hS2 : AllFin (rS (F := Ideal) (rWh x wa) (rA2 a)) := AllFin.dotGeneral hWh (allFin_rA2 ha)
  have e1 : rS (F := Ideal) (rWh x wa) (rA1 a) (ix2 i (0 : Fin 1)) = Spec.s1 x wa a i := ref_s1 x wa a i
  have e2 : (fun j : Fin 8192 => rS (F := Ideal) (rWh x wa) (rA2 a) (ix2 j (0 : Fin 1))) = Spec.s2 x wa a :=
    funext fun j => ref_s2 x wa a j
  have e3 : (fun (j : Fin 8192) (k : Fin 128) => rWh (F := Ideal) x wa (ix2 j k)) = Spec.Wh x wa :=
    funext fun j => funext fun k => ref_Wh x wa j k
  rw [rAtt_apply, Att.gR_eq_g _ _ _ _ _ (hS1 _) (fun j => hS2 _) (fun j k => hWh _), e1, e2, e3]
  rfl

/-- The first layer's support. -/
theorem ref_sup (x : FVec Ideal S8192x256 .f32) (adj : FVec Ideal S8192x8192 .f32) (wa : FVec Ideal S256x128 .f32)
    (a : FVec Ideal S256x1 .f32) (w1 : FVec Ideal S128x64 .f32)
    (hx : IdealFinite.AllFin x) (hwa : IdealFinite.AllFin wa) (ha : IdealFinite.AllFin a) (i : Fin 8192) (q : Fin 64) :
    rSup (F := Ideal) (rElu (F := Ideal) (rElu (rAwh (rSoft (rMask adj (rE (rS (rWh x wa) (rA1 a)) (rS (rWh x wa) (rA2 a)))))
        (rWh x wa)))) w1 (ix2 i q) = Spec.sup x adj wa a w1 i q := by
  rw [rSup_apply]
  unfold Spec.sup
  exact Finset.sum_congr rfl fun k _ => by rw [ref_G x adj wa a hx hwa ha]

/-- The hidden layer: the support aggregated over neighbours, rectified. -/
theorem ref_hid (x : FVec Ideal S8192x256 .f32) (adj : FVec Ideal S8192x8192 .f32) (wa : FVec Ideal S256x128 .f32)
    (a : FVec Ideal S256x1 .f32) (w1 : FVec Ideal S128x64 .f32)
    (hx : IdealFinite.AllFin x) (hwa : IdealFinite.AllFin wa) (ha : IdealFinite.AllFin a) (i : Fin 8192) (k : Fin 64) :
    rHid (F := Ideal) x adj wa a w1 (ix2 i k) = Spec.hid x adj wa a w1 i k := by
  unfold rHid
  rw [rRelu_apply, rAgg_apply]
  unfold Spec.hid
  exact congrArg (max · 0) (Finset.sum_congr rfl fun j _ => by rw [ref_sup x adj wa a w1 hx hwa ha])

/-- A head's linear map of the hidden layer. -/
theorem ref_lin (x : FVec Ideal S8192x256 .f32) (adj : FVec Ideal S8192x8192 .f32) (wa : FVec Ideal S256x128 .f32)
    (a : FVec Ideal S256x1 .f32) (w1 : FVec Ideal S128x64 .f32) (w : FVec Ideal S64x64 .f32)
    (hx : IdealFinite.AllFin x) (hwa : IdealFinite.AllFin wa) (ha : IdealFinite.AllFin a) (i : Fin 8192) (q : Fin 64) :
    rLin (F := Ideal) (rHid x adj wa a w1) w (ix2 i q) = Spec.lin x adj wa a w1 w i q := by
  rw [rLin_apply]
  unfold Spec.lin
  exact Finset.sum_congr rfl fun k _ => by rw [ref_hid x adj wa a w1 hx hwa ha]

/-- The mean head. -/
theorem ref_mu (x : FVec Ideal S8192x256 .f32) (adj : FVec Ideal S8192x8192 .f32) (wa : FVec Ideal S256x128 .f32)
    (a : FVec Ideal S256x1 .f32) (w1 : FVec Ideal S128x64 .f32) (w2 : FVec Ideal S64x64 .f32)
    (hx : IdealFinite.AllFin x) (hwa : IdealFinite.AllFin wa) (ha : IdealFinite.AllFin a) (i : Fin 8192) (q : Fin 64) :
    rMu (F := Ideal) x adj wa a w1 w2 (ix2 i q) = Cert.Hand.Spec.agg x adj wa a w1 w2 i q := by
  unfold rMu
  rw [rAgg_apply]
  unfold Spec.agg
  exact Finset.sum_congr rfl fun j _ => by rw [ref_lin x adj wa a w1 w2 hx hwa ha]

/-- The log-variance head. -/
theorem ref_lv (x : FVec Ideal S8192x256 .f32) (adj : FVec Ideal S8192x8192 .f32) (wa : FVec Ideal S256x128 .f32)
    (a : FVec Ideal S256x1 .f32) (w1 : FVec Ideal S128x64 .f32) (w3 : FVec Ideal S64x64 .f32)
    (hx : IdealFinite.AllFin x) (hwa : IdealFinite.AllFin wa) (ha : IdealFinite.AllFin a) (i : Fin 8192) (q : Fin 64) :
    rLv (F := Ideal) x adj wa a w1 w3 (ix2 i q) = Cert.Hand.Spec.agg x adj wa a w1 w3 i q := by
  unfold rLv
  rw [rAgg_apply]
  unfold Spec.agg
  exact Finset.sum_congr rfl fun j _ => by rw [ref_lin x adj wa a w1 w3 hx hwa ha]

/-- The reconstruction: the products of two rows of the mean head, summed. -/
theorem ref_recon (x : FVec Ideal S8192x256 .f32) (adj : FVec Ideal S8192x8192 .f32) (wa : FVec Ideal S256x128 .f32)
    (a : FVec Ideal S256x1 .f32) (w1 : FVec Ideal S128x64 .f32) (w2 : FVec Ideal S64x64 .f32)
    (hx : IdealFinite.AllFin x) (hwa : IdealFinite.AllFin wa) (ha : IdealFinite.AllFin a) (i j : Fin 8192) :
    rRecon (F := Ideal) (rMu x adj wa a w1 w2) (ix2 i j) = Cert.Hand.Spec.recon x adj wa a w1 w2 i j := by
  rw [rRecon_apply]
  unfold Spec.recon
  exact Finset.sum_congr rfl fun l _ => by rw [ref_mu x adj wa a w1 w2 hx hwa ha, ref_mu x adj wa a w1 w2 hx hwa ha]

end Cert.ReferenceIdeal.HandVal

end
-- ==== Proof.lean ====
/-
  The kernel computes a graph-attention encoder followed by two graph convolutions and an inner-product decoder,
  over a dense 8192 × 8192 adjacency, in five pallas calls; the reference computes the same with jnp on the host.

  In both, with Wh = x · W_att and the scores s1 = Wh · a[:128], s2 = Wh · a[128:], node i attends to the nodes j
  with adj i j > 0 with weights softmax_j (leaky (s1 i + s2 j)) — the others get the finite fill −9·10^15, the same
  literal in both programs —, the attended features pass twice through the exponential-linear unit and once through
  W1, the adjacency aggregates them (hidden = relu), and mu, logvar = adj · (hidden · W2), adj · (hidden · W3);
  the third result is mu · muᵀ.  Where the two differ is only in how the same numbers are spelled:
    * the leaky unit as max e (c·e) against a select on e ≥ 0 (equal for every real e, the slope c being in (0, 1));
    * the softmax's quotient after the weighted sum, (Σ_j p_j · Wh_j) / Σ_j p_j, against before it,
      Σ_j (p_j / Σ p) · Wh_j: equal because every p_j is a positive real and every Wh_j a real — THIS is where the
      precondition (finite inputs) is used, through x, W_att and a;
    * exp v − 1 against expm1 v times one;
    * W2 and W3 side by side in one product against two products; a column reshaped against transposed; row blocks
      against whole arrays; sums taken in another grouping — none of which changes a finite sum of extended reals.
  So the two idealized programs, run from memories agreeing on the arguments, end with equal results.  The frames:
  each kernel program is run as nine segments (host stretches and the five calls), each call's windows staged and
  written back by the pipeline, its body reading and storing whole blocks; every argument array is only read.
  The idealization pass rewrote nothing, so the word-level program and its idealization are the same text.
-/
import proofs.«109506_g1580547973939_cont_week2b_922_2_alg».proof.Defs
import proofs.«109506_g1580547973939_cont_week2b_922_2_alg».proof.Proof.Gen.Kernel
import proofs.«109506_g1580547973939_cont_week2b_922_2_alg».proof.Proof.Gen.KernelIdeal
import proofs.«109506_g1580547973939_cont_week2b_922_2_alg».proof.Proof.Gen.ReferenceIdeal
import proofs.«109506_g1580547973939_cont_week2b_922_2_alg».proof.Proof.Gen.Pre_finite_inputs
import proofs.«109506_g1580547973939_cont_week2b_922_2_alg».proof.Proof.K.Run
import proofs.«109506_g1580547973939_cont_week2b_922_2_alg».proof.Proof.KI.Run
import proofs.«109506_g1580547973939_cont_week2b_922_2_alg».proof.Proof.Ref.Run
import proofs.«109506_g1580547973939_cont_week2b_922_2_alg».proof.Proof.Fin.Pre
import proofs.«109506_g1580547973939_cont_week2b_922_2_alg».proof.Proof.Bridge.Kernel
import proofs.«109506_g1580547973939_cont_week2b_922_2_alg».proof.Proof.Bridge.Ref
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx

/-- The word-level kernel program runs to the end, faults nowhere, and leaves its arguments as launched. -/
theorem frame_p : Cert.frame_Kernel := fun m ρ _ => Cert.Kernel.Hand.frame (F := Bits) m ρ

/-- The same for its idealization. -/
theorem frame_pi : Cert.frame_KernelIdeal := fun m ρ _ => Cert.KernelIdeal.Hand.frame (F := Ideal) m ρ

/-- The reference is a host program: its run, the results dropped. -/
theorem frame_ri : Cert.frame_ReferenceIdeal := fun m ρ _ =>
  (θ_run Cert.ReferenceIdeal.defs _ _).mono (fun _ h c => (h c).2.2.2) (Cert.ReferenceIdeal.Hand.run (F := Ideal) m ρ)

/-- The idealization pass rewrote no operation. -/
theorem preserves : Cert.preserves_Kernel_KernelIdeal := trivial

open Cert.KernelIdeal Cert.KernelIdeal.Hand Cert.KernelIdeal.HandVal in
/-- Run from memories agreeing on the arguments, the idealized kernel ends with its three results at the last
    boundary's contents, and the idealized reference ends at the same arrays: both are the common specification,
    index by index, the reference's side using that `x`, `W_att` and `a` are real. -/
theorem algebraic : Cert.algebraic_KernelIdeal_ReferenceIdeal := by
  intro m ρ m' ρ' hpre hagree
  refine ⟨fun c => W9 m c (Proc.devRef .tc main_v10), fun c => W9 m c (Proc.devRef .tc main_v8), fun c => W9 m c (Proc.devRef .tc main_v9), ?_, ?_⟩
  · exact (θ_run Cert.KernelIdeal.defs _ _).mono (fun r h c =>
      ⟨h c _ (mem_uc main_v10 (by decide)), h c _ (mem_uc main_v8 (by decide)), h c _ (mem_uc main_v9 (by decide)),
       (h c _ (mem_uc main_arg0 (by decide))).trans (W9_main_arg0 m c),
       (h c _ (mem_uc main_arg1 (by decide))).trans (W9_main_arg1 m c),
       (h c _ (mem_uc main_arg2 (by decide))).trans (W9_main_arg2 m c),
       (h c _ (mem_uc main_arg3 (by decide))).trans (W9_main_arg3 m c),
       (h c _ (mem_uc main_arg4 (by decide))).trans (W9_main_arg4 m c),
       (h c _ (mem_uc main_arg5 (by decide))).trans (W9_main_arg5 m c),
       (h c _ (mem_uc main_arg6 (by decide))).trans (W9_main_arg6 m c)⟩) (run_all (F := Ideal) m ρ)
  · refine (θ_run Cert.ReferenceIdeal.defs _ _).mono (fun r h c => ?_) (Cert.ReferenceIdeal.Hand.run (F := Ideal) m' ρ')
    obtain ⟨h36, h32, h34, hargs⟩ := h c
    obtain ⟨e0, e1, e2, e3, e4, e5, e6⟩ := hagree c
    obtain ⟨f0, f1, f2, f3, f4, f5, f6⟩ := Cert.Hand.Fin.allFin_of_pre m hpre c
    refine ⟨h36.trans ?_, h32.trans ?_, h34.trans ?_, hargs⟩
    · rw [e0, e1, e2, e3, e4, e5]
      funext j
      rw [eq_ix2 j]
      exact (Cert.ReferenceIdeal.HandVal.ref_recon _ _ _ _ _ _ f0 f2 f3 (j 0) (j 1)).trans (kernel_recon m c (j 0) (j 1)).symm
    · rw [e0, e1, e2, e3, e4, e5]
      funext j
      rw [eq_ix2 j]
      exact (Cert.ReferenceIdeal.HandVal.ref_mu _ _ _ _ _ _ f0 f2 f3 (j 0) (j 1)).trans (kernel_mu m c (j 0) (j 1)).symm
    · rw [e0, e1, e2, e3, e4, e6]
      funext j
      rw [eq_ix2 j]
      exact (Cert.ReferenceIdeal.HandVal.ref_lv _ _ _ _ _ _ f0 f2 f3 (j 0) (j 1)).trans (kernel_lv m c (j 0) (j 1)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
